-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S1024x512 : Shape := ⟨2, ![1024, 512]⟩
abbrev S1x512 : Shape := ⟨2, ![1, 512]⟩
abbrev S16x512 : Shape := ⟨2, ![16, 512]⟩
abbrev S_ : Shape := ⟨0, ![]⟩
abbrev S16 : Shape := ⟨1, ![16]⟩
abbrev S512 : Shape := ⟨1, ![512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1x512, .f32⟩
  | .local _ .vmem, ⟨1, _⟩ => ⟨S16x512, .f32⟩
  | .local _ .vmem, ⟨2, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v204 : BitVec 32 := Scalar.addi v2 c1_i32_139
  let c16_i32_140 : BitVec 32 := 16#32
  let c0_i32_141 : BitVec 32 := 0#32
  let v205 : BitVec 1 := Scalar.cmpi .eq c16_i32_140 c0_i32_141
  let c1_i32_142 : BitVec 32 := 1#32
  let v206 : BitVec 32 := Scalar.select v205 c1_i32_142 c16_i32_140
  let v207 : BitVec 32 := Scalar.remsi v204 v206
  let c0_i32_144 : BitVec 32 := 0#32
  let v209 : BitVec 1 := Scalar.cmpi .slt v207 c0_i32_144
  let c0_i32_145 : BitVec 32 := 0#32
  let v210 : BitVec 1 := Scalar.cmpi .slt v206 c0_i32_145
  let v211 : BitVec 1 := Scalar.xori v209 v210
  let c0_i32_143 : BitVec 32 := 0#32
  let v208 : BitVec 1 := Scalar.cmpi .ne v207 c0_i32_143
  let v212 : BitVec 1 := Scalar.andi v211 v208
  let v213 : BitVec 32 := Scalar.addi v207 v206
  let v214 : BitVec 32 := Scalar.select v212 v213 v207
  let c1_i32_150 : BitVec 32 := 1#32
  let v215 : BitVec 32 := Scalar.muli v214 c1_i32_150
  let v216 : BitVec 32 := Scalar.addi c0_i32_151 v215
  v216.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_154 : BitVec 32 := 2#32
  let v225 : BitVec 32 := Scalar.addi v2 c2_i32_154
  let c16_i32_155 : BitVec 32 := 16#32
  let c0_i32_156 : BitVec 32 := 0#32
  let v226 : BitVec 1 := Scalar.cmpi .eq c16_i32_155 c0_i32_156
  let c1_i32_157 : BitVec 32 := 1#32
  let v227 : BitVec 32 := Scalar.select v226 c1_i32_157 c16_i32_155
  let v228 : BitVec 32 := Scalar.remsi v225 v227
  let c0_i32_159 : BitVec 32 := 0#32
  let v230 : BitVec 1 := Scalar.cmpi .slt v228 c0_i32_159
  let c0_i32_160 : BitVec 32 := 0#32
  let v231 : BitVec 1 := Scalar.cmpi .slt v227 c0_i32_160
  let v232 : BitVec 1 := Scalar.xori v230 v231
  let c0_i32_158 : BitVec 32 := 0#32
  let v229 : BitVec 1 := Scalar.cmpi .ne v228 c0_i32_158
  let v233 : BitVec 1 := Scalar.andi v232 v229
  let v234 : BitVec 32 := Scalar.addi v228 v227
  let v235 : BitVec 32 := Scalar.select v233 v234 v228
  let c1_i32_165 : BitVec 32 := 1#32
  let v236 : BitVec 32 := Scalar.muli v235 c1_i32_165
  let v237 : BitVec 32 := Scalar.addi c0_i32_166 v236
  v237.toNat
def k0_dev18 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_169 : BitVec 32 := 3#32
  let v246 : BitVec 32 := Scalar.addi v2 c3_i32_169
  let c16_i32_170 : BitVec 32 := 16#32
  let c0_i32_171 : BitVec 32 := 0#32
  let v247 : BitVec 1 := Scalar.cmpi .eq c16_i32_170 c0_i32_171
  let c1_i32_172 : BitVec 32 := 1#32
  let v248 : BitVec 32 := Scalar.select v247 c1_i32_172 c16_i32_170
  let v249 : BitVec 32 := Scalar.remsi v246 v248
  let c0_i32_174 : BitVec 32 := 0#32
  let v251 : BitVec 1 := Scalar.cmpi .slt v249 c0_i32_174
  let c0_i32_175 : BitVec 32 := 0#32
  let v252 : BitVec 1 := Scalar.cmpi .slt v248 c0_i32_175
  let v253 : BitVec 1 := Scalar.xori v251 v252
  let c0_i32_173 : BitVec 32 := 0#32
  let v250 : BitVec 1 := Scalar.cmpi .ne v249 c0_i32_173
  let v254 : BitVec 1 := Scalar.andi v253 v250
  let v255 : BitVec 32 := Scalar.addi v249 v248
  let v256 : BitVec 32 := Scalar.select v254 v255 v249
  let c1_i32_180 : BitVec 32 := 1#32
  let v257 : BitVec 32 := Scalar.muli v256 c1_i32_180
  let v258 : BitVec 32 := Scalar.addi c0_i32_181 v257
  v258.toNat
def k0_dev19 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_184 : BitVec 32 := 4#32
  let v267 : BitVec 32 := Scalar.addi v2 c4_i32_184
  let c16_i32_185 : BitVec 32 := 16#32
  let c0_i32_186 : BitVec 32 := 0#32
  let v268 : BitVec 1 := Scalar.cmpi .eq c16_i32_185 c0_i32_186
  let c1_i32_187 : BitVec 32 := 1#32
  let v269 : BitVec 32 := Scalar.select v268 c1_i32_187 c16_i32_185
  let v270 : BitVec 32 := Scalar.remsi v267 v269
  let c0_i32_189 : BitVec 32 := 0#32
  let v272 : BitVec 1 := Scalar.cmpi .slt v270 c0_i32_189
  let c0_i32_190 : BitVec 32 := 0#32
  let v273 : BitVec 1 := Scalar.cmpi .slt v269 c0_i32_190
  let v274 : BitVec 1 := Scalar.xori v272 v273
  let c0_i32_188 : BitVec 32 := 0#32
  let v271 : BitVec 1 := Scalar.cmpi .ne v270 c0_i32_188
  let v275 : BitVec 1 := Scalar.andi v274 v271
  let v276 : BitVec 32 := Scalar.addi v270 v269
  let v277 : BitVec 32 := Scalar.select v275 v276 v270
  let c1_i32_195 : BitVec 32 := 1#32
  let v278 : BitVec 32 := Scalar.muli v277 c1_i32_195
  let v279 : BitVec 32 := Scalar.addi c0_i32_196 v278
  v279.toNat
def k0_dev20 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_199 : BitVec 32 := 5#32
  let v288 : BitVec 32 := Scalar.addi v2 c5_i32_199
  let c16_i32_200 : BitVec 32 := 16#32
  let c0_i32_201 : BitVec 32 := 0#32
  let v289 : BitVec 1 := Scalar.cmpi .eq c16_i32_200 c0_i32_201
  let c1_i32_202 : BitVec 32 := 1#32
  let v290 : BitVec 32 := Scalar.select v289 c1_i32_202 c16_i32_200
  let v291 : BitVec 32 := Scalar.remsi v288 v290
  let c0_i32_204 : BitVec 32 := 0#32
  let v293 : BitVec 1 := Scalar.cmpi .slt v291 c0_i32_204
  let c0_i32_205 : BitVec 32 := 0#32
  let v294 : BitVec 1 := Scalar.cmpi .slt v290 c0_i32_205
  let v295 : BitVec 1 := Scalar.xori v293 v294
  let c0_i32_203 : BitVec 32 := 0#32
  let v292 : BitVec 1 := Scalar.cmpi .ne v291 c0_i32_203
  let v296 : BitVec 1 := Scalar.andi v295 v292
  let v297 : BitVec 32 := Scalar.addi v291 v290
  let v298 : BitVec 32 := Scalar.select v296 v297 v291
  let c1_i32_210 : BitVec 32 := 1#32
  let v299 : BitVec 32 := Scalar.muli v298 c1_i32_210
  let v300 : BitVec 32 := Scalar.addi c0_i32_211 v299
  v300.toNat
def k0_dev21 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_214 : BitVec 32 := 6#32
  let v309 : BitVec 32 := Scalar.addi v2 c6_i32_214
  let c16_i32_215 : BitVec 32 := 16#32
  let c0_i32_216 : BitVec 32 := 0#32
  let v310 : BitVec 1 := Scalar.cmpi .eq c16_i32_215 c0_i32_216
  let c1_i32_217 : BitVec 32 := 1#32
  let v311 : BitVec 32 := Scalar.select v310 c1_i32_217 c16_i32_215
  let v312 : BitVec 32 := Scalar.remsi v309 v311
  let c0_i32_219 : BitVec 32 := 0#32
  let v314 : BitVec 1 := Scalar.cmpi .slt v312 c0_i32_219
  let c0_i32_220 : BitVec 32 := 0#32
  let v315 : BitVec 1 := Scalar.cmpi .slt v311 c0_i32_220
  let v316 : BitVec 1 := Scalar.xori v314 v315
  let c0_i32_218 : BitVec 32 := 0#32
  let v313 : BitVec 1 := Scalar.cmpi .ne v312 c0_i32_218
  let v317 : BitVec 1 := Scalar.andi v316 v313
  let v318 : BitVec 32 := Scalar.addi v312 v311
  let v319 : BitVec 32 := Scalar.select v317 v318 v312
  let c1_i32_225 : BitVec 32 := 1#32
  let v320 : BitVec 32 := Scalar.muli v319 c1_i32_225
  let v321 : BitVec 32 := Scalar.addi c0_i32_226 v320
  v321.toNat
def k0_dev22 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_229 : BitVec 32 := 7#32
  let v330 : BitVec 32 := Scalar.addi v2 c7_i32_229
  let c16_i32_230 : BitVec 32 := 16#32
  let c0_i32_231 : BitVec 32 := 0#32
  let v331 : BitVec 1 := Scalar.cmpi .eq c16_i32_230 c0_i32_231
  let c1_i32_232 : BitVec 32 := 1#32
  let v332 : BitVec 32 := Scalar.select v331 c1_i32_232 c16_i32_230
  let v333 : BitVec 32 := Scalar.remsi v330 v332
  let c0_i32_234 : BitVec 32 := 0#32
  let v335 : BitVec 1 := Scalar.cmpi .slt v333 c0_i32_234
  let c0_i32_235 : BitVec 32 := 0#32
  let v336 : BitVec 1 := Scalar.cmpi .slt v332 c0_i32_235
  let v337 : BitVec 1 := Scalar.xori v335 v336
  let c0_i32_233 : BitVec 32 := 0#32
  let v334 : BitVec 1 := Scalar.cmpi .ne v333 c0_i32_233
  let v338 : BitVec 1 := Scalar.andi v337 v334
  let v339 : BitVec 32 := Scalar.addi v333 v332
  let v340 : BitVec 32 := Scalar.select v338 v339 v333
  let c1_i32_240 : BitVec 32 := 1#32
  let v341 : BitVec 32 := Scalar.muli v340 c1_i32_240
  let v342 : BitVec 32 := Scalar.addi c0_i32_241 v341
  v342.toNat
def k0_dev23 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_244 : BitVec 32 := 8#32
  let v351 : BitVec 32 := Scalar.addi v2 c8_i32_244
  let c16_i32_245 : BitVec 32 := 16#32
  let c0_i32_246 : BitVec 32 := 0#32
  let v352 : BitVec 1 := Scalar.cmpi .eq c16_i32_245 c0_i32_246
  let c1_i32_247 : BitVec 32 := 1#32
  let v353 : BitVec 32 := Scalar.select v352 c1_i32_247 c16_i32_245
  let v354 : BitVec 32 := Scalar.remsi v351 v353
  let c0_i32_249 : BitVec 32 := 0#32
  let v356 : BitVec 1 := Scalar.cmpi .slt v354 c0_i32_249
  let c0_i32_250 : BitVec 32 := 0#32
  let v357 : BitVec 1 := Scalar.cmpi .slt v353 c0_i32_250
  let v358 : BitVec 1 := Scalar.xori v356 v357
  let c0_i32_248 : BitVec 32 := 0#32
  let v355 : BitVec 1 := Scalar.cmpi .ne v354 c0_i32_248
  let v359 : BitVec 1 := Scalar.andi v358 v355
  let v360 : BitVec 32 := Scalar.addi v354 v353
  let v361 : BitVec 32 := Scalar.select v359 v360 v354
  let c1_i32_255 : BitVec 32 := 1#32
  let v362 : BitVec 32 := Scalar.muli v361 c1_i32_255
  let v363 : BitVec 32 := Scalar.addi c0_i32_256 v362
  v363.toNat
def k0_dev24 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_259 : BitVec 32 := 9#32
  let v372 : BitVec 32 := Scalar.addi v2 c9_i32_259
  let c16_i32_260 : BitVec 32 := 16#32
  let c0_i32_261 : BitVec 32 := 0#32
  let v373 : BitVec 1 := Scalar.cmpi .eq c16_i32_260 c0_i32_261
  let c1_i32_262 : BitVec 32 := 1#32
  let v374 : BitVec 32 := Scalar.select v373 c1_i32_262 c16_i32_260
  let v375 : BitVec 32 := Scalar.remsi v372 v374
  let c0_i32_264 : BitVec 32 := 0#32
  let v377 : BitVec 1 := Scalar.cmpi .slt v375 c0_i32_264
  let c0_i32_265 : BitVec 32 := 0#32
  let v378 : BitVec 1 := Scalar.cmpi .slt v374 c0_i32_265
  let v379 : BitVec 1 := Scalar.xori v377 v378
  let c0_i32_263 : BitVec 32 := 0#32
  let v376 : BitVec 1 := Scalar.cmpi .ne v375 c0_i32_263
  let v380 : BitVec 1 := Scalar.andi v379 v376
  let v381 : BitVec 32 := Scalar.addi v375 v374
  let v382 : BitVec 32 := Scalar.select v380 v381 v375
  let c1_i32_270 : BitVec 32 := 1#32
  let v383 : BitVec 32 := Scalar.muli v382 c1_i32_270
  let v384 : BitVec 32 := Scalar.addi c0_i32_271 v383
  v384.toNat
def k0_dev25 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_274 : BitVec 32 := 10#32
  let v393 : BitVec 32 := Scalar.addi v2 c10_i32_274
  let c16_i32_275 : BitVec 32 := 16#32
  let c0_i32_276 : BitVec 32 := 0#32
  let v394 : BitVec 1 := Scalar.cmpi .eq c16_i32_275 c0_i32_276
  let c1_i32_277 : BitVec 32 := 1#32
  let v395 : BitVec 32 := Scalar.select v394 c1_i32_277 c16_i32_275
  let v396 : BitVec 32 := Scalar.remsi v393 v395
  let c0_i32_279 : BitVec 32 := 0#32
  let v398 : BitVec 1 := Scalar.cmpi .slt v396 c0_i32_279
  let c0_i32_280 : BitVec 32 := 0#32
  let v399 : BitVec 1 := Scalar.cmpi .slt v395 c0_i32_280
  let v400 : BitVec 1 := Scalar.xori v398 v399
  let c0_i32_278 : BitVec 32 := 0#32
  let v397 : BitVec 1 := Scalar.cmpi .ne v396 c0_i32_278
  let v401 : BitVec 1 := Scalar.andi v400 v397
  let v402 : BitVec 32 := Scalar.addi v396 v395
  let v403 : BitVec 32 := Scalar.select v401 v402 v396
  let c1_i32_285 : BitVec 32 := 1#32
  let v404 : BitVec 32 := Scalar.muli v403 c1_i32_285
  let v405 : BitVec 32 := Scalar.addi c0_i32_286 v404
  v405.toNat
def k0_dev26 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_289 : BitVec 32 := 11#32
  let v414 : BitVec 32 := Scalar.addi v2 c11_i32_289
  let c16_i32_290 : BitVec 32 := 16#32
  let c0_i32_291 : BitVec 32 := 0#32
  let v415 : BitVec 1 := Scalar.cmpi .eq c16_i32_290 c0_i32_291
  let c1_i32_292 : BitVec 32 := 1#32
  let v416 : BitVec 32 := Scalar.select v415 c1_i32_292 c16_i32_290
  let v417 : BitVec 32 := Scalar.remsi v414 v416
  let c0_i32_294 : BitVec 32 := 0#32
  let v419 : BitVec 1 := Scalar.cmpi .slt v417 c0_i32_294
  let c0_i32_295 : BitVec 32 := 0#32
  let v420 : BitVec 1 := Scalar.cmpi .slt v416 c0_i32_295
  let v421 : BitVec 1 := Scalar.xori v419 v420
  let c0_i32_293 : BitVec 32 := 0#32
  let v418 : BitVec 1 := Scalar.cmpi .ne v417 c0_i32_293
  let v422 : BitVec 1 := Scalar.andi v421 v418
  let v423 : BitVec 32 := Scalar.addi v417 v416
  let v424 : BitVec 32 := Scalar.select v422 v423 v417
  let c1_i32_300 : BitVec 32 := 1#32
  let v425 : BitVec 32 := Scalar.muli v424 c1_i32_300
  let v426 : BitVec 32 := Scalar.addi c0_i32_301 v425
  v426.toNat
def k0_dev27 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_304 : BitVec 32 := 12#32
  let v435 : BitVec 32 := Scalar.addi v2 c12_i32_304
  let c16_i32_305 : BitVec 32 := 16#32
  let c0_i32_306 : BitVec 32 := 0#32
  let v436 : BitVec 1 := Scalar.cmpi .eq c16_i32_305 c0_i32_306
  let c1_i32_307 : BitVec 32 := 1#32
  let v437 : BitVec 32 := Scalar.select v436 c1_i32_307 c16_i32_305
  let v438 : BitVec 32 := Scalar.remsi v435 v437
  let c0_i32_309 : BitVec 32 := 0#32
  let v440 : BitVec 1 := Scalar.cmpi .slt v438 c0_i32_309
  let c0_i32_310 : BitVec 32 := 0#32
  let v441 : BitVec 1 := Scalar.cmpi .slt v437 c0_i32_310
  let v442 : BitVec 1 := Scalar.xori v440 v441
  let c0_i32_308 : BitVec 32 := 0#32
  let v439 : BitVec 1 := Scalar.cmpi .ne v438 c0_i32_308
  let v443 : BitVec 1 := Scalar.andi v442 v439
  let v444 : BitVec 32 := Scalar.addi v438 v437
  let v445 : BitVec 32 := Scalar.select v443 v444 v438
  let c1_i32_315 : BitVec 32 := 1#32
  let v446 : BitVec 32 := Scalar.muli v445 c1_i32_315
  let v447 : BitVec 32 := Scalar.addi c0_i32_316 v446
  v447.toNat
def k0_dev28 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_319 : BitVec 32 := 13#32
  let v456 : BitVec 32 := Scalar.addi v2 c13_i32_319
  let c16_i32_320 : BitVec 32 := 16#32
  let c0_i32_321 : BitVec 32 := 0#32
  let v457 : BitVec 1 := Scalar.cmpi .eq c16_i32_320 c0_i32_321
  let c1_i32_322 : BitVec 32 := 1#32
  let v458 : BitVec 32 := Scalar.select v457 c1_i32_322 c16_i32_320
  let v459 : BitVec 32 := Scalar.remsi v456 v458
  let c0_i32_324 : BitVec 32 := 0#32
  let v461 : BitVec 1 := Scalar.cmpi .slt v459 c0_i32_324
  let c0_i32_325 : BitVec 32 := 0#32
  let v462 : BitVec 1 := Scalar.cmpi .slt v458 c0_i32_325
  let v463 : BitVec 1 := Scalar.xori v461 v462
  let c0_i32_323 : BitVec 32 := 0#32
  let v460 : BitVec 1 := Scalar.cmpi .ne v459 c0_i32_323
  let v464 : BitVec 1 := Scalar.andi v463 v460
  let v465 : BitVec 32 := Scalar.addi v459 v458
  let v466 : BitVec 32 := Scalar.select v464 v465 v459
  let c1_i32_330 : BitVec 32 := 1#32
  let v467 : BitVec 32 := Scalar.muli v466 c1_i32_330
  let v468 : BitVec 32 := Scalar.addi c0_i32_331 v467
  v468.toNat
def k0_dev29 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_334 : BitVec 32 := 14#32
  let v477 : BitVec 32 := Scalar.addi v2 c14_i32_334
  let c16_i32_335 : BitVec 32 := 16#32
  let c0_i32_336 : BitVec 32 := 0#32
  let v478 : BitVec 1 := Scalar.cmpi .eq c16_i32_335 c0_i32_336
  let c1_i32_337 : BitVec 32 := 1#32
  let v479 : BitVec 32 := Scalar.select v478 c1_i32_337 c16_i32_335
  let v480 : BitVec 32 := Scalar.remsi v477 v479
  let c0_i32_339 : BitVec 32 := 0#32
  let v482 : BitVec 1 := Scalar.cmpi .slt v480 c0_i32_339
  let c0_i32_340 : BitVec 32 := 0#32
  let v483 : BitVec 1 := Scalar.cmpi .slt v479 c0_i32_340
  let v484 : BitVec 1 := Scalar.xori v482 v483
  let c0_i32_338 : BitVec 32 := 0#32
  let v481 : BitVec 1 := Scalar.cmpi .ne v480 c0_i32_338
  let v485 : BitVec 1 := Scalar.andi v484 v481
  let v486 : BitVec 32 := Scalar.addi v480 v479
  let v487 : BitVec 32 := Scalar.select v485 v486 v480
  let c1_i32_345 : BitVec 32 := 1#32
  let v488 : BitVec 32 := Scalar.muli v487 c1_i32_345
  let v489 : BitVec 32 := Scalar.addi c0_i32_346 v488
  v489.toNat
def k0_dev30 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_349 : BitVec 32 := 15#32
  let v498 : BitVec 32 := Scalar.addi v2 c15_i32_349
  let c16_i32_350 : BitVec 32 := 16#32
  let c0_i32_351 : BitVec 32 := 0#32
  let v499 : BitVec 1 := Scalar.cmpi .eq c16_i32_350 c0_i32_351
  let c1_i32_352 : BitVec 32 := 1#32
  let v500 : BitVec 32 := Scalar.select v499 c1_i32_352 c16_i32_350
  let v501 : BitVec 32 := Scalar.remsi v498 v500
  let c0_i32_354 : BitVec 32 := 0#32
  let v503 : BitVec 1 := Scalar.cmpi .slt v501 c0_i32_354
  let c0_i32_355 : BitVec 32 := 0#32
  let v504 : BitVec 1 := Scalar.cmpi .slt v500 c0_i32_355
  let v505 : BitVec 1 := Scalar.xori v503 v504
  let c0_i32_353 : BitVec 32 := 0#32
  let v502 : BitVec 1 := Scalar.cmpi .ne v501 c0_i32_353
  let v506 : BitVec 1 := Scalar.andi v505 v502
  let v507 : BitVec 32 := Scalar.addi v501 v500
  let v508 : BitVec 32 := Scalar.select v506 v507 v501
  let c1_i32_360 : BitVec 32 := 1#32
  let v509 : BitVec 32 := Scalar.muli v508 c1_i32_360
  let v510 : BitVec 32 := Scalar.addi c0_i32_361 v509
  v510.toNat
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  inb_S16x512_S1x512_0_0 : ∀ a, (![0, 0] : Fin 2 → Nat) a + S1x512.size a ≤ S16x512.size a
  h_S1x512 : 0 < S1x512.numel
  shapeCasts_S1x512_S512 : S1x512.ShapeCasts S512
  shapeCasts_S512_S1x512 : S512.ShapeCasts S1x512
  hamt_15 : (15#32 : BitVec 32).msb = false
  inb_S16_S1_1 : ∀ a, (![1] : Fin 1 → Nat) a + S1.size a ≤ S16.size a
  squeezes_S1_S_ : S1.Squeezes S_
  inb_S16x512_S1x512_1_0 : ∀ a, (![1, 0] : Fin 2 → Nat) a + S1x512.size a ≤ S16x512.size a
  squeezes_S1x512_S512 : S1x512.Squeezes S512
  inb_S16_S1_2 : ∀ a, (![2] : Fin 1 → Nat) a + S1.size a ≤ S16.size a
  inb_S16x512_S1x512_2_0 : ∀ a, (![2, 0] : Fin 2 → Nat) a + S1x512.size a ≤ S16x512.size a
  inb_S16_S1_3 : ∀ a, (![3] : Fin 1 → Nat) a + S1.size a ≤ S16.size a
  inb_S16x512_S1x512_3_0 : ∀ a, (![3, 0] : Fin 2 → Nat) a + S1x512.size a ≤ S16x512.size a
  inb_S16_S1_4 : ∀ a, (![4] : Fin 1 → Nat) a + S1.size a ≤ S16.size a
  inb_S16x512_S1x512_4_0 : ∀ a, (![4, 0] : Fin 2 → Nat) a + S1x512.size a ≤ S16x512.size a
  inb_S16_S1_5 : ∀ a, (![5] : Fin 1 → Nat) a + S1.size a ≤ S16.size a
  inb_S16x512_S1x512_5_0 : ∀ a, (![5, 0] : Fin 2 → Nat) a + S1x512.size a ≤ S16x512.size a
  inb_S16_S1_6 : ∀ a, (![6] : Fin 1 → Nat) a + S1.size a ≤ S16.size a
  inb_S16x512_S1x512_6_0 : ∀ a, (![6, 0] : Fin 2 → Nat) a + S1x512.size a ≤ S16x512.size a
  inb_S16_S1_7 : ∀ a, (![7] : Fin 1 → Nat) a + S1.size a ≤ S16.size a
  inb_S16x512_S1x512_7_0 : ∀ a, (![7, 0] : Fin 2 → Nat) a + S1x512.size a ≤ S16x512.size a
  inb_S16_S1_8 : ∀ a, (![8] : Fin 1 → Nat) a + S1.size a ≤ S16.size a
  inb_S16x512_S1x512_8_0 : ∀ a, (![8, 0] : Fin 2 → Nat) a + S1x512.size a ≤ S16x512.size a
  inb_S16_S1_9 : ∀ a, (![9] : Fin 1 → Nat) a + S1.size a ≤ S16.size a
  inb_S16x512_S1x512_9_0 : ∀ a, (![9, 0] : Fin 2 → Nat) a + S1x512.size a ≤ S16x512.size a
  inb_S16_S1_10 : ∀ a, (![10] : Fin 1 → Nat) a + S1.size a ≤ S16.size a
  inb_S16x512_S1x512_10_0 : ∀ a, (![10, 0] : Fin 2 → Nat) a + S1x512.size a ≤ S16x512.size a
  inb_S16_S1_11 : ∀ a, (![11] : Fin 1 → Nat) a + S1.size a ≤ S16.size a
  inb_S16x512_S1x512_11_0 : ∀ a, (![11, 0] : Fin 2 → Nat) a + S1x512.size a ≤ S16x512.size a
  inb_S16_S1_12 : ∀ a, (![12] : Fin 1 → Nat) a + S1.size a ≤ S16.size a
  inb_S16x512_S1x512_12_0 : ∀ a, (![12, 0] : Fin 2 → Nat) a + S1x512.size a ≤ S16x512.size a
  inb_S16_S1_13 : ∀ a, (![13] : Fin 1 → Nat) a + S1.size a ≤ S16.size a
  inb_S16x512_S1x512_13_0 : ∀ a, (![13, 0] : Fin 2 → Nat) a + S1x512.size a ≤ S16x512.size a
  inb_S16_S1_14 : ∀ a, (![14] : Fin 1 → Nat) a + S1.size a ≤ S16.size a
  inb_S16x512_S1x512_14_0 : ∀ a, (![14, 0] : Fin 2 → Nat) a + S1x512.size a ≤ S16x512.size a
  inb_S16_S1_15 : ∀ a, (![15] : Fin 1 → Nat) a + S1.size a ≤ S16.size a
  inb_S16x512_S1x512_15_0 : ∀ a, (![15, 0] : Fin 2 → Nat) a + S1x512.size a ≤ S16x512.size a
  inb_S16x512_S16x512_0_0 : ∀ a, (![0, 0] : Fin 2 → Nat) a + S16x512.size a ≤ S16x512.size a
  h_S16x512 : 0 < S16x512.numel
  reduces_S16x512_S512 : S16x512.Reduces [0] S512
  inb_S1x512_S1x512_0_0 : ∀ a, (![0, 0] : Fin 2 → Nat) a + S1x512.size a ≤ S1x512.size a
  hcc0_scratch2 : 1 + S_.numel ≤ 34
  hcc0_scratch3 : 2 + S16.numel ≤ 34
  hcc0_scratch4 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole

variable [Facts₀]

abbrev cc0_scratch2 : DmaSems sig S_ := SemArray.consecutive 1 S_ hcc0_scratch2
abbrev cc0_scratch3 : DmaSems sig S16 := SemArray.consecutive 2 S16 hcc0_scratch3
abbrev cc0_scratch4 : DmaSems sig S16 := SemArray.consecutive 18 S16 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S512, .f32⟩
  | .hbm, ⟨3, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x512_S512_d0 : S16384x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.SpecKernelIdeal.lean ====
/-
  The all-reduce this kernel computes, as pure functions of the sixteen devices' blocks: each device sums the
  rows of its own block (its contribution, one row of 512 columns), every device gathers the sixteen
  contributions — row `e` of its gather buffer holding the contribution of the device `e` places before it on
  the ring, row 0 its own — and sums the gathered rows.
-/
import proofs.«901069_g7700000000001070_dist_sum_ax0_shard0_i_m1024_n512_v7x_i16_f32_1_alg».proof.Proof.Gen.KernelIdeal.Skeleton
import Idealize.ShloMosaic.Lib.ValueIdx

noncomputable section

namespace Cert.KernelIdeal.Spec

open Cert.KernelIdeal Cert.KernelIdeal.Gen Idealize.ShloMosaic Idealize.ShloMosaic.ValueIdx

variable {F : FTy → Type} [FloatOps F]

/-- The device `e` places before `c` on the ring of sixteen: the one whose transfer at offset `e` lands on `c`. -/
def src (c : Dev nD) (e : Fin 16) : Dev nD := ⟨(c.val + 16 - e.val) % 16, Nat.mod_lt _ (by decide)⟩
/-- The device `e` places after `c`: the one `c`'s transfer at offset `e` is addressed to. -/
def peer (c : Dev nD) (e : Fin 16) : Dev nD := ⟨(c.val + e.val) % 16, Nat.mod_lt _ (by decide)⟩

theorem src_peer (c : Dev nD) (e : Fin 16) : src (peer c e) e = c := by revert c e; decide
theorem peer_src (c : Dev nD) (e : Fin 16) : peer (src c e) e = c := by revert c e; decide
theorem src_zero (c : Dev nD) : src c 0 = c := by revert c; decide

/-- One device's contribution: the column sums of its block, as a row. -/
def part (x : Vec F S1024x512 .f32) : Vec F S1x512 .f32 := k0_pay2 x

/-- What device `c`'s gather buffer holds once every transfer has landed: row `e` the contribution of `src c e`. -/
def comm (xs : Dev nD → Vec F S1024x512 .f32) (c : Dev nD) : Vec F S16x512 .f32 :=
  fun i => part (xs (src c (i 0))) (ix2 (0 : Fin 1) (i 1))

/-- Device `c`'s result: the column sums of its gather buffer, as a row. -/
def out (xs : Dev nD → Vec F S1024x512 .f32) (c : Dev nD) : Vec F S1x512 .f32 := k0_pay1 (comm xs c)

end Cert.KernelIdeal.Spec

end
-- ==== Proof.RefValueSum.lean ====
/-
  The all-reduce as one sum. Each of the sixteen devices holds a block of 1024 consecutive rows of a
  [16384, 512] array; a device's contribution is the column sums of its block, and every device's result is
  the sum of the sixteen contributions, taken in the order of the ring as seen from that device. Addition of
  extended reals is commutative and associative, so the result at column `j` is the sum of column `j` over all
  16384 rows, whatever the device: the ring order is a permutation of the devices, and (device, row in block)
  ↦ 1024 · device + row is a bijection onto the rows of the whole array.
-/
import proofs.«901069_g7700000000001070_dist_sum_ax0_shard0_i_m1024_n512_v7x_i16_f32_1_alg».proof.Proof.SpecKernelIdeal
import Idealize.ShloMosaic.Lib.Layout
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

noncomputable section

namespace Cert.Proof.RefValue

open Cert.KernelIdeal Cert.KernelIdeal.Gen Cert.KernelIdeal.Spec Idealize.ShloMosaic Idealize.ShloMosaic.ValueIdx

/-! ## Re-indexing a sum over blocks of rows -/

/-- Row `r` of block `p`, of `m` blocks of `n` rows each, is a row of the whole. -/
theorem blockRow_lt {m n : ℕ} (p : Fin m) (r : Fin n) : p.val * n + r.val < m * n := by
  have h1 : (p.val + 1) * n ≤ m * n := Nat.mul_le_mul_right _ p.isLt
  have h2 := r.isLt
  rw [Nat.succ_mul] at h1
  omega

/-- A sum over all `N = m · n` rows is the sum, over the blocks in any order `σ` that meets each block once, of the
    sums over each block's `n` rows. -/
theorem sum_blocks {M : Type*} [AddCommMonoid M] {m n N : ℕ} (hN : m * n = N) (σ : Fin m → Fin m)
    (hσ : Function.Bijective σ) (g : Fin N → M) :
    ∑ e : Fin m, ∑ r : Fin n, g ⟨(σ e).val * n + r.val, hN ▸ blockRow_lt (σ e) r⟩ = ∑ q : Fin N, g q := by
  subst hN
  rw [Fintype.sum_bijective σ hσ (fun e => ∑ r : Fin n, g ⟨(σ e).val * n + r.val, blockRow_lt (σ e) r⟩)
    (fun p => ∑ r : Fin n, g ⟨p.val * n + r.val, blockRow_lt p r⟩) (fun _ => rfl)]
  rw [← Fintype.sum_prod_type']
  refine Fintype.sum_equiv finProdFinEquiv _ _ fun x => congrArg g (Fin.ext ?_)
  obtain ⟨p, r⟩ := x
  show p.val * n + r.val = r.val + n * p.val
  rw [Nat.mul_comm, Nat.add_comm]

/-- The ring order seen from device `c` meets every device once. -/
theorem src_bijective (c : Dev nD) : Function.Bijective (fun e : Fin 16 => src c e) := by
  revert c; decide

/-! ## The kernel's two lane sums read at a column -/

/-- A device's contribution at column `j`: the sum of column `j` of its block over the block's 1024 rows. -/
theorem part_apply (x : Vec Ideal S1024x512 .f32) (j : Fin 512) :
    (part (F := Ideal) x (ix2 (0 : Fin 1) j) : EReal) = ∑ r : Fin 1024, x (ix2 r j) := by
  unfold part k0_pay2
  rw [shapeCast_addUnit_apply ![512]]
  refine (Ideal.multiReduction_add_single x 0x00000000#32 reduces_S1024x512_S512 (.inl rfl) rfl _).trans ?_
  refine Finset.sum_congr rfl fun r _ => congrArg x (funext fun a => Fin.ext ?_)
  match a with
  | ⟨0, _⟩ => rfl
  | ⟨1, _⟩ => rfl

/-- A device's result at column `j`: the sum of column `j` of its gather buffer over the buffer's 16 rows. -/
theorem pay1_apply (y : Vec Ideal S16x512 .f32) (j : Fin 512) :
    (k0_pay1 (F := Ideal) y (ix2 (0 : Fin 1) j) : EReal) = ∑ e : Fin 16, y (ix2 e j) := by
  unfold k0_pay1
  rw [shapeCast_addUnit_apply ![512]]
  refine (Ideal.multiReduction_add_single y 0x00000000#32 reduces_S16x512_S512 (.inl rfl) rfl _).trans ?_
  refine Finset.sum_congr rfl fun r _ => congrArg y (funext fun a => Fin.ext ?_)
  match a with
  | ⟨0, _⟩ => rfl
  | ⟨1, _⟩ => rfl

/-- Device `c`'s result at column `j`, over any sixteen blocks: the double sum over the ring order and a block's rows. -/
theorem out_apply (xs : Dev nD → Vec Ideal S1024x512 .f32) (c : Dev nD) (j : Fin 512) :
    (out (F := Ideal) xs c (ix2 (0 : Fin 1) j) : EReal) = ∑ e : Fin 16, ∑ r : Fin 1024, xs (src c e) (ix2 r j) := by
  unfold out
  rw [pay1_apply]
  exact Finset.sum_congr rfl fun e _ => part_apply (xs (src c e)) j

/-! ## Over the sixteen blocks of one array -/

/-- Device `c`'s result at column `j`, when the sixteen devices hold the sixteen blocks of rows of one array `X`: the
    sum of column `j` of `X` over all 16384 rows. -/
theorem out_block_apply (X : (⟨2, ![16384, 512]⟩ : Shape).Idx → EReal) (c : Dev nD) (j : Fin 512) :
    (out (F := Ideal) (fun p => Layout.block ⟨2, ![1024, 512]⟩ ⟨2, ![16384, 512]⟩ 0 16 p X) c (ix2 (0 : Fin 1) j) : EReal)
      = ∑ q : Fin 16384, X (ix2 q j) := by
  rw [out_apply]
  refine Eq.trans ?_ (sum_blocks (m := 16) (n := 1024) (N := 16384) rfl (fun e => src c e) (src_bijective c)
    (fun q => X (ix2 q j)))
  refine Finset.sum_congr rfl fun e _ => Finset.sum_congr rfl fun r _ => congrArg X (funext fun a => Fin.ext ?_)
  match a with
  | ⟨0, _⟩ => rfl
  | ⟨1, _⟩ => rfl

end Cert.Proof.RefValue

end
-- ==== Proof.RefValue.lean ====
/-
  The reference's side of the claim and the bridge between the sixteen-device kernel and the reference. The reference
  sums a [16384, 512] array over its rows on the host and keeps the row axis as a unit axis; read at column `j` its
  result is the sum of column `j` over all 16384 rows (the initial value of the host's sum is zero). Every device's
  result of the kernel, as a pure function of the sixteen blocks, is the same sum, so a run of the kernel that ends
  with each device's result at that function of the blocks ends with every device holding the reference's result.
-/
import proofs.«901069_g7700000000001070_dist_sum_ax0_shard0_i_m1024_n512_v7x_i16_f32_1_alg».proof.Defs
import proofs.«901069_g7700000000001070_dist_sum_ax0_shard0_i_m1024_n512_v7x_i16_f32_1_alg».proof.Proof.Gen.KernelIdeal
import proofs.«901069_g7700000000001070_dist_sum_ax0_shard0_i_m1024_n512_v7x_i16_f32_1_alg».proof.Proof.Gen.ReferenceIdeal
import proofs.«901069_g7700000000001070_dist_sum_ax0_shard0_i_m1024_n512_v7x_i16_f32_1_alg».proof.Proof.Gen.Pre_finite_inputs_Kernel
import proofs.«901069_g7700000000001070_dist_sum_ax0_shard0_i_m1024_n512_v7x_i16_f32_1_alg».proof.Proof.Gen.Pre_finite_inputs_ReferenceIdeal
import proofs.«901069_g7700000000001070_dist_sum_ax0_shard0_i_m1024_n512_v7x_i16_f32_1_alg».proof.Proof.Gen.ReferenceIdeal.Read
import proofs.«901069_g7700000000001070_dist_sum_ax0_shard0_i_m1024_n512_v7x_i16_f32_1_alg».proof.Proof.RefValueSum

noncomputable section

namespace Cert.Proof.RefValue

open Idealize.ShloMosaic Idealize.ShloMosaic.TcCoe Idealize.SL.Sem Idealize.ShloMosaic.ValueIdx

/-! ## The reference -/

/-- The reference runs to its end from every memory and leaves its argument unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's result at column `j`: the sum of column `j` of its argument over all 16384 rows. -/
theorem ref_apply (X : (⟨2, ![16384, 512]⟩ : Shape).Idx → EReal) (j : Fin 512) :
    (Cert.ReferenceIdeal.Read.val_main_v1 (F := Ideal) X (ix2 (0 : Fin 1) j) : EReal) = ∑ q : Fin 16384, X (ix2 q j) := by
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add]
  refine Finset.sum_congr rfl fun k _ => congrArg X (funext fun a => Fin.ext ?_)
  match a with
  | ⟨0, _⟩ => rfl
  | ⟨1, _⟩ => rfl

/-! ## The kernel's result is the reference's -/

/-- Every device's result, over the sixteen blocks of rows of `X`, is the reference's result of `X`. -/
theorem out_eq_ref (X : (⟨2, ![16384, 512]⟩ : Shape).Idx → EReal) (c : Dev Cert.KernelIdeal.nD) :
    Cert.KernelIdeal.Spec.out (F := Ideal) (fun p => Layout.block ⟨2, ![1024, 512]⟩ ⟨2, ![16384, 512]⟩ 0 16 p X) c
      = Cert.ReferenceIdeal.Read.val_main_v1 (F := Ideal) X := by
  funext i
  obtain ⟨a, j, rfl⟩ : ∃ (a : Fin 1) (j : Fin 512), i = ix2 a j := ⟨i 0, i 1, eq_ix2 i⟩
  obtain rfl : a = 0 := Subsingleton.elim _ _
  exact (out_block_apply X c j).trans (ref_apply X j).symm

/-! ## The claim, from a run of the kernel that ends at the all-reduce of the blocks -/

theorem algebraic_of_run
    (hrun : ∀ (m : (ℓ : Loc Cert.KernelIdeal.nD Cert.KernelIdeal.τ Cert.KernelIdeal.sig) → Buf (Elt Ideal) ℓ)
        (g : Dev Cert.KernelIdeal.nD → PrngReg),
      θ_run (Cert.KernelIdeal.defs (F := Ideal)) (onTc (τ := Cert.KernelIdeal.τ) (Cert.KernelIdeal.main (F := Ideal)))
        ⟨m, fun _ => 0, g⟩
        (fun r => ∀ c : Dev Cert.KernelIdeal.nD,
          r.2.mem ((c.tc : Thread Cert.KernelIdeal.nD Cert.KernelIdeal.τ).loc Cert.KernelIdeal.main_v1)
            = Cert.KernelIdeal.Spec.out (F := Ideal)
                (fun p => m ((p.tc : Thread Cert.KernelIdeal.nD Cert.KernelIdeal.τ).loc Cert.KernelIdeal.main_arg0)) c
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))) :
    Cert.algebraic_KernelIdeal_ReferenceIdeal := by
  intro m g m' g' _ hblocks
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨(h c).1.trans ?_, (h c).2⟩) (hrun m g)
    have hxs : (fun p : Dev Cert.KernelIdeal.nD =>
          m ((p.tc : Thread Cert.KernelIdeal.nD Cert.KernelIdeal.τ).loc Cert.KernelIdeal.main_arg0))
        = fun p => Layout.block ⟨2, ![1024, 512]⟩ ⟨2, ![16384, 512]⟩ 0 16 p
            (m' (((0 : Dev Cert.ReferenceIdeal.nD).tc : Thread Cert.ReferenceIdeal.nD Cert.ReferenceIdeal.τ).loc Cert.ReferenceIdeal.main_arg0)) :=
      funext hblocks
    rw [hxs]
    exact out_eq_ref _ c
  · exact (θ_run (Cert.ReferenceIdeal.defs (F := Ideal)) _ _).mono (fun _ h => ⟨(h 0).1, (h 0).2⟩)
      (Cert.ReferenceIdeal.Value.run (F := Ideal) m' g')

end Cert.Proof.RefValue

end
-- ==== Proof.ProtoKernelIdeal.lean ====
/-
  The protocol of the sixteen-device all-reduce, under the rounds discipline. Duty names are ring offsets
  `e : Fin 16`. Device `c`'s barrier cell has, in its one round, the fifteen unit duties `e = 1 … 15`: duty `e` is
  paid by the device `e` places after `c` (`peer c e`), and hands `c` row `e` of that device's gather buffer together with
  the fact that that device's receive cell `e` is at round 0 — exactly what `c`'s transfer at offset `e` needs. Each of a
  device's fifteen receive cells has one duty, paid by the transfer of the device `e` places before it, whose landing
  hands over row `e` holding that device's contribution; each of its fifteen send cells one duty, paid by its own transfer,
  whose completion hands back the share of row 0 the transfer read.
-/
import proofs.«901069_g7700000000001070_dist_sum_ax0_shard0_i_m1024_n512_v7x_i16_f32_1_alg».proof.Proof.SpecKernelIdeal
import proofs.«901069_g7700000000001070_dist_sum_ax0_shard0_i_m1024_n512_v7x_i16_f32_1_alg».proof.Proof.Gen.KernelIdeal.Frame
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The memrefs and cells -/

abbrev xM : Memref sig .tc .hbm S1024x512 .f32 := Memref.whole main_arg0
abbrev oM : Memref sig .tc .vmem S1x512 .f32 := Memref.whole cc0_stg0_0
abbrev cM : Memref sig .tc .vmem S16x512 .f32 := Memref.whole cc0_scratch0
abbrev vM : Memref sig .tc .vmem S1024x512 .f32 := Memref.whole cc0_scratch1

theorem row_inb (e : Fin 16) : ∀ a, (![e.val, 0] : Fin 2 → Nat) a + S1x512.size a ≤ S16x512.size a := by
  intro a; fin_cases a
  · show e.val + 1 ≤ 16; omega
  · show 0 + 512 ≤ 512; omega

/-- Row `e` of the gather buffer, as the transfers name it: the one-row slice, squeezed to a vector. -/
abbrev rowM (e : Fin 16) : Memref sig .tc .vmem S512 .f32 :=
  ((cM : Memref sig .tc .vmem S16x512 .f32).slice (Rect.unit (s := S16x512) ![e.val, 0] S1x512.size (row_inb e)) (fun _ => rfl)).squeeze S512 squeezes_S1x512_S512

abbrev barS : Sem sig := (SemArray.scalar (sig.barrier 0 rfl) : Sems sig S_).sem
abbrev copyQ : DmaSem sig := (1 : Fin 34)
abbrev sendQ (e : Fin 16) : DmaSem sig := (⟨2 + e.val, by omega⟩ : Fin 34)
abbrev recvQ (e : Fin 16) : DmaSem sig := (⟨18 + e.val, by omega⟩ : Fin 34)

abbrev barCell (c : Dev nD) : GSem nD τ sig := ((c : Thread nD τ), .reg barS)
abbrev sendCell (c : Dev nD) (e : Fin 16) : GSem nD τ sig := ((c : Thread nD τ), .dma (sendQ e))
abbrev recvCell (c : Dev nD) (e : Fin 16) : GSem nD τ sig := ((c : Thread nD τ), .dma (recvQ e))
/-- The cell of the local copy's semaphore (the device's own copy of its block into VMEM completes on it). -/
abbrev copyCell (c : Dev nD) : GSem nD τ sig := ((c : Thread nD τ), .dma copyQ)

/-- The credit of one row's transfer. -/
abbrev N : ℕ := (rowM (1 : Fin 16)).view.dmaCredit
/-- The credit of the local copy of a block. -/
def NC : ℕ := (vM : Memref sig .tc .vmem S1024x512 .f32).view.dmaCredit

/-! ## Contents -/

/-- The blocks as launched. -/
def xs (p : Dev nD) : Vec F S1024x512 .f32 := m ((p : Thread nD τ).loc main_arg0)

/-- What device `c`'s gather buffer holds in the end. -/
def commC (c : Dev nD) : Buf (Elt F) ((cM : Memref sig .tc .vmem S16x512 .f32).view.loc (c : Thread nD τ)) := Spec.comm (xs m) c

/-- What device `c`'s result holds in the end. -/
def outC (c : Dev nD) : (cc0_stg0_0 : Ref sig .tc).ty.Contents (Elt F) := Spec.out (xs m) c

/-- The read share of row 0 that the transfer at offset `e` borrows. -/
abbrev shr (e : Fin 16) : PosShare TreeShare := Transfers.shareTok fullShare 16 e

/-- Row `e` of `p`'s gather buffer, at share `q`, over whole-buffer contents `f`. -/
def rowPts (p : Dev nD) (e : Fin 16) (q : PosShare TreeShare) (f : Buf (Elt F) ((cM : Memref sig .tc .vmem S16x512 .f32).view.loc (p : Thread nD τ))) : sProp 𝕄 :=
  (rowM e).view.loc (p : Thread nD τ) ↦[(rowM e).view.set]{q} f

/-! ## The schedule -/

/-- What the signal of `peer c e` (duty `e` of `c`'s barrier cell) hands `c`: row `e` of that device's gather buffer, at
    any contents, and that its receive cell `e` is at round 0. -/
def barPay (c : Dev nD) (e : Fin 16) : sProp 𝕄 :=
  iprop((∃ f, rowPts (peer c e) e fullShare f) ∗ reached ER (recvCell (peer c e) e) 0)
/-- What the landing of the transfer at offset `e` hands its target `c`: row `e` at the final contents. -/
def recvPay (c : Dev nD) (e : Fin 16) : sProp 𝕄 := rowPts c e fullShare (commC m c)
/-- What the completion of `c`'s transfer at offset `e` hands back: the share of row 0 it read. -/
def sendPay (c : Dev nD) (e : Fin 16) : sProp 𝕄 := rowPts c 0 (shr e) (commC m c)

/-- What the completion of the local copy hands back: the VMEM copy holding the block, and the block itself. -/
def copyPay (c : Dev nD) : sProp 𝕄 :=
  iprop((((c : Thread nD τ).loc cc0_scratch1) ↦{fullShare} (m ((c : Thread nD τ).loc main_arg0) : Buf (Elt F) ((c : Thread nD τ).loc cc0_scratch1)))
    ∗ (((c : Thread nD τ).loc main_arg0) ↦{fullShare} m ((c : Thread nD τ).loc main_arg0)))

/-- A send semaphore in use (offsets 1 … 15 of the array at 2), a receive semaphore in use (of the array at 18). -/
abbrev qSend (q : DmaSem sig) : Prop := 3 ≤ q.val ∧ q.val ≤ 17
abbrev qRecv (q : DmaSem sig) : Prop := 19 ≤ q.val ∧ q.val ≤ 33
def offS (q : DmaSem sig) : Fin 16 := ⟨(q.val - 2) % 16, Nat.mod_lt _ (by decide)⟩
def offR (q : DmaSem sig) : Fin 16 := ⟨(q.val - 18) % 16, Nat.mod_lt _ (by decide)⟩

theorem N_pos : 0 < N := View.dmaCredit_pos _ (by decide)
theorem NC_pos : 0 < NC := View.dmaCredit_pos _ (by decide)

/-- One round. A barrier cell: the fifteen unit duties `1 … 15`. A send or receive cell in use: the duty `0` of one row's
    credit. -/
def sched : Rounds.Schedule (GSem nD τ sig) (Fin 16) 𝕄 where
  duties g r := if r = 0 ∧ g.1.2 = .tc then
      (match g.2 with
        | .reg _ => Finset.univ.erase 0
        | .dma q => if qSend q ∨ qRecv q ∨ q.val = 1 then {0} else ∅)
    else ∅
  unitless _ := False
  amount g _ _ := match g.2 with | .reg _ => 1 | .dma q => if q.val = 1 then NC else N
  payload g _ d := match g.2 with
    | .reg _ => barPay g.1.1 d
    | .dma q => if qRecv q then recvPay m g.1.1 (offR q) else if qSend q then sendPay m g.1.1 (offS q)
        else if q.val = 1 then copyPay m g.1.1 else iprop(emp)
  amount_pos g _ _ _ := by
    cases g.2
    · exact Nat.one_pos
    · dsimp only; split
      · exact NC_pos
      · exact N_pos

instance sched_payload_storable (g : GSem nD τ sig) (r : ℕ) (d : Fin 16) :
    BI.Storable (upEmb : UEmb _ 𝕄) ((sched (F := F) m).payload g r d) := by
  show BI.Storable upEmb (match g.2 with
    | .reg _ => barPay g.1.1 d
    | .dma q => if qRecv q then recvPay m g.1.1 (offR q) else if qSend q then sendPay m g.1.1 (offS q)
        else if q.val = 1 then copyPay m g.1.1 else iprop(emp))
  unfold barPay recvPay sendPay copyPay rowPts
  (repeat' split) <;> infer_instance

/-- A round with one duty expects that duty's amount. -/
theorem expect_single (Rd : Rounds.Schedule (GSem nD τ sig) (Fin 16) 𝕄) (g : GSem nD τ sig) (r : ℕ) (d : Fin 16) (n : ℕ)
    (hd : Rd.duties g r = {d}) (ha : Rd.amount g r d = n) : Rd.expect g r = n := by
  unfold Schedule.expect Schedule.amountOf; rw [hd, Finset.sum_singleton, ha]

section Sched
variable (c : Dev nD) (e : Fin 16)

omit [FloatOps F] in
theorem offS_send : offS (sendQ e) = e := Fin.ext (by show (2 + e.val - 2) % 16 = e.val; omega)
omit [FloatOps F] in
theorem offR_recv : offR (recvQ e) = e := Fin.ext (by show (18 + e.val - 18) % 16 = e.val; omega)
omit [FloatOps F] in
theorem qSend_send (he : e ≠ 0) : qSend (sendQ e) := by
  have : e.val ≠ 0 := fun h => he (Fin.ext h)
  show 3 ≤ 2 + e.val ∧ 2 + e.val ≤ 17; omega
omit [FloatOps F] in
theorem qRecv_recv (he : e ≠ 0) : qRecv (recvQ e) := by
  have : e.val ≠ 0 := fun h => he (Fin.ext h)
  show 19 ≤ 18 + e.val ∧ 18 + e.val ≤ 33; omega
omit [FloatOps F] in
theorem not_qRecv_send : ¬ qRecv (sendQ e) := by show ¬ (19 ≤ 2 + e.val ∧ 2 + e.val ≤ 33); omega

theorem duties_bar : (sched (F := F) m).duties (barCell c) 0 = Finset.univ.erase 0 := by
  dsimp only [sched]; rw [if_pos ⟨rfl, rfl⟩]
theorem duties_send (he : e ≠ 0) : (sched (F := F) m).duties (sendCell c e) 0 = {0} := by
  dsimp only [sched]; rw [if_pos ⟨rfl, rfl⟩]; exact if_pos (.inl (qSend_send e he))
theorem duties_recv (he : e ≠ 0) : (sched (F := F) m).duties (recvCell c e) 0 = {0} := by
  dsimp only [sched]; rw [if_pos ⟨rfl, rfl⟩]; exact if_pos (.inr (.inl (qRecv_recv e he)))
theorem duties_later (g : GSem nD τ sig) : ∀ r, 1 ≤ r → (sched (F := F) m).duties g r = ∅ :=
  fun r hr => by dsimp only [sched]; rw [if_neg fun h => by omega]

theorem amount_bar (d : Fin 16) : (sched (F := F) m).amount (barCell c) 0 d = 1 := rfl
theorem amount_send (d : Fin 16) : (sched (F := F) m).amount (sendCell c e) 0 d = N := by
  show (if 2 + e.val = 1 then NC else N) = N; rw [if_neg (by omega)]
theorem amount_recv (d : Fin 16) : (sched (F := F) m).amount (recvCell c e) 0 d = N := by
  show (if 18 + e.val = 1 then NC else N) = N; rw [if_neg (by omega)]

theorem expect_bar : (sched (F := F) m).expect (barCell c) 0 = 15 := by
  unfold Schedule.expect Schedule.amountOf
  rw [duties_bar, Finset.sum_congr rfl fun d _ => amount_bar m c d, Finset.sum_const, smul_eq_mul, mul_one]
  decide
theorem expect_send (he : e ≠ 0) : (sched (F := F) m).expect (sendCell c e) 0 = N := by
  unfold Schedule.expect Schedule.amountOf; rw [duties_send m c e he, Finset.sum_singleton, amount_send]
theorem expect_recv (he : e ≠ 0) : (sched (F := F) m).expect (recvCell c e) 0 = N := by
  unfold Schedule.expect Schedule.amountOf; rw [duties_recv m c e he, Finset.sum_singleton, amount_recv]

theorem payload_bar (d : Fin 16) : (sched (F := F) m).payload (barCell c) 0 d
    = iprop((∃ f, (rowM d).view.loc (peer c d : Thread nD τ) ↦[(rowM d).view.set]{fullShare} f) ∗ reached ER (recvCell (peer c d) d) 0) := rfl
theorem payload_send (he : e ≠ 0) (d : Fin 16) : (sched (F := F) m).payload (sendCell c e) 0 d
    = ((rowM 0).view.loc (c : Thread nD τ) ↦[(rowM 0).view.set]{shr e} commC m c : sProp 𝕄) := by
  dsimp only [sched]; rw [if_neg (not_qRecv_send e), if_pos (qSend_send e he), offS_send]; rfl
theorem payload_recv (he : e ≠ 0) (d : Fin 16) : (sched (F := F) m).payload (recvCell c e) 0 d
    = ((rowM e).view.loc (c : Thread nD τ) ↦[(rowM e).view.set]{fullShare} commC m c : sProp 𝕄) := by
  dsimp only [sched]; rw [if_pos (qRecv_recv e he), offR_recv]; rfl

theorem duties_copy : (sched (F := F) m).duties (copyCell c) 0 = {0} := by
  dsimp only [sched]; rw [if_pos ⟨rfl, rfl⟩]; exact if_pos (.inr (.inr rfl))
theorem amount_copy (d : Fin 16) : (sched (F := F) m).amount (copyCell c) 0 d = NC := by
  show (if (copyQ : DmaSem sig).val = 1 then NC else N) = NC; rw [if_pos (by decide)]
theorem expect_copy : (sched (F := F) m).expect (copyCell c) 0 = NC :=
  expect_single (sched (F := F) m) (copyCell c) 0 0 NC (duties_copy m c) (amount_copy m c 0)
theorem payload_copy (d : Fin 16) : (sched (F := F) m).payload (copyCell c) 0 d = copyPay m c := by
  dsimp only [sched]; rw [if_neg (by decide), if_neg (by decide), if_pos (by decide)]

end Sched

/-! ## The kernel's device chains: the signal and the transfer at offset `e` both name `peer c e` -/

@[sl_canon] theorem dev1_eq (c : Dev nD) : (⟨k0_dev1 c, k0_dev1_lt c⟩ : Dev nD) = peer c 1 := by revert c; decide +kernel
@[sl_canon] theorem dev2_eq (c : Dev nD) : (⟨k0_dev2 c, k0_dev2_lt c⟩ : Dev nD) = peer c 2 := by revert c; decide +kernel
@[sl_canon] theorem dev3_eq (c : Dev nD) : (⟨k0_dev3 c, k0_dev3_lt c⟩ : Dev nD) = peer c 3 := by revert c; decide +kernel
@[sl_canon] theorem dev4_eq (c : Dev nD) : (⟨k0_dev4 c, k0_dev4_lt c⟩ : Dev nD) = peer c 4 := by revert c; decide +kernel
@[sl_canon] theorem dev5_eq (c : Dev nD) : (⟨k0_dev5 c, k0_dev5_lt c⟩ : Dev nD) = peer c 5 := by revert c; decide +kernel
@[sl_canon] theorem dev6_eq (c : Dev nD) : (⟨k0_dev6 c, k0_dev6_lt c⟩ : Dev nD) = peer c 6 := by revert c; decide +kernel
@[sl_canon] theorem dev7_eq (c : Dev nD) : (⟨k0_dev7 c, k0_dev7_lt c⟩ : Dev nD) = peer c 7 := by revert c; decide +kernel
@[sl_canon] theorem dev8_eq (c : Dev nD) : (⟨k0_dev8 c, k0_dev8_lt c⟩ : Dev nD) = peer c 8 := by revert c; decide +kernel
@[sl_canon] theorem dev9_eq (c : Dev nD) : (⟨k0_dev9 c, k0_dev9_lt c⟩ : Dev nD) = peer c 9 := by revert c; decide +kernel
@[sl_canon] theorem dev10_eq (c : Dev nD) : (⟨k0_dev10 c, k0_dev10_lt c⟩ : Dev nD) = peer c 10 := by revert c; decide +kernel
@[sl_canon] theorem dev11_eq (c : Dev nD) : (⟨k0_dev11 c, k0_dev11_lt c⟩ : Dev nD) = peer c 11 := by revert c; decide +kernel
@[sl_canon] theorem dev12_eq (c : Dev nD) : (⟨k0_dev12 c, k0_dev12_lt c⟩ : Dev nD) = peer c 12 := by revert c; decide +kernel
@[sl_canon] theorem dev13_eq (c : Dev nD) : (⟨k0_dev13 c, k0_dev13_lt c⟩ : Dev nD) = peer c 13 := by revert c; decide +kernel
@[sl_canon] theorem dev14_eq (c : Dev nD) : (⟨k0_dev14 c, k0_dev14_lt c⟩ : Dev nD) = peer c 14 := by revert c; decide +kernel
@[sl_canon] theorem dev15_eq (c : Dev nD) : (⟨k0_dev15 c, k0_dev15_lt c⟩ : Dev nD) = peer c 15 := by revert c; decide +kernel
@[sl_canon] theorem dev16_eq (c : Dev nD) : (⟨k0_dev16 c, k0_dev16_lt c⟩ : Dev nD) = peer c 1 := by revert c; decide +kernel
@[sl_canon] theorem dev17_eq (c : Dev nD) : (⟨k0_dev17 c, k0_dev17_lt c⟩ : Dev nD) = peer c 2 := by revert c; decide +kernel
@[sl_canon] theorem dev18_eq (c : Dev nD) : (⟨k0_dev18 c, k0_dev18_lt c⟩ : Dev nD) = peer c 3 := by revert c; decide +kernel
@[sl_canon] theorem dev19_eq (c : Dev nD) : (⟨k0_dev19 c, k0_dev19_lt c⟩ : Dev nD) = peer c 4 := by revert c; decide +kernel
@[sl_canon] theorem dev20_eq (c : Dev nD) : (⟨k0_dev20 c, k0_dev20_lt c⟩ : Dev nD) = peer c 5 := by revert c; decide +kernel
@[sl_canon] theorem dev21_eq (c : Dev nD) : (⟨k0_dev21 c, k0_dev21_lt c⟩ : Dev nD) = peer c 6 := by revert c; decide +kernel
@[sl_canon] theorem dev22_eq (c : Dev nD) : (⟨k0_dev22 c, k0_dev22_lt c⟩ : Dev nD) = peer c 7 := by revert c; decide +kernel
@[sl_canon] theorem dev23_eq (c : Dev nD) : (⟨k0_dev23 c, k0_dev23_lt c⟩ : Dev nD) = peer c 8 := by revert c; decide +kernel
@[sl_canon] theorem dev24_eq (c : Dev nD) : (⟨k0_dev24 c, k0_dev24_lt c⟩ : Dev nD) = peer c 9 := by revert c; decide +kernel
@[sl_canon] theorem dev25_eq (c : Dev nD) : (⟨k0_dev25 c, k0_dev25_lt c⟩ : Dev nD) = peer c 10 := by revert c; decide +kernel
@[sl_canon] theorem dev26_eq (c : Dev nD) : (⟨k0_dev26 c, k0_dev26_lt c⟩ : Dev nD) = peer c 11 := by revert c; decide +kernel
@[sl_canon] theorem dev27_eq (c : Dev nD) : (⟨k0_dev27 c, k0_dev27_lt c⟩ : Dev nD) = peer c 12 := by revert c; decide +kernel
@[sl_canon] theorem dev28_eq (c : Dev nD) : (⟨k0_dev28 c, k0_dev28_lt c⟩ : Dev nD) = peer c 13 := by revert c; decide +kernel
@[sl_canon] theorem dev29_eq (c : Dev nD) : (⟨k0_dev29 c, k0_dev29_lt c⟩ : Dev nD) = peer c 14 := by revert c; decide +kernel
@[sl_canon] theorem dev30_eq (c : Dev nD) : (⟨k0_dev30 c, k0_dev30_lt c⟩ : Dev nD) = peer c 15 := by revert c; decide +kernel

/-! ## What each device owes at launch; the levels -/

/-- The offsets in use. -/
def offs : Finset (Fin 16) := Finset.univ.erase 0
theorem offs_eq : offs = {1, 2, 3, 4, 5, 6, 7, 8, 9, 10, 11, 12, 13, 14, 15} := by decide
theorem mem_offs {e : Fin 16} : e ∈ offs ↔ e ≠ 0 := by unfold offs; simp

/-- Device `c` owes each later device's receive cell (at the offset between them) one row's credit, -/
def owedR (c : Dev nD) (e : Fin 16) : CellTallies nD τ sig Unit := tallyAt (recvCell (peer c e) e) () N
/-- and its barrier cell one unit. -/
def owedB (c : Dev nD) (e : Fin 16) : CellTallies nD τ sig Unit := tallyAt (barCell (peer c e)) () 1
def recvsF (c : Dev nD) : CellTallies nD τ sig Unit := ∑ e ∈ offs, owedR c e
def barsF (c : Dev nD) : CellTallies nD τ sig Unit := ∑ e ∈ offs, owedB c e
def O₀ (c : Dev nD) : CellTallies nD τ sig Unit := recvsF c + barsF c

/-- The same sums written out, offset by offset (the form in which the transfers and signals peel them). -/
def recvsX (c : Dev nD) : CellTallies nD τ sig Unit :=
  owedR c 1 + owedR c 2 + owedR c 3 + owedR c 4 + owedR c 5 + owedR c 6 + owedR c 7 + owedR c 8 + owedR c 9 + owedR c 10
    + owedR c 11 + owedR c 12 + owedR c 13 + owedR c 14 + owedR c 15
def barsX (c : Dev nD) : CellTallies nD τ sig Unit :=
  owedB c 1 + owedB c 2 + owedB c 3 + owedB c 4 + owedB c 5 + owedB c 6 + owedB c 7 + owedB c 8 + owedB c 9 + owedB c 10
    + owedB c 11 + owedB c 12 + owedB c 13 + owedB c 14 + owedB c 15

theorem recvsF_eq (c : Dev nD) : recvsF c = recvsX c := by
  unfold recvsF recvsX; rw [offs_eq]
  rw [Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_singleton]
  abel
theorem barsF_eq (c : Dev nD) : barsF c = barsX c := by
  unfold barsF barsX; rw [offs_eq]
  rw [Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_singleton]
  abel
theorem O₀_eq (c : Dev nD) : O₀ c = recvsX c + barsX c := by unfold O₀; rw [recvsF_eq, barsF_eq]

def L (g : GSem nD τ sig) : Finset Unit := if g.1.2 = .tc then {()} else ∅
/-- Barrier cells at 1, receive cells in use at 2, everything else (staging, the local copy, send cells) at 0. -/
def lv (g : GSem nD τ sig) (_ : Unit) : ℕ := match g.2 with | .reg _ => 1 | .dma q => if qRecv q then 2 else 0

theorem L_of_ne (g : GSem nD τ sig) (h : g.1.2 ≠ .tc) : L g = ∅ := if_neg h
theorem L_tc (c : Dev nD) (sm : SemLoc sig) : L ((c : Thread nD τ), sm) = {()} := if_pos rfl

theorem recvsF_pos {c : Dev nD} {g : GSem nD τ sig} {u : Unit} (h : 0 < recvsF c g u) : ∃ e : Fin 16, e ≠ 0 ∧ g = recvCell (peer c e) e := by
  obtain ⟨e, he, hp⟩ := Pipeline.sum_pos_exists h
  refine ⟨e, mem_offs.mp he, ?_⟩
  unfold owedR at hp; rw [tallyAt_apply] at hp
  by_contra hn
  rw [if_neg fun h' => hn h'.1] at hp; exact Nat.lt_irrefl 0 hp
theorem barsF_pos {c : Dev nD} {g : GSem nD τ sig} {u : Unit} (h : 0 < barsF c g u) : ∃ e : Fin 16, g = barCell (peer c e) := by
  obtain ⟨e, he, hp⟩ := Pipeline.sum_pos_exists h
  refine ⟨e, ?_⟩
  unfold owedB at hp; rw [tallyAt_apply] at hp
  by_contra hn
  rw [if_neg fun h' => hn h'.1] at hp; exact Nat.lt_irrefl 0 hp

theorem lv_recv (p : Dev nD) (e : Fin 16) (he : e ≠ 0) : lv (recvCell p e) () = 2 := by
  show (if qRecv (recvQ e) then 2 else 0) = 2; rw [if_pos (qRecv_recv e he)]
theorem lv_bar (p : Dev nD) : lv (barCell p) () = 1 := rfl

/-- A wait on a cell below level 1 (a staging cell, the local copy's, a send cell) while owing anything of the launch debt. -/
theorem mayWait_zero_level (c : Dev nD) (q : DmaSem sig) (hq : ¬ qRecv q) (O : CellTallies nD τ sig Unit)
    (hO : ∀ g u, 0 < O g u → 0 < O₀ c g u) :
    (levAts L lv : sProp 𝕄) ⊢ MayWait (c : Thread nD τ) (.dma q) () O :=
  Pipeline.mayWait_of_levAts (by rw [L_tc]; exact Finset.mem_singleton_self _) fun g u hg => by
    have h0 : lv ((c : Thread nD τ), SemLoc.dma q) () = 0 := by show (if qRecv q then 2 else 0) = 0; rw [if_neg hq]
    rw [h0]
    rcases Pipeline.add_pos_cases (show 0 < (recvsF c + barsF c) g u from hO g u hg) with h | h
    · obtain ⟨e, he, rfl⟩ := recvsF_pos h
      exact ⟨by rw [L_tc]; exact Finset.mem_singleton_self _, by rw [lv_recv _ e he]; decide⟩
    · obtain ⟨e, rfl⟩ := barsF_pos h
      exact ⟨by rw [L_tc]; exact Finset.mem_singleton_self _, by rw [lv_bar]; decide⟩

/-- At its barrier wait a device owes receive credits only: receive cells sit above barrier cells. -/
theorem mayWait_bar (c : Dev nD) :
    (levAts L lv : sProp 𝕄) ⊢ MayWait (c : Thread nD τ) (.reg barS) () (recvsX c) :=
  Pipeline.mayWait_of_levAts (by rw [L_tc]; exact Finset.mem_singleton_self _) fun g u hg => by
    rw [← recvsF_eq] at hg
    obtain ⟨e, he, rfl⟩ := recvsF_pos hg
    exact ⟨by rw [L_tc]; exact Finset.mem_singleton_self _, by rw [lv_recv _ e he]; show 1 < 2; decide⟩

/-! ## The ghost state a device's body starts from -/

/-- Device `c`'s share of the protocol at offset `e` (`e'` its opposite, `16 - e`): the invariants of the four cells it
    touches there — its own send and receive cells, and the barrier cell and receive cell of `peer c e` —, its positions
    in its own two, the rounds it knows reached, and the three duty tokens it pays with: its signal to `peer c e` (that
    cell's duty `e'`), its transfer's landing there, its transfer's completion here. -/
def ghostE (K : GSem nD τ sig → ℕ) (c : Dev nD) (e e' : Fin 16) : sProp 𝕄 :=
  iprop(cellInv ER (sched m) (K (sendCell c e)) (sendCell c e) ∗ cellInv ER (sched m) (K (recvCell c e)) (recvCell c e)
    ∗ cellInv ER (sched m) (K (barCell (peer c e))) (barCell (peer c e)) ∗ cellInv ER (sched m) (K (recvCell (peer c e) e)) (recvCell (peer c e) e)
    ∗ atPos ER (sendCell c e) 0 ∅ 0 ∗ atPos ER (recvCell c e) 0 ∅ 0
    ∗ reached ER (barCell (peer c e)) 0 ∗ reached ER (recvCell (peer c e) e) 0 ∗ reached ER (sendCell c e) 0 ∗ reached ER (recvCell c e) 0
    ∗ dutyTok ER (barCell (peer c e)) 0 e' ∗ dutyTok ER (recvCell (peer c e) e) 0 0 ∗ dutyTok ER (sendCell c e) 0 0)

/-- All of it: its barrier cell's invariant and position, its local copy's cell (invariant, position, round 0 reached, the one
    duty's token), and the fifteen offsets' shares. -/
def ghost (K : GSem nD τ sig → ℕ) (c : Dev nD) : sProp 𝕄 :=
  iprop(cellInv ER (sched m) (K (barCell c)) (barCell c) ∗ atPos ER (barCell c) 0 ∅ 0
    ∗ cellInv ER (sched m) (K (copyCell c)) (copyCell c) ∗ atPos ER (copyCell c) 0 ∅ 0 ∗ reached ER (copyCell c) 0 ∗ dutyTok ER (copyCell c) 0 0
    ∗ ghostE m K c 1 15    ∗ ghostE m K c 2 14    ∗ ghostE m K c 3 13    ∗ ghostE m K c 4 12
    ∗ ghostE m K c 5 11    ∗ ghostE m K c 6 10    ∗ ghostE m K c 7 9    ∗ ghostE m K c 8 8
    ∗ ghostE m K c 9 7    ∗ ghostE m K c 10 6    ∗ ghostE m K c 11 5    ∗ ghostE m K c 12 4
    ∗ ghostE m K c 13 3    ∗ ghostE m K c 14 2    ∗ ghostE m K c 15 1)

/-- The credit dealt at launch: the barrier cell's fifteen units, each receive cell's row. -/
def creds (c : Dev nD) : sProp 𝕄 :=
  iprop(cred (tallyAt (barCell c) () 15) ∗ cred (tallyAt (recvCell c 1) () N) ∗ cred (tallyAt (recvCell c 2) () N) ∗ cred (tallyAt (recvCell c 3) () N) ∗ cred (tallyAt (recvCell c 4) () N)
    ∗ cred (tallyAt (recvCell c 5) () N) ∗ cred (tallyAt (recvCell c 6) () N) ∗ cred (tallyAt (recvCell c 7) () N) ∗ cred (tallyAt (recvCell c 8) () N)
    ∗ cred (tallyAt (recvCell c 9) () N) ∗ cred (tallyAt (recvCell c 10) () N) ∗ cred (tallyAt (recvCell c 11) () N) ∗ cred (tallyAt (recvCell c 12) () N)
    ∗ cred (tallyAt (recvCell c 13) () N) ∗ cred (tallyAt (recvCell c 14) () N) ∗ cred (tallyAt (recvCell c 15) () N))

/-- The device's block of the argument, as launched (no window stages it: the body copies it itself). -/
def xPts (c : Dev nD) : sProp 𝕄 := ((c : Thread nD τ).loc main_arg0) ↦{fullShare} m ((c : Thread nD τ).loc main_arg0)
/-- The two unused entries of the semaphore arrays, at zero. -/
def spare (c : Dev nD) : sProp 𝕄 :=
  iprop(semVal ((c : Thread nD τ), .dma (sendQ 0)) 0 ∗ semVal ((c : Thread nD τ), .dma (recvQ 0)) 0)
/-- The two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The kernel's own (scoped, non-staging) DMA semaphores: 1 … 33. -/
abbrev osem : Fin 33 → SemLoc sig := fun i => .dma (⟨i.val + 1, by omega⟩ : Fin 34)

/-- What the launch's global step leaves a device: the protocol's ghost state and the unused semaphores. -/
def G' (c : Dev nD) : sProp 𝕄 := iprop((∃ K, ghost m K c) ∗ spare c)
def start (c : Dev nD) : sProp 𝕄 := iprop(G' m c ∗ creds c ∗ levAts L lv ∗ xPts m c)
def Φ₀ (c : Dev nD) : sProp 𝕄 := iprop(start m c ∗ scratch c)
/-- After the point: the argument block back, the scratch buffers, every own semaphore at zero, its cell closed. -/
def Φ₁ (c : Dev nD) : sProp 𝕄 :=
  iprop(xPts m c ∗ scratch c ∗ bigSep Finset.univ fun i : Fin 33 => semVal ((c : Thread nD τ), osem i) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, -/
def bodyPre (c : Dev nD) : sProp 𝕄 :=
  iprop(Φ₀ m c ∗ (dats m ρ 0 c).owesAt () t₀.castSucc
    ∗ (∃ d, stg c cc0_stg0_0 ((dats m ρ 0 c).before (0 : Fin 1) t₀ d)))
/-- and what it leaves: the result's staging buffer at the device's result. -/
def bodyPost (c : Dev nD) : sProp 𝕄 :=
  iprop(Φ₁ m c ∗ (dats m ρ 0 c).owesAt () t₀.succ ∗ stg c cc0_stg0_0 (outC m c))

/-- The body as the pipeline calls it at the point. -/
abbrev bodyProg : Prog (TpuEff nD τ sig (Elt F) Λ₀ .tc) PUnit :=
  cc0_body (Memref.whole main_arg0) (Memref.isWhole_whole _) (Memref.whole cc0_stg0_0) (hstage0_0 0) (Memref.whole cc0_scratch0) (Memref.isWhole_whole _)
    (Memref.whole cc0_scratch1) (Memref.isWhole_whole _) cc0_scratch2 cc0_scratch3 cc0_scratch4

/-- The statement the body's proof owes (proved in the body module; the launch takes it as a hypothesis). -/
def BodySound : Prop := ∀ (c : Dev nD) (Kt : PUnit → sProp 𝕄),
    iprop(bodyPre m ρ c ∗ (bodyPost m ρ c -∗ Kt ⟨⟩)) ⊢ wp frame (wpE (defs₀ (F := F)) 𝒱₀ c none) Set.univ (bodyProg (F := F)) Kt

end Cert.KernelIdeal.Proto

end
-- ==== Proof.RowsKernelIdeal.lean ====
/-
  The rows of the gather buffer. The sixteen rows of a device's [16,512] gather buffer are held separately: row `e` is the
  set of buffer indices whose first coordinate is `e`. The whole buffer is the separating conjunction of its sixteen rows;
  row 0 at full share is its sixteen read tokens and the remainder; and a copy of the sender's row 0 onto row `e` of the
  receiver leaves that row at the receiver's final contents.
-/
import proofs.«901069_g7700000000001070_dist_sum_ax0_shard0_i_m1024_n512_v7x_i16_f32_1_alg».proof.Proof.ProtoKernelIdeal
import Idealize.ShloMosaic.Lib.Pipeline.Value

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows as index sets -/

/-- Row `e` is the buffer indices whose first coordinate is `e`. -/
theorem mem_row (e : Fin 16) (i : S16x512.Idx) : i ∈ (rowM e).view.set ↔ (i 0).val = e.val := by
  show i ∈ (((View.whole cc0_scratch0 : View sig .tc .vmem S16x512 .f32).slice
      (Rect.unit (s := S16x512) ![e.val, 0] S1x512.size (row_inb e))).reshape S512 squeezes_S1x512_S512.numel_eq).set ↔ _
  rw [View.set_reshape, View.set_slice_whole, Rect.mem_set_unit]
  constructor
  · intro h
    have h0 := h 0
    have : (![e.val, 0] : Fin 2 → Nat) 0 = e.val := rfl
    have hs : S1x512.size 0 = 1 := rfl
    omega
  · intro h a
    fin_cases a
    · show e.val ≤ (i 0).val ∧ (i 0).val < e.val + 1; omega
    · show 0 ≤ (i 1).val ∧ (i 1).val < 0 + 512
      have := (i 1).isLt
      exact ⟨Nat.zero_le _, by simpa using this⟩

/-- Every buffer index lies in the row its first coordinate names. -/
theorem rows_cover (c : Dev nD) :
    (Finset.univ : Finset (Idx ((c : Thread nD τ).loc cc0_scratch0)))
      = Finset.univ.biUnion fun e : Fin 16 => ((rowM e).view.set : Finset (Idx ((c : Thread nD τ).loc cc0_scratch0))) := by
  ext i
  simp only [Finset.mem_univ, Finset.mem_biUnion, true_and, true_iff]
  have i' : S16x512.Idx := i
  exact ⟨⟨((show S16x512.Idx from i) 0).val, ((show S16x512.Idx from i) 0).isLt⟩, (mem_row _ i).mpr rfl⟩

/-- Distinct rows share no index. -/
theorem rows_disjoint (c : Dev nD) (e e' : Fin 16) (h : e ≠ e') :
    Disjoint ((rowM e).view.set : Finset (Idx ((c : Thread nD τ).loc cc0_scratch0))) ((rowM e').view.set) := by
  refine Finset.disjoint_left.mpr fun i hi hj => h (Fin.ext ?_)
  have h1 := (mem_row e i).mp hi
  have h2 := (mem_row e' i).mp hj
  omega

/-! ## The whole buffer is its sixteen rows -/

/-- The whole gather buffer, as the separating conjunction over its rows. -/
theorem comm_rows (c : Dev nD) (q : PosShare TreeShare) (f : Buf (Elt F) ((c : Thread nD τ).loc cc0_scratch0)) :
    ((((c : Thread nD τ).loc cc0_scratch0) ↦{q} f) : sProp 𝕄) = bigSep Finset.univ fun e : Fin 16 => rowPts c e q f := by
  have h := pointsTo_biUnion (Ix := Unit) (Val := Elt F) (Name := ℕ) (U := UU) (Lvl := ℕ) (ℓ := (c : Thread nD τ).loc cc0_scratch0) (q := q) (f := f)
    (Finset.univ : Finset (Fin 16)) (fun e : Fin 16 => ((rowM e).view.set : Finset (Idx ((c : Thread nD τ).loc cc0_scratch0))))
    (fun e _ e' _ hne => rows_disjoint c e e' hne)
  rw [← rows_cover c] at h
  exact h

theorem comm_eq16 (c : Dev nD) (q : PosShare TreeShare) (f : Buf (Elt F) ((c : Thread nD τ).loc cc0_scratch0)) :
    ((((c : Thread nD τ).loc cc0_scratch0) ↦{q} f) : sProp 𝕄)
      = iprop(rowPts c 0 q f ∗ rowPts c 1 q f ∗ rowPts c 2 q f ∗ rowPts c 3 q f ∗ rowPts c 4 q f ∗ rowPts c 5 q f ∗ rowPts c 6 q f ∗ rowPts c 7 q f ∗ rowPts c 8 q f ∗ rowPts c 9 q f ∗ rowPts c 10 q f ∗ rowPts c 11 q f ∗ rowPts c 12 q f ∗ rowPts c 13 q f ∗ rowPts c 14 q f ∗ rowPts c 15 q f) :=
  (comm_rows c q f).trans
    (bigSep_univ_eq_bigSepL [(0 : Fin 16), 1, 2, 3, 4, 5, 6, 7, 8, 9, 10, 11, 12, 13, 14, 15] (by decide) (by decide) _)

/-- The whole gather buffer splits into its sixteen rows, -/
theorem comm_split16 (c : Dev nD) (q : PosShare TreeShare) (f : Buf (Elt F) ((c : Thread nD τ).loc cc0_scratch0)) :
    ((((c : Thread nD τ).loc cc0_scratch0) ↦{q} f) : sProp 𝕄)
      ⊢ iprop(rowPts c 0 q f ∗ rowPts c 1 q f ∗ rowPts c 2 q f ∗ rowPts c 3 q f ∗ rowPts c 4 q f ∗ rowPts c 5 q f ∗ rowPts c 6 q f ∗ rowPts c 7 q f ∗ rowPts c 8 q f ∗ rowPts c 9 q f ∗ rowPts c 10 q f ∗ rowPts c 11 q f ∗ rowPts c 12 q f ∗ rowPts c 13 q f ∗ rowPts c 14 q f ∗ rowPts c 15 q f) :=
  Entails.of_eq (comm_eq16 c q f)

/-- and sixteen rows over the same contents join to the whole. -/
theorem comm_join16 (c : Dev nD) (q : PosShare TreeShare) (f : Buf (Elt F) ((c : Thread nD τ).loc cc0_scratch0)) :
    iprop(rowPts c 0 q f ∗ rowPts c 1 q f ∗ rowPts c 2 q f ∗ rowPts c 3 q f ∗ rowPts c 4 q f ∗ rowPts c 5 q f ∗ rowPts c 6 q f ∗ rowPts c 7 q f ∗ rowPts c 8 q f ∗ rowPts c 9 q f ∗ rowPts c 10 q f ∗ rowPts c 11 q f ∗ rowPts c 12 q f ∗ rowPts c 13 q f ∗ rowPts c 14 q f ∗ rowPts c 15 q f)
      ⊢ ((((c : Thread nD τ).loc cc0_scratch0) ↦{q} f) : sProp 𝕄) :=
  Entails.of_eq (comm_eq16 c q f).symm

/-! ## Row 0 at full share is its sixteen read tokens and the remainder -/

theorem row0_toks_eq (c : Dev nD) (f : Buf (Elt F) ((c : Thread nD τ).loc cc0_scratch0)) :
    (bigSep Finset.univ fun e : Fin 16 => (rowPts c 0 (shr e) f : sProp 𝕄))
      = iprop(rowPts c 0 (shr 0) f ∗ rowPts c 0 (shr 1) f ∗ rowPts c 0 (shr 2) f ∗ rowPts c 0 (shr 3) f ∗ rowPts c 0 (shr 4) f ∗ rowPts c 0 (shr 5) f ∗ rowPts c 0 (shr 6) f ∗ rowPts c 0 (shr 7) f ∗ rowPts c 0 (shr 8) f ∗ rowPts c 0 (shr 9) f ∗ rowPts c 0 (shr 10) f ∗ rowPts c 0 (shr 11) f ∗ rowPts c 0 (shr 12) f ∗ rowPts c 0 (shr 13) f ∗ rowPts c 0 (shr 14) f ∗ rowPts c 0 (shr 15) f) :=
  bigSep_univ_eq_bigSepL [(0 : Fin 16), 1, 2, 3, 4, 5, 6, 7, 8, 9, 10, 11, 12, 13, 14, 15] (by decide) (by decide) _

/-- Row 0 at full share hands out one read token per ring offset and keeps the remainder, -/
theorem row0_toks_split (c : Dev nD) (f : Buf (Elt F) ((c : Thread nD τ).loc cc0_scratch0)) :
    (rowPts c 0 fullShare f : sProp 𝕄)
      ⊢ iprop(rowPts c 0 (Transfers.shareDrop fullShare 16) f ∗ rowPts c 0 (shr 0) f ∗ rowPts c 0 (shr 1) f ∗ rowPts c 0 (shr 2) f ∗ rowPts c 0 (shr 3) f ∗ rowPts c 0 (shr 4) f ∗ rowPts c 0 (shr 5) f ∗ rowPts c 0 (shr 6) f ∗ rowPts c 0 (shr 7) f ∗ rowPts c 0 (shr 8) f ∗ rowPts c 0 (shr 9) f ∗ rowPts c 0 (shr 10) f ∗ rowPts c 0 (shr 11) f ∗ rowPts c 0 (shr 12) f ∗ rowPts c 0 (shr 13) f ∗ rowPts c 0 (shr 14) f ∗ rowPts c 0 (shr 15) f) := by
  rw [← row0_toks_eq c f]
  exact Transfers.pointsTo_toks_split (Ix := Unit) (Val := Elt F) (Name := ℕ) (U := UU) (Lvl := ℕ)
    (ℓ := (rowM 0).view.loc (c : Thread nD τ)) (S := (rowM 0).view.set) (f := f) fullShare 16

/-- and takes them back. -/
theorem row0_toks_join (c : Dev nD) (f : Buf (Elt F) ((c : Thread nD τ).loc cc0_scratch0)) :
    iprop(rowPts c 0 (Transfers.shareDrop fullShare 16) f ∗ rowPts c 0 (shr 0) f ∗ rowPts c 0 (shr 1) f ∗ rowPts c 0 (shr 2) f ∗ rowPts c 0 (shr 3) f ∗ rowPts c 0 (shr 4) f ∗ rowPts c 0 (shr 5) f ∗ rowPts c 0 (shr 6) f ∗ rowPts c 0 (shr 7) f ∗ rowPts c 0 (shr 8) f ∗ rowPts c 0 (shr 9) f ∗ rowPts c 0 (shr 10) f ∗ rowPts c 0 (shr 11) f ∗ rowPts c 0 (shr 12) f ∗ rowPts c 0 (shr 13) f ∗ rowPts c 0 (shr 14) f ∗ rowPts c 0 (shr 15) f)
      ⊢ (rowPts c 0 fullShare f : sProp 𝕄) := by
  rw [← row0_toks_eq c f]
  exact Transfers.pointsTo_toks_join (Ix := Unit) (Val := Elt F) (Name := ℕ) (U := UU) (Lvl := ℕ)
    (ℓ := (rowM 0).view.loc (c : Thread nD τ)) (S := (rowM 0).view.set) (f := f) fullShare 16

/-! ## Where a row's indices sit in the buffer -/

/-- The index of row `e` under the row's coordinate `y`: first coordinate `e`, -/
theorem row_emb_fst (e : Fin 16) (y : S512.Idx) : (((rowM e).view.emb y : S16x512.Idx) 0).val = e.val := by
  show (((Rect.unit (s := S16x512) ![e.val, 0] S1x512.size (row_inb e)).emb
      ((Shape.reshapeEquiv squeezes_S1x512_S512.numel_eq) y) : S16x512.Idx) 0).val = e.val
  rw [Rect.emb_apply]
  have h := ((Shape.reshapeEquiv squeezes_S1x512_S512.numel_eq) y (0 : Fin 2)).isLt
  have hs : S1x512.size 0 = 1 := rfl
  show e.val + 1 * ((Shape.reshapeEquiv squeezes_S1x512_S512.numel_eq) y (0 : Fin 2)).val = e.val
  omega

/-- and second coordinate the same in every row. -/
theorem row_emb_snd (e : Fin 16) (y : S512.Idx) :
    (((rowM e).view.emb y : S16x512.Idx) 1) = (((rowM 0).view.emb y : S16x512.Idx) 1) := by
  apply Fin.ext
  show (((Rect.unit (s := S16x512) ![e.val, 0] S1x512.size (row_inb e)).emb
      ((Shape.reshapeEquiv squeezes_S1x512_S512.numel_eq) y) : S16x512.Idx) 1).val
    = (((Rect.unit (s := S16x512) ![(0 : Fin 16).val, 0] S1x512.size (row_inb 0)).emb
      ((Shape.reshapeEquiv squeezes_S1x512_S512.numel_eq) y) : S16x512.Idx) 1).val
  rw [Rect.emb_apply, Rect.emb_apply]
  rfl

/-! ## What a landed row holds -/

/-- The final contents of a gather buffer at an index, by its coordinates. -/
theorem commC_apply (c : Dev nD) (i : S16x512.Idx) :
    commC m c i = part (xs m (src c (i 0))) (ValueIdx.ix2 (0 : Fin 1) (i 1)) := rfl

/-- Row 0 of the sender `c`, copied onto row `e` of the device `e` places after it, leaves that row at that device's
    final contents: the sender's row 0 is its own contribution, and the receiver's row `e` is to hold the contribution of
    the device `e` places before it, the sender. -/
theorem landed_row (c : Dev nD) (e : Fin 16) (fd : Buf (Elt F) ((rowM e).view.loc ((peer c e : Dev nD) : Thread nD τ))) :
    (((rowM e).view.loc ((peer c e : Dev nD) : Thread nD τ) ↦[(rowM e).view.set]{fullShare}
        ((rowM e).view.write (Elt F) fd ((rowM 0).view.read (Elt F) (commC m c)) Finset.univ)) : sProp 𝕄)
      = rowPts (peer c e) e fullShare (commC m (peer c e)) := by
  unfold rowPts
  refine pointsTo_congr fun i hi => ?_
  obtain ⟨y, rfl⟩ := View.exists_emb_of_mem_set (rowM e).view hi
  rw [View.write_emb_of_mem _ _ (Finset.mem_univ y), View.read_apply]
  show commC m c ((rowM 0).view.emb y) = commC m (peer c e) ((rowM e).view.emb y)
  rw [commC_apply, commC_apply, row_emb_snd e y]
  have h0 : (((rowM 0).view.emb y : S16x512.Idx) 0) = (0 : Fin 16) := Fin.ext (row_emb_fst 0 y)
  have he : (((rowM e).view.emb y : S16x512.Idx) 0) = e := Fin.ext (row_emb_fst e y)
  rw [h0, he, src_zero, src_peer]

/-! ## The whole gather buffer read back -/

/-- A load of the whole final gather buffer reads the gathered contributions. -/
theorem read_comm_whole (c : Dev nD) :
    (Memref.whole cc0_scratch0 : Memref sig .tc .vmem S16x512 .f32).view.readAt (Elt F)
        (Rect.unit (s := S16x512) ![0, 0] S16x512.size inb_S16x512_S16x512_0_0).toLoadRect (commC m c)
      = Spec.comm (xs m) c :=
  Memref.readAt_unit_zero (Elt F) cc0_scratch0 (by funext a; fin_cases a <;> rfl) inb_S16x512_S16x512_0_0 (commC m c)

/-! ## What a store of the contribution into the first row leaves -/

/-- The one-row slice at the origin, as a store names it, is row 0. -/
theorem store0_set (inb : ∀ a, (![0, 0] : Fin 2 → Nat) a + S1x512.size a ≤ S16x512.size a) :
    ((Memref.whole cc0_scratch0 : Memref sig .tc .vmem S16x512 .f32).access (Rect.unit (s := S16x512) ![0, 0] S1x512.size inb)).set
      = (rowM 0).view.set := by
  show ((View.whole cc0_scratch0 : View sig .tc .vmem S16x512 .f32).slice (Rect.unit (s := S16x512) ![0, 0] S1x512.size inb)).set
    = (((View.whole cc0_scratch0 : View sig .tc .vmem S16x512 .f32).slice
      (Rect.unit (s := S16x512) ![(0 : Fin 16).val, 0] S1x512.size (row_inb 0))).reshape S512 squeezes_S1x512_S512.numel_eq).set
  rw [View.set_reshape]
  rfl

/-- A device's contribution, stored through the one-row slice at the origin of its gather buffer, leaves row 0 at the
    buffer's final contents: row 0 is to hold the device's own contribution. -/
theorem stored_row0_at (c : Dev nD) (inb : ∀ a, (![0, 0] : Fin 2 → Nat) a + S1x512.size a ≤ S16x512.size a)
    (f : Buf (Elt F) ((c : Thread nD τ).loc cc0_scratch0)) :
    ((((c : Thread nD τ).loc cc0_scratch0) ↦[(rowM 0).view.set]{fullShare}
        (((Memref.whole cc0_scratch0 : Memref sig .tc .vmem S16x512 .f32).access (Rect.unit (s := S16x512) ![0, 0] S1x512.size inb)).write
          (Elt F) f (part (xs m c)) Finset.univ)) : sProp 𝕄)
      = rowPts c 0 fullShare (commC m c) := by
  unfold rowPts
  refine pointsTo_congr fun i hi => ?_
  rw [← store0_set inb] at hi
  obtain ⟨y, rfl⟩ := View.exists_emb_of_mem_set _ hi
  rw [View.write_emb_of_mem _ _ (Finset.mem_univ y)]
  show part (xs m c) y = commC m c ((Rect.unit (s := S16x512) ![0, 0] S1x512.size inb).emb y)
  have h0 : (((Rect.unit (s := S16x512) ![0, 0] S1x512.size inb).emb y : S16x512.Idx) 0) = (0 : Fin 16) :=
    Fin.ext (by
      rw [Rect.emb_apply]
      have hy : (y 0).val < 1 := (y 0).isLt
      show 0 + 1 * (y 0).val = 0
      omega)
  have h1 : (((Rect.unit (s := S16x512) ![0, 0] S1x512.size inb).emb y : S16x512.Idx) 1) = y 1 :=
    Fin.ext (by rw [Rect.emb_apply]; show 0 + 1 * (y 1).val = (y 1).val; omega)
  rw [commC_apply, h0, h1, src_zero]
  congr 1
  refine (ValueIdx.eq_ix2 y).trans ?_
  congr 1
  exact Fin.ext (by
    have hy : (y 0).val < 1 := (y 0).isLt
    show (y 0).val = 0
    omega)

/-- Such a store leaves every other row as it was. -/
theorem stored_row_ne (c : Dev nD) (inb : ∀ a, (![0, 0] : Fin 2 → Nat) a + S1x512.size a ≤ S16x512.size a)
    (f : Buf (Elt F) ((c : Thread nD τ).loc cc0_scratch0)) (w : S1x512.Idx → Elt F .f32) (e : Fin 16) (he : e ≠ 0)
    (q : PosShare TreeShare) :
    (rowPts c e q (((Memref.whole cc0_scratch0 : Memref sig .tc .vmem S16x512 .f32).access
        (Rect.unit (s := S16x512) ![0, 0] S1x512.size inb)).write (Elt F) f w Finset.univ) : sProp 𝕄)
      = rowPts c e q f := by
  unfold rowPts
  refine pointsTo_congr fun i hi => ?_
  refine View.write_of_not_mem _ _ _ ?_
  rw [View.setOn_univ, store0_set inb]
  intro h0
  have h1 := (mem_row e i).mp hi
  have h2 := (mem_row 0 i).mp h0
  exact he (Fin.ext (by rw [← h1, h2]))

/-! ## The accesses of the body, restated over the rows -/

/-- The one-row rectangle at the origin of the gather buffer. -/
abbrev r0 : Rect S16x512 := Rect.unit (s := S16x512) ![0, 0] S1x512.size inb_S16x512_S1x512_0_0

/-- A load through it reads inside row 0, -/
theorem row0_load_sub :
    (cM : Memref sig .tc .vmem S16x512 .f32).view.setOn r0.toLoadRect.set ⊆ (rowM 0).view.set :=
  Eq.subset ((View.set_slice (View.whole cc0_scratch0 : View sig .tc .vmem S16x512 .f32) r0).symm.trans
    (store0_set inb_S16x512_S1x512_0_0))

/-- a store through it writes inside row 0, -/
theorem row0_store_sub :
    ((cM : Memref sig .tc .vmem S16x512 .f32).access r0).setOn (Finset.univ : Finset r0.shape.Idx) ⊆ (rowM 0).view.set := by
  rw [View.setOn_univ, store0_set inb_S16x512_S1x512_0_0]

/-- and the store of the device's own contribution leaves row 0 at the final contents. -/
theorem stored_row0 (c : Dev nD) (f0 : Buf (Elt F) (((cM : Memref sig .tc .vmem S16x512 .f32).access r0).loc (c : Thread nD τ))) :
    ((((cM : Memref sig .tc .vmem S16x512 .f32).access r0).loc (c : Thread nD τ)) ↦[(rowM 0).view.set]{fullShare}
        (((cM : Memref sig .tc .vmem S16x512 .f32).access r0).write (Elt F) f0 (Gen.k0_pay2 (xs m c)) Finset.univ) : sProp 𝕄)
      = rowPts c 0 fullShare (commC m c) :=
  stored_row0_at m c inb_S16x512_S1x512_0_0 f0

/-! ## Whole-buffer accesses -/

/-- A load of the whole block scratch reads its contents. -/
theorem read_vm_whole (c : Dev nD) (f : Buf (Elt F) ((c : Thread nD τ).loc cc0_scratch1)) :
    (vM : Memref sig .tc .vmem S1024x512 .f32).view.readAt (Elt F)
        (Rect.unit (s := S1024x512) ![0, 0] S1024x512.size inb_S1024x512_S1024x512_0_0).toLoadRect f = f :=
  Memref.readAt_unit_zero (Elt F) cc0_scratch1 (by funext a; fin_cases a <;> rfl) inb_S1024x512_S1024x512_0_0 f

/-- A store over the whole result buffer leaves its payload. -/
theorem write_out (f w : (cc0_stg0_0 : Ref sig .tc).ty.Contents (Elt F)) :
    (((oM : Memref sig .tc .vmem S1x512 .f32).access (Rect.unit (s := S1x512) ![0, 0] S1x512.size inb_S1x512_S1x512_0_0)
        : View sig .tc _ _ _).write (Elt F) f w Finset.univ) = w :=
  Memref.write_access_unit_zero_univ (Elt F) cc0_stg0_0 (by funext a; fin_cases a <;> rfl) inb_S1x512_S1x512_0_0 f w

end Cert.KernelIdeal.Proto

end
-- ==== Proof.StepsKernelIdeal.lean ====
import proofs.«901069_g7700000000001070_dist_sum_ax0_shard0_i_m1024_n512_v7x_i16_f32_1_alg».proof.Proof.ProtoKernelIdeal
import proofs.«901069_g7700000000001070_dist_sum_ax0_shard0_i_m1024_n512_v7x_i16_f32_1_alg».proof.Proof.RowsKernelIdeal
import proofs.«901069_g7700000000001070_dist_sum_ax0_shard0_i_m1024_n512_v7x_i16_f32_1_alg».proof.Proof.Gen.KernelIdeal.Skeleton

set_option maxRecDepth 16384

noncomputable section

namespace Cert.KernelIdeal.Proto

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem peer_peer (c : Dev nD) (e e' : Fin 16) (h : e.val + e'.val = 16) : peer (peer c e) e' = c := by
  apply Fin.ext; show ((c.val + e.val) % 16 + e'.val) % 16 = c.val
  have : c.val < 16 := c.isLt
  have : e.val < 16 := e.isLt
  have : e'.val < 16 := e'.isLt
  omega

theorem duties_barX (c : Dev nD) : (sched (F := F) m).duties (barCell c) 0 = {1, 2, 3, 4, 5, 6, 7, 8, 9, 10, 11, 12, 13, 14, 15} := by
  rw [duties_bar]; decide

/-- The payload of the duty a device pays on a later device's barrier cell, resolved: it hands over one of ITS OWN rows. -/
theorem payload_bar_peer (c : Dev nD) (e e' : Fin 16) (h : e.val + e'.val = 16) : (sched (F := F) m).payload (barCell (peer c e)) 0 e'
    = iprop((∃ f, (rowM e').view.loc (c : Thread nD τ) ↦[(rowM e').view.set]{fullShare} f) ∗ reached ER (recvCell c e') 0) := by
  rw [payload_bar]
  exact congrArg (fun p : Dev nD => (iprop((∃ f, (rowM e').view.loc (p : Thread nD τ) ↦[(rowM e').view.set]{fullShare} f) ∗ reached ER (recvCell p e') 0) : sProp 𝕄)) (peer_peer c e e' h)

/-! ## What a device owes, written out so that the steps peel it from the right in program order -/

def recvsRev (c : Dev nD) : CellTallies nD τ sig Unit := owedR c 15 + owedR c 14 + owedR c 13 + owedR c 12 + owedR c 11 + owedR c 10 + owedR c 9 + owedR c 8 + owedR c 7 + owedR c 6 + owedR c 5 + owedR c 4 + owedR c 3 + owedR c 2 + owedR c 1
def barsRev (c : Dev nD) : CellTallies nD τ sig Unit := owedB c 15 + owedB c 14 + owedB c 13 + owedB c 12 + owedB c 11 + owedB c 10 + owedB c 9 + owedB c 8 + owedB c 7 + owedB c 6 + owedB c 5 + owedB c 4 + owedB c 3 + owedB c 2 + owedB c 1
theorem recvsRev_eq (c : Dev nD) : recvsRev c = recvsX c := by unfold recvsRev recvsX; abel
theorem barsRev_eq (c : Dev nD) : barsRev c = barsX c := by unfold barsRev barsX; abel
theorem O₀_rev (c : Dev nD) : O₀ c = recvsRev c + barsRev c := by rw [O₀_eq, recvsRev_eq, barsRev_eq]

theorem credit_row (e : Fin 16) : (rowM e).view.dmaCredit = N := by revert e; decide

/-! ## The protocol's steps, one rule each at a symbolic offset -/

/-- The signal at offset `e`: it pays duty `e'` (the opposite offset) of the barrier cell of `peer c e`, handing over the
    signaller's own row `e'` and that its receive cell `e'` is at round 0. -/
theorem wp_sig (c : Dev nD) (e e' : Fin 16) (h : e.val + e'.val = 16) (κ : ℕ) (f : Buf (Elt F) ((cM : Memref sig .tc .vmem S16x512 .f32).view.loc (c : Thread nD τ)))
    {α : Type} {Q : α → sProp 𝕄} {k : PUnit → Prog (TpuEff nD τ sig (Elt F) Λ₀ .tc) α}
    {O₁ : CellTallies nD τ sig Unit} (O : CellTallies nD τ sig Unit) (hO : O₁ = O + tallyAt (barCell (peer c e)) () 1) {W : Waits sig Unit} :
    (cellInv ER (sched m) κ (barCell (peer c e)) : sProp 𝕄)
      ⊢ iprop(reached ER (recvCell c e') 0 -∗ reached ER (barCell (peer c e)) 0 -∗ owes (c : Thread nD τ) O₁ W -∗ dutyTok ER (barCell (peer c e)) 0 e'
          -∗ rowPts c e' fullShare f
          -∗ (owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c e : Thread nD τ) barS 1) k) Q) := by
  iintro #HI #Hrr #Hrb HO Ht Hrow Hk
  iapply (Rounds.wp_signal 𝒱₀ ER (sched m) (c : Thread nD τ) none (dst := (peer c e : Thread nD τ)) (κ := κ)
      (d := e') (by
        rw [duties_bar]; refine Finset.mem_erase.mpr ⟨fun h0 => ?_, Finset.mem_univ _⟩
        have : e.val < 16 := e.isLt
        rw [h0] at h; simp at h; omega) (amount_bar m (peer c e) e') () O hO) $$ [HO Ht Hrow] Hk
  isplitr; · iexact HI
  isplitl [HO]; · iexact HO
  isplitl [Ht]; · iexact Ht
  isplitl [Hrow]
  · rw [payload_bar_peer m c e e' h]
    isplitl [Hrow]; · iexists f; unfold rowPts; iexact Hrow
    iexact Hrr
  · iexact Hrb

/-- The rest of the barrier cell's round, no duty taken: the fifteen peers' payloads. -/
theorem rest_bar (c : Dev nD) : bigSep ((sched (F := F) m).duties (barCell c) 0 \ ∅) (fun d => (sched (F := F) m).payload (barCell c) 0 d)
    = iprop(barPay c 1 ∗ barPay c 2 ∗ barPay c 3 ∗ barPay c 4 ∗ barPay c 5 ∗ barPay c 6 ∗ barPay c 7 ∗ barPay c 8 ∗ barPay c 9 ∗ barPay c 10 ∗ barPay c 11 ∗ barPay c 12 ∗ barPay c 13 ∗ barPay c 14 ∗ barPay c 15) := by
  rw [Finset.sdiff_empty, duties_barX, bigSep_eq_bigSepL_of_eq [1, 2, 3, 4, 5, 6, 7, 8, 9, 10, 11, 12, 13, 14, 15] (by decide) (by decide)]
  simp only [bigSepL_cons_cons, bigSepL_singleton]
  rfl

theorem mayWait_barRev (c : Dev nD) : (levAts L lv : sProp 𝕄) ⊢ MayWait (c : Thread nD τ) (.reg barS) () (recvsRev c) := by
  rw [recvsRev_eq]; exact mayWait_bar c

/-- The wait for fifteen on the device's own barrier cell, while it owes the fifteen receive credits: every peer's row
    for this device, and that the peer's receive cell is ready, come with it. -/
theorem wp_bar_wait (c : Dev nD) (κ : ℕ) {α : Type} {Q : α → sProp 𝕄} {k : PUnit → Prog (TpuEff nD τ sig (Elt F) Λ₀ .tc) α} {W : Waits sig Unit} :
    (cellInv ER (sched m) κ (barCell c) : sProp 𝕄)
      ⊢ iprop(levAts L lv -∗ cred (tallyAt (barCell c) () 15) -∗ owes (c : Thread nD τ) (recvsRev c) W -∗ atPos ER (barCell c) 0 ∅ 0
          -∗ ((owes (c : Thread nD τ) (recvsRev c) (insert (SemLoc.reg barS, ()) W) ∗ barPay c 1 ∗ barPay c 2 ∗ barPay c 3 ∗ barPay c 4 ∗ barPay c 5 ∗ barPay c 6 ∗ barPay c 7 ∗ barPay c 8 ∗ barPay c 9 ∗ barPay c 10 ∗ barPay c 11 ∗ barPay c 12 ∗ barPay c 13 ∗ barPay c 14 ∗ barPay c 15)
                -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro #HI #Hlev Hc HO Hat Hk
  iapply (Rounds.wp_wait_rest_token 𝒱₀ ER (sched m) (c : Thread nD τ) none (κ := κ)
      (wpE_semWait_eq 𝒱₀ (c : Thread nD τ) none Set.univ) (Set.mem_univ _) () (O := recvsRev c) (W := W) (R := 0) (m := 0) (T := ∅)
      (by rw [expect_bar])) $$ [Hc HO Hat]
  · isplitr; · iexact HI
    isplitl [Hc]; · iexact Hc
    isplitl [HO]; · iexact HO
    isplitr; · iapply (mayWait_barRev c); iexact Hlev
    iexact Hat
  iintro ⟨HO, -, -, Hpay⟩
  ihave Hp := (Entails.of_eq (rest_bar m c)) $$ Hpay
  iapply Hk
  isplitl [HO]; · iexact HO
  iexact Hp

/-- The transfer at offset `e`: row 0 of `c` (the share `shr e` of it) onto row `e` of `peer c e`, paying the one duty of `c`'s send
    cell `e` and the one duty of that device's receive cell `e`; the landing leaves the row at its final contents. -/
theorem wp_send_e (c : Dev nD) (e : Fin 16) (he : e ≠ 0) (κ₁ κ₂ : ℕ) (n : Dev nD) (hn : n = peer c e)
    (fn : Buf (Elt F) ((rowM e : Memref sig .tc .vmem S512 .f32).view.loc (peer c e : Thread nD τ)))
    {hsc : (rowM e : Memref sig (Dev.tc n : Thread nD τ).2.kind .vmem S512 .f32).view.ref.isScScratch = false}
    {hsrc : (rowM 0 : Memref sig .tc .vmem S512 .f32).view.WordExact} {hdst : (rowM e : Memref sig .tc .vmem S512 .f32).view.WordExact}
    {hsem : DmaTarget.Typed .vmem (.dma (recvQ e)) (.remote (Dev.tc n : Thread nD τ) (rowM e : Memref sig .tc .vmem S512 .f32) (.dma (sendQ e)) hsc)}
    {α : Type} {Q : α → sProp 𝕄} {k : PUnit → Prog (TpuEff nD τ sig (Elt F) Λ₀ .tc) α}
    {O₁ : CellTallies nD τ sig Unit} (O : CellTallies nD τ sig Unit) (hO : O₁ = O + tallyAt (recvCell (peer c e) e) () N) {W : Waits sig Unit} :
    (cellInv ER (sched m) κ₁ (sendCell c e) : sProp 𝕄)
      ⊢ iprop(cellInv ER (sched m) κ₂ (recvCell (peer c e) e) -∗ reached ER (sendCell c e) 0 -∗ reached ER (recvCell (peer c e) e) 0
          -∗ rowPts c 0 (shr e) (commC m c) -∗ rowPts (peer c e) e fullShare fn -∗ owes (c : Thread nD τ) O₁ W
          -∗ dutyTok ER (sendCell c e) 0 0 -∗ dutyTok ER (recvCell (peer c e) e) 0 0
          -∗ ((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM e) (.dma (sendQ e)) hsc) (.dma (recvQ e)) hsrc hdst hsem) k) Q) := by
  subst hn
  iintro #HIs #HIr #Hrs #Hrr Hsrc Hdst HO Hts Htr Hk
  unfold rowPts
  iapply (Rounds.wp_send_pointsTo 𝒱₀ ER (sched m) (c : Thread nD τ) none (c' := (peer c e : Thread nD τ))
    (src := (rowM 0 : Memref sig .tc .vmem S512 .f32)) (dst := (rowM e : Memref sig .tc .vmem S512 .f32))
    (sS := SemLoc.dma (sendQ e)) (sem := SemLoc.dma (recvQ e)) (q := shr e) (fs := commC m c) (κ₁ := κ₁) (κ₂ := κ₂)
    (r₁ := 0) (r₂ := 0) (d₁ := 0) (d₂ := 0) (fd := fn)
    (by rw [duties_send m c e he]; exact Finset.mem_singleton_self _) (by rw [duties_recv m (peer c e) e he]; exact Finset.mem_singleton_self _)
    () () N (credit_row e) (amount_send m c e 0) (amount_recv m (peer c e) e 0) O hO (W := W)
    (Entails.of_eq (payload_send m c e he 0).symm)
    (Entails.of_eq ((landed_row m c e fn).trans (payload_recv m (peer c e) e he 0).symm))) $$ [Hsrc Hdst HO Hts Htr] Hk
  isplitr; · iexact HIs
  isplitr; · iexact HIr
  isplitl [Hsrc]; · iexact Hsrc
  isplitl [Hdst]; · iexact Hdst
  isplitl [HO]; · iexact HO
  isplitl [Hts]; · iexact Hts
  isplitr; · iexact Hrs
  isplitl [Htr]; · iexact Htr
  iexact Hrr

theorem rest_recv (c : Dev nD) (e : Fin 16) (he : e ≠ 0) : bigSep ((sched (F := F) m).duties (recvCell c e) 0 \ ∅) (fun d => (sched (F := F) m).payload (recvCell c e) 0 d)
    = rowPts c e fullShare (commC m c) := by
  rw [Finset.sdiff_empty, duties_recv m c e he, bigSep_singleton, payload_recv m c e he]; rfl
theorem rest_send (c : Dev nD) (e : Fin 16) (he : e ≠ 0) : bigSep ((sched (F := F) m).duties (sendCell c e) 0 \ ∅) (fun d => (sched (F := F) m).payload (sendCell c e) 0 d)
    = rowPts c 0 (shr e) (commC m c) := by
  rw [Finset.sdiff_empty, duties_send m c e he, bigSep_singleton, payload_send m c e he]; rfl

/-- The wait on the device's receive cell `e`, owing nothing: row `e` comes back at its final contents, and the cell closes. -/
theorem wp_recv_wait (c : Dev nD) (e : Fin 16) (he : e ≠ 0) (κ : ℕ)
    {sp' : Space} {s' : Shape} {e' : EltTy} {src : Memref sig .tc sp' s' e'} {dst : Memref sig .tc .vmem S512 .f32}
    {hsrc : src.view.WordExact} {hdst : dst.view.WordExact} (hcr : dst.view.dmaCredit = N)
    {α : Type} {Q : α → sProp 𝕄} {k : PUnit → Prog (TpuEff nD τ sig (Elt F) Λ₀ .tc) α} {W : Waits sig Unit} :
    (cellInv ER (sched m) κ (recvCell c e) : sProp 𝕄)
      ⊢ iprop(cred (tallyAt (recvCell c e) () N) -∗ owes (c : Thread nD τ) 0 W -∗ atPos ER (recvCell c e) 0 ∅ 0
          -∗ ((owes (c : Thread nD τ) 0 (insert (SemLoc.dma (recvQ e), ()) W) ∗ semVal (recvCell c e) 0 ∗ rowPts c e fullShare (commC m c))
                -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ e) src dst hsrc hdst) k) Q) := by
  iintro #HI Hc HO Hat Hk
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m c e he, hcr])) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  ihave Hrow := (Entails.of_eq (rest_recv m c e he)) $$ Hpay
  imod (Rounds.cell_close ER (sched m) (Set.mem_univ κ) (fun h => h) (R := 0 + 1) (duties_later m (recvCell c e))) $$ [Hat] with Hz
  · isplitr; · iexact HI
    iexact Hat
  iapply Hk
  isplitl [HO]; · iexact HO
  isplitl [Hz]; · iexact Hz
  iexact Hrow

/-- The wait on the device's send cell `e`, owing nothing: the share of row 0 the transfer read comes back, and the cell closes. -/
theorem wp_send_wait (c : Dev nD) (e : Fin 16) (he : e ≠ 0) (κ : ℕ)
    {sp' : Space} {s' : Shape} {e' : EltTy} {src : Memref sig .tc sp' s' e'} {dst : Memref sig .tc .vmem S512 .f32}
    {hsrc : src.view.WordExact} {hdst : dst.view.WordExact} (hcr : dst.view.dmaCredit = N)
    {α : Type} {Q : α → sProp 𝕄} {k : PUnit → Prog (TpuEff nD τ sig (Elt F) Λ₀ .tc) α} {W : Waits sig Unit} :
    (cellInv ER (sched m) κ (sendCell c e) : sProp 𝕄)
      ⊢ iprop(cred (tallyAt (sendCell c e) () N) -∗ owes (c : Thread nD τ) 0 W -∗ atPos ER (sendCell c e) 0 ∅ 0
          -∗ ((owes (c : Thread nD τ) 0 (insert (SemLoc.dma (sendQ e), ()) W) ∗ semVal (sendCell c e) 0 ∗ rowPts c 0 (shr e) (commC m c))
                -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ e) src dst hsrc hdst) k) Q) := by
  iintro #HI Hc HO Hat Hk
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, expect_send m c e he, hcr])) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  ihave Hrow := (Entails.of_eq (rest_send m c e he)) $$ Hpay
  imod (Rounds.cell_close ER (sched m) (Set.mem_univ κ) (fun h => h) (R := 0 + 1) (duties_later m (sendCell c e))) $$ [Hat] with Hz
  · isplitr; · iexact HI
    iexact Hat
  iapply Hk
  isplitl [HO]; · iexact HO
  isplitl [Hz]; · iexact Hz
  iexact Hrow

/-! ## The local copy of the device's block into VMEM, and its wait -/

theorem recvsRev_pos (c : Dev nD) (g : GSem nD τ sig) (u : Unit) (h : 0 < recvsRev c g u) : 0 < O₀ c g u := by
  rw [recvsRev_eq, ← recvsF_eq] at h
  show 0 < (recvsF c + barsF c) g u
  rw [Pi.add_apply, Finsupp.add_apply]; omega

theorem copied_eq (c : Dev nD) (fd : Buf (Elt F) ((vM : Memref sig .tc .vmem S1024x512 .f32).view.loc (c : Thread nD τ)))
    (fs : Buf (Elt F) ((xM : Memref sig .tc .hbm S1024x512 .f32).view.loc (c : Thread nD τ))) :
    (vM : Memref sig .tc .vmem S1024x512 .f32).view.write (Elt F) fd ((xM : Memref sig .tc .hbm S1024x512 .f32).view.read (Elt F) fs) Finset.univ = fs := by
  show (View.whole cc0_scratch1).write (Elt F) fd ((View.whole main_arg0).read (Elt F) fs) Finset.univ = fs
  rw [View.read_whole]
  exact View.write_whole_univ _ _ _

/-- The local copy: it pays the one duty of the copy cell; its completion will hand back the VMEM copy holding the block
    and the block. -/
theorem wp_copy_x (c : Dev nD) (κ : ℕ) (fv : Buf (Elt F) ((c : Thread nD τ).loc cc0_scratch1))
    {hsrc : (xM : Memref sig .tc .hbm S1024x512 .f32).view.WordExact} {hdst : (vM : Memref sig .tc .vmem S1024x512 .f32).view.WordExact}
    {hsem : DmaTarget.Typed (nD := nD) .hbm (.dma copyQ) (.here vM : DmaTarget nD τ sig (c : Thread nD τ).2 .vmem S1024x512 .f32)}
    {α : Type} {Q : α → sProp 𝕄} {k : PUnit → Prog (TpuEff nD τ sig (Elt F) Λ₀ .tc) α} :
    (cellInv ER (sched m) κ (copyCell c) : sProp 𝕄)
      ⊢ iprop(reached ER (copyCell c) 0 -∗ dutyTok ER (copyCell c) 0 0 -∗ xPts m c -∗ (((c : Thread nD τ).loc cc0_scratch1) ↦{fullShare} fv)
          -∗ (cred (tallyAt (copyCell c) () NC) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.here vM) (.dma copyQ) hsrc hdst hsem) k) Q) := by
  iintro #HI #Hr Ht Hx Hv Hk
  unfold xPts
  iapply (Rounds.wp_copy_pointsTo 𝒱₀ ER (sched m) (c : Thread nD τ) none (src := (xM : Memref sig .tc .hbm S1024x512 .f32)) (dst := (vM : Memref sig .tc .vmem S1024x512 .f32))
      (sem := SemLoc.dma copyQ) (q := fullShare) (fs := m ((c : Thread nD τ).loc main_arg0)) (fd := fv) (r := 0) (d := 0) (κ := κ)
      (by rw [duties_copy]; exact Finset.mem_singleton_self _) () NC rfl (amount_copy m c 0)
      (by rw [payload_copy, copied_eq]; unfold copyPay; rw [View.set_whole, View.set_whole])) $$ [Ht Hx Hv] Hk
  isplitr; · iexact HI
  isplitl [Hx]; · rw [View.set_whole]; iexact Hx
  isplitl [Hv]; · rw [View.set_whole]; iexact Hv
  isplitl [Ht]; · iexact Ht
  iexact Hr

theorem rest_copy (c : Dev nD) : bigSep ((sched (F := F) m).duties (copyCell c) 0 \ ∅) (fun d => (sched (F := F) m).payload (copyCell c) 0 d) = copyPay m c := by
  rw [Finset.sdiff_empty, duties_copy, bigSep_singleton, payload_copy]

/-- The wait for the local copy, while the fifteen receive credits are still owed: the copy and the block come back, and
    the cell closes. -/
theorem wp_copy_wait (c : Dev nD) (κ : ℕ)
    {hsrc : (xM : Memref sig .tc .hbm S1024x512 .f32).view.WordExact} {hdst : (vM : Memref sig .tc .vmem S1024x512 .f32).view.WordExact}
    {α : Type} {Q : α → sProp 𝕄} {k : PUnit → Prog (TpuEff nD τ sig (Elt F) Λ₀ .tc) α} {W : Waits sig Unit} :
    (cellInv ER (sched m) κ (copyCell c) : sProp 𝕄)
      ⊢ iprop(levAts L lv -∗ cred (tallyAt (copyCell c) () NC) -∗ owes (c : Thread nD τ) (recvsRev c) W -∗ atPos ER (copyCell c) 0 ∅ 0
          -∗ ((owes (c : Thread nD τ) (recvsRev c) (insert (SemLoc.dma copyQ, ()) W) ∗ semVal (copyCell c) 0 ∗ copyPay m c)
                -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 copyQ xM vM hsrc hdst) k) Q) := by
  iintro #HI #Hlev Hc HO Hat Hk
  iapply (Rounds.wp_wait_rest_token 𝒱₀ ER (sched m) (c : Thread nD τ) none (κ := κ)
      (wpE_waitDma2_eq 𝒱₀ (c : Thread nD τ) none Set.univ) (Set.mem_univ _) () (O := recvsRev c) (W := W) (R := 0) (m := 0) (T := ∅)
      (by rw [Nat.zero_add, expect_copy]; rfl)) $$ [Hc HO Hat]
  · isplitr; · iexact HI
    isplitl [Hc]; · iexact Hc
    isplitl [HO]; · iexact HO
    isplitr
    · iapply (mayWait_zero_level c copyQ (by decide) (recvsRev c) (recvsRev_pos c)); iexact Hlev
    iexact Hat
  iintro ⟨HO, Hat, -, Hpay⟩
  ihave Hp := (Entails.of_eq (rest_copy m c)) $$ Hpay
  imod (Rounds.cell_close ER (sched m) (Set.mem_univ κ) (fun h => h) (R := 0 + 1) (duties_later m (copyCell c))) $$ [Hat] with Hz
  · isplitr; · iexact HI
    iexact Hat
  iapply Hk
  isplitl [HO]; · iexact HO
  isplitl [Hz]; · iexact Hz
  iexact Hp

/-! ## After the waits: the payloads read, the cells closed, the own semaphores listed -/

theorem pay_recv (c : Dev nD) (e : Fin 16) (he : e ≠ 0) : bigSep ((sched (F := F) m).duties (recvCell c e) 0) (fun d => (sched (F := F) m).payload (recvCell c e) 0 d)
    = rowPts c e fullShare (commC m c) := by
  rw [duties_recv m c e he, bigSep_singleton, payload_recv m c e he]; rfl
theorem pay_send (c : Dev nD) (e : Fin 16) (he : e ≠ 0) : bigSep ((sched (F := F) m).duties (sendCell c e) 0) (fun d => (sched (F := F) m).payload (sendCell c e) 0 d)
    = rowPts c 0 (shr e) (commC m c) := by
  rw [duties_send m c e he, bigSep_singleton, payload_send m c e he]; rfl

/-- A cell past its one round closes: its counter, at zero, is the device's again. -/
theorem close_cell (g : GSem nD τ sig) (κ : ℕ) :
    (cellInv ER (sched m) κ g : sProp 𝕄) ⊢ iprop(atPos ER g 1 ∅ 0 -∗ |={Set.univ}=> semVal g 0) := by
  iintro #HI Hat
  iapply (Rounds.cell_close ER (sched m) (Set.mem_univ κ) (fun h => h) (R := 1) (duties_later m g))
  isplitr; · iexact HI
  iexact Hat

theorem own33_eq (c : Dev nD) : (bigSep Finset.univ fun i : Fin 33 => (semVal ((c : Thread nD τ), osem i) 0 : sProp 𝕄))
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0 ∗ semVal ((c : Thread nD τ), osem 30) 0 ∗ semVal ((c : Thread nD τ), osem 31) 0 ∗ semVal ((c : Thread nD τ), osem 32) 0) := by
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  simp only [bigSepL_cons_cons, bigSepL_singleton]
  rfl

theorem ret_bind' {E : Type → Type} {α β : Type} (a : α) (k : α → Prog E β) : (Prog.ret a : Prog E α).bind k = k a := rfl

end Cert.KernelIdeal.Proto

end
-- ==== Proof.BodyKernelIdeal.lean ====
/-
  One device's body, stepped in program order from the ghost state the launch deals it.

  The gather buffer is first cut into its sixteen rows. The fifteen signals each pay one duty of a later device's barrier
  cell, handing that device the row it will write here and the fact that this device's receive cell for it is at round 0.
  The local copy of the block completes on its own cell; the block's column sums are stored into row 0, which then holds
  this device's part of the buffer's final contents. The wait for fifteen on the barrier cell returns, from every other
  device, its row for this device and its receive cell's readiness. Row 0 is split into read shares, one per transfer;
  the fifteen transfers each pay a duty of this device's send cell and of the target's receive cell, the landing leaving
  the target's row at its final contents. The thirty waits return the fifteen landed rows and the fifteen read shares
  and close the cells; the rows are joined back into the whole buffer at its final contents, whose column sums are the
  device's result.
-/
import proofs.«901069_g7700000000001070_dist_sum_ax0_shard0_i_m1024_n512_v7x_i16_f32_1_alg».proof.Proof.ProtoKernelIdeal
import proofs.«901069_g7700000000001070_dist_sum_ax0_shard0_i_m1024_n512_v7x_i16_f32_1_alg».proof.Proof.RowsKernelIdeal
import proofs.«901069_g7700000000001070_dist_sum_ax0_shard0_i_m1024_n512_v7x_i16_f32_1_alg».proof.Proof.StepsKernelIdeal
import proofs.«901069_g7700000000001070_dist_sum_ax0_shard0_i_m1024_n512_v7x_i16_f32_1_alg».proof.Proof.Gen.KernelIdeal.Skeleton

set_option maxRecDepth 16384
set_option maxHeartbeats 6400000

noncomputable section

namespace Cert.KernelIdeal.Proto

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body at device `c`: from the launch's ghost state, its credits, its block and its scratch buffers to the result's
    staging buffer at `Spec.out` of the blocks, every own semaphore back at zero, nothing owed. -/
theorem sound_body_at (c : Dev nD) (Kt : PUnit → sProp 𝕄) :
    iprop(bodyPre m ρ c ∗ (bodyPost m ρ c -∗ Kt ⟨⟩)) ⊢ wp frame (wpE (defs₀ (F := F)) 𝒱₀ c none) Set.univ (bodyProg (F := F)) Kt := by
  unfold bodyPre Φ₀ start G' creds spare scratch ghost ghostE
  iintro ⟨⟨⟨⟨⟨⟨%K, ⟨#HIbar, Hatb, #HIcp, Hatc, #Hrcp, Htcp, ⟨#HIs1, #HIr1, #HIb1, #HIp1, Has1, Har1, #Hrb1, #Hrp1, #Hrs1, #Hrr1, Htb1, Htp1, Hts1⟩, ⟨#HIs2, #HIr2, #HIb2, #HIp2, Has2, Har2, #Hrb2, #Hrp2, #Hrs2, #Hrr2, Htb2, Htp2, Hts2⟩, ⟨#HIs3, #HIr3, #HIb3, #HIp3, Has3, Har3, #Hrb3, #Hrp3, #Hrs3, #Hrr3, Htb3, Htp3, Hts3⟩, ⟨#HIs4, #HIr4, #HIb4, #HIp4, Has4, Har4, #Hrb4, #Hrp4, #Hrs4, #Hrr4, Htb4, Htp4, Hts4⟩, ⟨#HIs5, #HIr5, #HIb5, #HIp5, Has5, Har5, #Hrb5, #Hrp5, #Hrs5, #Hrr5, Htb5, Htp5, Hts5⟩, ⟨#HIs6, #HIr6, #HIb6, #HIp6, Has6, Har6, #Hrb6, #Hrp6, #Hrs6, #Hrr6, Htb6, Htp6, Hts6⟩, ⟨#HIs7, #HIr7, #HIb7, #HIp7, Has7, Har7, #Hrb7, #Hrp7, #Hrs7, #Hrr7, Htb7, Htp7, Hts7⟩, ⟨#HIs8, #HIr8, #HIb8, #HIp8, Has8, Har8, #Hrb8, #Hrp8, #Hrs8, #Hrr8, Htb8, Htp8, Hts8⟩, ⟨#HIs9, #HIr9, #HIb9, #HIp9, Has9, Har9, #Hrb9, #Hrp9, #Hrs9, #Hrr9, Htb9, Htp9, Hts9⟩, ⟨#HIs10, #HIr10, #HIb10, #HIp10, Has10, Har10, #Hrb10, #Hrp10, #Hrs10, #Hrr10, Htb10, Htp10, Hts10⟩, ⟨#HIs11, #HIr11, #HIb11, #HIp11, Has11, Har11, #Hrb11, #Hrp11, #Hrs11, #Hrr11, Htb11, Htp11, Hts11⟩, ⟨#HIs12, #HIr12, #HIb12, #HIp12, Has12, Har12, #Hrb12, #Hrp12, #Hrs12, #Hrr12, Htb12, Htp12, Hts12⟩, ⟨#HIs13, #HIr13, #HIb13, #HIp13, Has13, Har13, #Hrb13, #Hrp13, #Hrs13, #Hrr13, Htb13, Htp13, Hts13⟩, ⟨#HIs14, #HIr14, #HIb14, #HIp14, Has14, Har14, #Hrb14, #Hrp14, #Hrs14, #Hrr14, Htb14, Htp14, Hts14⟩, ⟨#HIs15, #HIr15, #HIb15, #HIp15, Has15, Har15, #Hrb15, #Hrp15, #Hrs15, #Hrr15, Htb15, Htp15, Hts15⟩⟩⟩, Hsp2, Hsp3⟩, ⟨Hcb, Hcr1, Hcr2, Hcr3, Hcr4, Hcr5, Hcr6, Hcr7, Hcr8, Hcr9, Hcr10, Hcr11, Hcr12, Hcr13, Hcr14, Hcr15⟩, #Hlev, Hx⟩, ⟨%fc, Hcomm⟩, ⟨%fv, Hvm⟩⟩, Ho, ⟨%d0, %g0, %hg0, Hout⟩⟩, Hk⟩
  unfold Dat.owesAt Pipeline.owesWithin
  icases Ho with ⟨%W, %hW, HO⟩
  rw [show (dats m ρ 0 c).owed t₀.castSucc = O₀ c from rfl, O₀_rev]
  unfold barsRev owedB
  -- the gather buffer, row by row
  ihave Hrows := (comm_split16 c fullShare fc) $$ Hcomm
  icases Hrows with ⟨Hrow0, Hrow1, Hrow2, Hrow3, Hrow4, Hrow5, Hrow6, Hrow7, Hrow8, Hrow9, Hrow10, Hrow11, Hrow12, Hrow13, Hrow14, Hrow15⟩
  unfold bodyProg
  -- the fifteen signals: offset e pays duty 16 - e of the barrier cell of the device e places on, with this device's row 16 - e
  sl_exec
  iapply (wp_sig m c 1 15 (by decide) _ fc _ (add_assoc _ _ _).symm) $$ HIb1 Hrr15 Hrb1 HO Htb1 Hrow15
  iintro HO
  sl_exec
  iapply (wp_sig m c 2 14 (by decide) _ fc _ (add_assoc _ _ _).symm) $$ HIb2 Hrr14 Hrb2 HO Htb2 Hrow14
  iintro HO
  sl_exec
  iapply (wp_sig m c 3 13 (by decide) _ fc _ (add_assoc _ _ _).symm) $$ HIb3 Hrr13 Hrb3 HO Htb3 Hrow13
  iintro HO
  sl_exec
  iapply (wp_sig m c 4 12 (by decide) _ fc _ (add_assoc _ _ _).symm) $$ HIb4 Hrr12 Hrb4 HO Htb4 Hrow12
  iintro HO
  sl_exec
  iapply (wp_sig m c 5 11 (by decide) _ fc _ (add_assoc _ _ _).symm) $$ HIb5 Hrr11 Hrb5 HO Htb5 Hrow11
  iintro HO
  sl_exec
  iapply (wp_sig m c 6 10 (by decide) _ fc _ (add_assoc _ _ _).symm) $$ HIb6 Hrr10 Hrb6 HO Htb6 Hrow10
  iintro HO
  sl_exec
  iapply (wp_sig m c 7 9 (by decide) _ fc _ (add_assoc _ _ _).symm) $$ HIb7 Hrr9 Hrb7 HO Htb7 Hrow9
  iintro HO
  sl_exec
  iapply (wp_sig m c 8 8 (by decide) _ fc _ (add_assoc _ _ _).symm) $$ HIb8 Hrr8 Hrb8 HO Htb8 Hrow8
  iintro HO
  sl_exec
  iapply (wp_sig m c 9 7 (by decide) _ fc _ (add_assoc _ _ _).symm) $$ HIb9 Hrr7 Hrb9 HO Htb9 Hrow7
  iintro HO
  sl_exec
  iapply (wp_sig m c 10 6 (by decide) _ fc _ (add_assoc _ _ _).symm) $$ HIb10 Hrr6 Hrb10 HO Htb10 Hrow6
  iintro HO
  sl_exec
  iapply (wp_sig m c 11 5 (by decide) _ fc _ (add_assoc _ _ _).symm) $$ HIb11 Hrr5 Hrb11 HO Htb11 Hrow5
  iintro HO
  sl_exec
  iapply (wp_sig m c 12 4 (by decide) _ fc _ (add_assoc _ _ _).symm) $$ HIb12 Hrr4 Hrb12 HO Htb12 Hrow4
  iintro HO
  sl_exec
  iapply (wp_sig m c 13 3 (by decide) _ fc _ (add_assoc _ _ _).symm) $$ HIb13 Hrr3 Hrb13 HO Htb13 Hrow3
  iintro HO
  sl_exec
  iapply (wp_sig m c 14 2 (by decide) _ fc _ (add_assoc _ _ _).symm) $$ HIb14 Hrr2 Hrb14 HO Htb14 Hrow2
  iintro HO
  sl_exec
  iapply (wp_sig m c 15 1 (by decide) _ fc _ rfl) $$ HIb15 Hrr1 Hrb15 HO Htb15 Hrow1
  iintro HO
  sl_exec
  -- the local copy of the block, and its wait (the fifteen receive credits still owed)
  iapply (wp_copy_x m c _ fv) $$ HIcp Hrcp Htcp Hx Hvm
  iintro Hcc
  iapply (wp_copy_wait m c _) $$ HIcp Hlev Hcc HO Hatc
  iintro ⟨HO, Hzc, Hcp⟩
  unfold copyPay
  icases Hcp with ⟨Hvm, Hx⟩
  -- the block's column sums into row 0: the row then holds this device's part of the final contents
  iapply (wp_load 𝒱₀ (c : Thread nD τ) none Set.univ (m := (vM : Memref sig .tc .vmem S1024x512 .f32)) (Finset.subset_univ _)) $$ Hvm
  iintro Hvm
  ihave Hrow0 := (Entails.of_eq (show (rowPts c 0 fullShare fc : sProp 𝕄) = (((cM : Memref sig .tc .vmem S16x512 .f32).view.loc (c : Thread nD τ)) ↦[(rowM 0).view.set]{fullShare} fc) from rfl)) $$ Hrow0
  iapply (wp_load 𝒱₀ (c : Thread nD τ) none Set.univ (m := (cM : Memref sig .tc .vmem S16x512 .f32)) row0_load_sub) $$ Hrow0
  iintro Hrow0
  iapply (wp_store 𝒱₀ (c : Thread nD τ) none Set.univ (m := (cM : Memref sig .tc .vmem S16x512 .f32)) (r := r0) (Mk := Finset.univ) row0_store_sub) $$ Hrow0
  iintro Hrow0
  rw [read_vm_whole c]
  ihave Hrow0 := (Entails.of_eq (show ((((cM : Memref sig .tc .vmem S16x512 .f32).access r0).loc (c : Thread nD τ)) ↦[(rowM 0).view.set]{fullShare}
      (((cM : Memref sig .tc .vmem S16x512 .f32).access r0).write (Elt F) fc (k0_pay2 (m ((c : Thread nD τ).loc main_arg0))) Finset.univ) : sProp 𝕄)
      = rowPts c 0 fullShare (commC m c) from stored_row0 m c fc)) $$ Hrow0
  -- the wait for fifteen on the barrier cell: every other device's row for this one comes with it
  iapply (wp_bar_wait m c _) $$ HIbar Hlev Hcb HO Hatb
  unfold barPay
  iintro ⟨HO, ⟨⟨%fd1, Hd1⟩, #Hq1⟩, ⟨⟨%fd2, Hd2⟩, #Hq2⟩, ⟨⟨%fd3, Hd3⟩, #Hq3⟩, ⟨⟨%fd4, Hd4⟩, #Hq4⟩, ⟨⟨%fd5, Hd5⟩, #Hq5⟩, ⟨⟨%fd6, Hd6⟩, #Hq6⟩, ⟨⟨%fd7, Hd7⟩, #Hq7⟩, ⟨⟨%fd8, Hd8⟩, #Hq8⟩, ⟨⟨%fd9, Hd9⟩, #Hq9⟩, ⟨⟨%fd10, Hd10⟩, #Hq10⟩, ⟨⟨%fd11, Hd11⟩, #Hq11⟩, ⟨⟨%fd12, Hd12⟩, #Hq12⟩, ⟨⟨%fd13, Hd13⟩, #Hq13⟩, ⟨⟨%fd14, Hd14⟩, #Hq14⟩, ⟨⟨%fd15, Hd15⟩, #Hq15⟩⟩
  rw [ret_bind']
  unfold recvsRev owedR
  -- row 0 in sixteen read shares; the fifteen transfers
  ihave Htk := (row0_toks_split c (commC m c)) $$ Hrow0
  icases Htk with ⟨Hrest, Hs0, Hs1, Hs2, Hs3, Hs4, Hs5, Hs6, Hs7, Hs8, Hs9, Hs10, Hs11, Hs12, Hs13, Hs14, Hs15⟩
  sl_exec
  iapply (wp_send_e m c 1 (by decide) _ _ _ (dev16_eq c) fd1 _ rfl) $$ HIs1 HIp1 Hrs1 Hq1 Hs1 Hd1 HO Hts1 Htp1
  iintro ⟨Hcs1, HO⟩
  sl_exec
  iapply (wp_send_e m c 2 (by decide) _ _ _ (dev17_eq c) fd2 _ rfl) $$ HIs2 HIp2 Hrs2 Hq2 Hs2 Hd2 HO Hts2 Htp2
  iintro ⟨Hcs2, HO⟩
  sl_exec
  iapply (wp_send_e m c 3 (by decide) _ _ _ (dev18_eq c) fd3 _ rfl) $$ HIs3 HIp3 Hrs3 Hq3 Hs3 Hd3 HO Hts3 Htp3
  iintro ⟨Hcs3, HO⟩
  sl_exec
  iapply (wp_send_e m c 4 (by decide) _ _ _ (dev19_eq c) fd4 _ rfl) $$ HIs4 HIp4 Hrs4 Hq4 Hs4 Hd4 HO Hts4 Htp4
  iintro ⟨Hcs4, HO⟩
  sl_exec
  iapply (wp_send_e m c 5 (by decide) _ _ _ (dev20_eq c) fd5 _ rfl) $$ HIs5 HIp5 Hrs5 Hq5 Hs5 Hd5 HO Hts5 Htp5
  iintro ⟨Hcs5, HO⟩
  sl_exec
  iapply (wp_send_e m c 6 (by decide) _ _ _ (dev21_eq c) fd6 _ rfl) $$ HIs6 HIp6 Hrs6 Hq6 Hs6 Hd6 HO Hts6 Htp6
  iintro ⟨Hcs6, HO⟩
  sl_exec
  iapply (wp_send_e m c 7 (by decide) _ _ _ (dev22_eq c) fd7 _ rfl) $$ HIs7 HIp7 Hrs7 Hq7 Hs7 Hd7 HO Hts7 Htp7
  iintro ⟨Hcs7, HO⟩
  sl_exec
  iapply (wp_send_e m c 8 (by decide) _ _ _ (dev23_eq c) fd8 _ rfl) $$ HIs8 HIp8 Hrs8 Hq8 Hs8 Hd8 HO Hts8 Htp8
  iintro ⟨Hcs8, HO⟩
  sl_exec
  iapply (wp_send_e m c 9 (by decide) _ _ _ (dev24_eq c) fd9 _ rfl) $$ HIs9 HIp9 Hrs9 Hq9 Hs9 Hd9 HO Hts9 Htp9
  iintro ⟨Hcs9, HO⟩
  sl_exec
  iapply (wp_send_e m c 10 (by decide) _ _ _ (dev25_eq c) fd10 _ rfl) $$ HIs10 HIp10 Hrs10 Hq10 Hs10 Hd10 HO Hts10 Htp10
  iintro ⟨Hcs10, HO⟩
  sl_exec
  iapply (wp_send_e m c 11 (by decide) _ _ _ (dev26_eq c) fd11 _ rfl) $$ HIs11 HIp11 Hrs11 Hq11 Hs11 Hd11 HO Hts11 Htp11
  iintro ⟨Hcs11, HO⟩
  sl_exec
  iapply (wp_send_e m c 12 (by decide) _ _ _ (dev27_eq c) fd12 _ rfl) $$ HIs12 HIp12 Hrs12 Hq12 Hs12 Hd12 HO Hts12 Htp12
  iintro ⟨Hcs12, HO⟩
  sl_exec
  iapply (wp_send_e m c 13 (by decide) _ _ _ (dev28_eq c) fd13 _ rfl) $$ HIs13 HIp13 Hrs13 Hq13 Hs13 Hd13 HO Hts13 Htp13
  iintro ⟨Hcs13, HO⟩
  sl_exec
  iapply (wp_send_e m c 14 (by decide) _ _ _ (dev29_eq c) fd14 _ rfl) $$ HIs14 HIp14 Hrs14 Hq14 Hs14 Hd14 HO Hts14 Htp14
  iintro ⟨Hcs14, HO⟩
  sl_exec
  iapply (wp_send_e m c 15 (by decide) _ _ _ (dev30_eq c) fd15 _ (zero_add _).symm) $$ HIs15 HIp15 Hrs15 Hq15 Hs15 Hd15 HO Hts15 Htp15
  iintro ⟨Hcs15, HO⟩
  sl_exec
  -- the thirty waits are over: the landed rows, the read shares back, the cells closed
  ihave Hrow1 := (Entails.of_eq (pay_recv m c 1 (by decide))) $$ Har1_pay1
  ihave Hrow2 := (Entails.of_eq (pay_recv m c 2 (by decide))) $$ Har2_pay1
  ihave Hrow3 := (Entails.of_eq (pay_recv m c 3 (by decide))) $$ Har3_pay1
  ihave Hrow4 := (Entails.of_eq (pay_recv m c 4 (by decide))) $$ Har4_pay1
  ihave Hrow5 := (Entails.of_eq (pay_recv m c 5 (by decide))) $$ Har5_pay1
  ihave Hrow6 := (Entails.of_eq (pay_recv m c 6 (by decide))) $$ Har6_pay1
  ihave Hrow7 := (Entails.of_eq (pay_recv m c 7 (by decide))) $$ Har7_pay1
  ihave Hrow8 := (Entails.of_eq (pay_recv m c 8 (by decide))) $$ Har8_pay1
  ihave Hrow9 := (Entails.of_eq (pay_recv m c 9 (by decide))) $$ Har9_pay1
  ihave Hrow10 := (Entails.of_eq (pay_recv m c 10 (by decide))) $$ Har10_pay1
  ihave Hrow11 := (Entails.of_eq (pay_recv m c 11 (by decide))) $$ Har11_pay1
  ihave Hrow12 := (Entails.of_eq (pay_recv m c 12 (by decide))) $$ Har12_pay1
  ihave Hrow13 := (Entails.of_eq (pay_recv m c 13 (by decide))) $$ Har13_pay1
  ihave Hrow14 := (Entails.of_eq (pay_recv m c 14 (by decide))) $$ Har14_pay1
  ihave Hrow15 := (Entails.of_eq (pay_recv m c 15 (by decide))) $$ Har15_pay1
  ihave Hs1 := (Entails.of_eq (pay_send m c 1 (by decide))) $$ Has1_pay1
  ihave Hs2 := (Entails.of_eq (pay_send m c 2 (by decide))) $$ Has2_pay1
  ihave Hs3 := (Entails.of_eq (pay_send m c 3 (by decide))) $$ Has3_pay1
  ihave Hs4 := (Entails.of_eq (pay_send m c 4 (by decide))) $$ Has4_pay1
  ihave Hs5 := (Entails.of_eq (pay_send m c 5 (by decide))) $$ Has5_pay1
  ihave Hs6 := (Entails.of_eq (pay_send m c 6 (by decide))) $$ Has6_pay1
  ihave Hs7 := (Entails.of_eq (pay_send m c 7 (by decide))) $$ Has7_pay1
  ihave Hs8 := (Entails.of_eq (pay_send m c 8 (by decide))) $$ Has8_pay1
  ihave Hs9 := (Entails.of_eq (pay_send m c 9 (by decide))) $$ Has9_pay1
  ihave Hs10 := (Entails.of_eq (pay_send m c 10 (by decide))) $$ Has10_pay1
  ihave Hs11 := (Entails.of_eq (pay_send m c 11 (by decide))) $$ Has11_pay1
  ihave Hs12 := (Entails.of_eq (pay_send m c 12 (by decide))) $$ Has12_pay1
  ihave Hs13 := (Entails.of_eq (pay_send m c 13 (by decide))) $$ Has13_pay1
  ihave Hs14 := (Entails.of_eq (pay_send m c 14 (by decide))) $$ Has14_pay1
  ihave Hs15 := (Entails.of_eq (pay_send m c 15 (by decide))) $$ Has15_pay1
  imod (close_cell m (recvCell c 1) _) $$ HIr1 Har1 with Hzr1
  imod (close_cell m (recvCell c 2) _) $$ HIr2 Har2 with Hzr2
  imod (close_cell m (recvCell c 3) _) $$ HIr3 Har3 with Hzr3
  imod (close_cell m (recvCell c 4) _) $$ HIr4 Har4 with Hzr4
  imod (close_cell m (recvCell c 5) _) $$ HIr5 Har5 with Hzr5
  imod (close_cell m (recvCell c 6) _) $$ HIr6 Har6 with Hzr6
  imod (close_cell m (recvCell c 7) _) $$ HIr7 Har7 with Hzr7
  imod (close_cell m (recvCell c 8) _) $$ HIr8 Har8 with Hzr8
  imod (close_cell m (recvCell c 9) _) $$ HIr9 Har9 with Hzr9
  imod (close_cell m (recvCell c 10) _) $$ HIr10 Har10 with Hzr10
  imod (close_cell m (recvCell c 11) _) $$ HIr11 Har11 with Hzr11
  imod (close_cell m (recvCell c 12) _) $$ HIr12 Har12 with Hzr12
  imod (close_cell m (recvCell c 13) _) $$ HIr13 Har13 with Hzr13
  imod (close_cell m (recvCell c 14) _) $$ HIr14 Har14 with Hzr14
  imod (close_cell m (recvCell c 15) _) $$ HIr15 Har15 with Hzr15
  imod (close_cell m (sendCell c 1) _) $$ HIs1 Has1 with Hzs1
  imod (close_cell m (sendCell c 2) _) $$ HIs2 Has2 with Hzs2
  imod (close_cell m (sendCell c 3) _) $$ HIs3 Has3 with Hzs3
  imod (close_cell m (sendCell c 4) _) $$ HIs4 Has4 with Hzs4
  imod (close_cell m (sendCell c 5) _) $$ HIs5 Has5 with Hzs5
  imod (close_cell m (sendCell c 6) _) $$ HIs6 Has6 with Hzs6
  imod (close_cell m (sendCell c 7) _) $$ HIs7 Has7 with Hzs7
  imod (close_cell m (sendCell c 8) _) $$ HIs8 Has8 with Hzs8
  imod (close_cell m (sendCell c 9) _) $$ HIs9 Has9 with Hzs9
  imod (close_cell m (sendCell c 10) _) $$ HIs10 Has10 with Hzs10
  imod (close_cell m (sendCell c 11) _) $$ HIs11 Has11 with Hzs11
  imod (close_cell m (sendCell c 12) _) $$ HIs12 Has12 with Hzs12
  imod (close_cell m (sendCell c 13) _) $$ HIs13 Has13 with Hzs13
  imod (close_cell m (sendCell c 14) _) $$ HIs14 Has14 with Hzs14
  imod (close_cell m (sendCell c 15) _) $$ HIs15 Has15 with Hzs15
  -- the buffer whole again at its final contents; its column sums into the result's staging buffer
  ihave Hrow0 := (row0_toks_join c (commC m c)) $$ [Hrest Hs0 Hs1 Hs2 Hs3 Hs4 Hs5 Hs6 Hs7 Hs8 Hs9 Hs10 Hs11 Hs12 Hs13 Hs14 Hs15]
  · isplitl [Hrest]; · iexact Hrest
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  ihave Hcomm := (comm_join16 c fullShare (commC m c)) $$ [Hrow0 Hrow1 Hrow2 Hrow3 Hrow4 Hrow5 Hrow6 Hrow7 Hrow8 Hrow9 Hrow10 Hrow11 Hrow12 Hrow13 Hrow14 Hrow15]
  · isplitl [Hrow0]; · iexact Hrow0
    isplitl [Hrow1]; · iexact Hrow1
    isplitl [Hrow2]; · iexact Hrow2
    isplitl [Hrow3]; · iexact Hrow3
    isplitl [Hrow4]; · iexact Hrow4
    isplitl [Hrow5]; · iexact Hrow5
    isplitl [Hrow6]; · iexact Hrow6
    isplitl [Hrow7]; · iexact Hrow7
    isplitl [Hrow8]; · iexact Hrow8
    isplitl [Hrow9]; · iexact Hrow9
    isplitl [Hrow10]; · iexact Hrow10
    isplitl [Hrow11]; · iexact Hrow11
    isplitl [Hrow12]; · iexact Hrow12
    isplitl [Hrow13]; · iexact Hrow13
    isplitl [Hrow14]; · iexact Hrow14
    iexact Hrow15
  iapply (wp_load 𝒱₀ (c : Thread nD τ) none Set.univ (m := (cM : Memref sig .tc .vmem S16x512 .f32)) (Finset.subset_univ _)) $$ Hcomm
  iintro Hcomm
  iapply (wp_load 𝒱₀ (c : Thread nD τ) none Set.univ (m := (oM : Memref sig .tc .vmem S1x512 .f32)) (Finset.subset_univ _)) $$ Hout
  iintro Hout
  iapply (wp_store 𝒱₀ (c : Thread nD τ) none Set.univ (m := (oM : Memref sig .tc .vmem S1x512 .f32)) (r := Rect.unit (s := S1x512) ![0, 0] S1x512.size inb_S1x512_S1x512_0_0) (Mk := Finset.univ) (Finset.subset_univ _)) $$ Hout
  iintro Hout
  rw [write_out, read_comm_whole m c]
  rw [ret_bind', Prog.pure_eq_ret, wp_ret]
  imodintro
  iapply Hk
  unfold bodyPost Φ₁ scratch xPts Dat.owesAt Pipeline.owesWithin
  rw [show (dats m ρ 0 c).owed t₀.succ = 0 from rfl, own33_eq]
  isplitr [HO Hout]
  · isplitl [Hx]; · iexact Hx
    isplitl [Hcomm Hvm]
    · isplitl [Hcomm]
      · iexists (commC m c); iexact Hcomm
      · iexists _; iexact Hvm
    isplitl [Hzc]; · iexact Hzc
    isplitl [Hsp2]; · iexact Hsp2
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzs8]; · iexact Hzs8
    isplitl [Hzs9]; · iexact Hzs9
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hsp3]; · iexact Hsp3
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    isplitl [Hzr11]; · iexact Hzr11
    isplitl [Hzr12]; · iexact Hzr12
    isplitl [Hzr13]; · iexact Hzr13
    isplitl [Hzr14]; · iexact Hzr14
    iexact Hzr15
  isplitl [HO]
  · iexists _
    isplitr
    rotate_left
    · iexact HO
    · ipureintro; exact fun _ _ => Or.inl trivial
  iexists _; isplitr; · (ipureintro; rfl)
  iexact Hout

theorem sound_body : BodySound m ρ := fun c Kt => sound_body_at m ρ c Kt

/-- info: 'Cert.KernelIdeal.Proto.sound_body' depends on axioms: [propext, Classical.choice, Quot.sound] -/
#guard_msgs in #print axioms sound_body

end Cert.KernelIdeal.Proto

end
-- ==== Proof.LaunchKernelIdeal.lean ====
/-
  The launch of the sixteen-device all-reduce: the per-device body obligation from the body's soundness statement, the
  credit each device is dealt at launch, the side conditions of the launch theorem, and the run of @main with each device's
  result array at its value and its argument array unchanged.
-/
import proofs.«901069_g7700000000001070_dist_sum_ax0_shard0_i_m1024_n512_v7x_i16_f32_1_alg».proof.Proof.ProtoKernelIdeal
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

omit [FloatOps F] in
/-- A whole buffer owned at the full share is its points-to at the named contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- The pipeline's body obligation on device `c`, from the body's soundness statement: the grid has one point and one window. -/
theorem body_obligation (hb : BodySound m ρ) (c : Dev nD) :
    BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ (bodyProg (F := F)) (fun _ => bodyPost m ρ c)
  iintro H
  iapply (hb c fun _ => bodyPost m ρ c)
  isplitl [H]; · iexact H
  iintro H; iexact H

theorem share_eq (c : Dev nD) (w : Fin cfg0.W) : (dats m ρ 0 c).share w = fullShare := by unfold Dat.share; split <;> rfl

/-! ## The launch credit -/

omit [FloatOps F] in
/-- Unit credits on one cell, one per member of a finite set, add up to the set's size. -/
theorem cred_units {α : Type} [DecidableEq α] (s : Finset α) (g : GSem nD τ sig) :
    (bigSep s fun _ : α => (cred (tallyAt g () 1) : sProp 𝕄)) ⊢ cred (tallyAt g () s.card) := by
  induction s using Finset.induction_on with
  | empty => rw [bigSep_empty, Finset.card_empty, tallyAt_zero, cred_zero]; exact BI.Entails.refl _
  | insert a s ha ih =>
    rw [bigSep_insert ha, Finset.card_insert_of_notMem ha, Nat.add_comm, ← tallyAt_add]
    show iprop(cred (tallyAt g () 1) ∗ bigSep s fun _ : α => cred (tallyAt g () 1)) ⊢ (cred (tallyAt g () 1 + tallyAt g () s.card) : sProp 𝕄)
    iintro ⟨H1, H2⟩
    iapply (cred_add (tallyAt g () 1) (tallyAt g () s.card)).2
    isplitl [H1]; · iexact H1
    iapply ih; iexact H2

omit [FloatOps F] in
theorem card_offs : offs.card = 15 := by decide

omit [FloatOps F] in
/-- Every device owing, at each offset, one row's credit to the receive cell of the device that many places after it, each
    device's receive cell at that offset is dealt one row's credit: the device that many places before it owes it. -/
theorem launch_recvs (c : Dev nD) :
    (Pipeline.launchCred recvsF c : sProp 𝕄) ⊢ bigSep offs fun e => cred (tallyAt (recvCell c e) () N) := by
  rw [show (recvsF : Dev nD → CellTallies nD τ sig Unit) = fun d => ∑ e ∈ offs, (fun e d => owedR d e) e d from rfl, Pipeline.launchCred_sum]
  exact bigSep_mono fun e _ =>
    Pipeline.launchCred_tallyAt (.dma (recvQ e)) (fun d => peer d e) (fun c => src c e) (fun c => peer_src c e) (fun d => src_peer d e) () N c

omit [FloatOps F] in
/-- Every device owing one unit to the barrier cell of each other device, each barrier cell is dealt fifteen. -/
theorem launch_bars (c : Dev nD) :
    (Pipeline.launchCred barsF c : sProp 𝕄) ⊢ cred (tallyAt (barCell c) () 15) := by
  rw [show (barsF : Dev nD → CellTallies nD τ sig Unit) = fun d => ∑ e ∈ offs, (fun e d => owedB d e) e d from rfl, Pipeline.launchCred_sum]
  refine (bigSep_mono fun e _ =>
    Pipeline.launchCred_tallyAt (.reg barS) (fun d => peer d e) (fun c => src c e) (fun c => peer_src c e) (fun d => src_peer d e) () 1 c).trans ?_
  have h := cred_units (F := F) offs (barCell c)
  rw [card_offs] at h
  exact h

omit [FloatOps F] in
/-- The launch credit, written out cell by cell. -/
theorem creds_intro (c : Dev nD) : (Pipeline.launchCred O₀ c : sProp 𝕄) ⊢ creds c := by
  rw [show (O₀ : Dev nD → CellTallies nD τ sig Unit) = fun d => recvsF d + barsF d from rfl, Pipeline.launchCred_add]
  have h : (Pipeline.launchCred recvsF c : sProp 𝕄) ⊢ iprop(cred (tallyAt (recvCell c 1) () N) ∗ cred (tallyAt (recvCell c 2) () N)
      ∗ cred (tallyAt (recvCell c 3) () N) ∗ cred (tallyAt (recvCell c 4) () N) ∗ cred (tallyAt (recvCell c 5) () N) ∗ cred (tallyAt (recvCell c 6) () N)
      ∗ cred (tallyAt (recvCell c 7) () N) ∗ cred (tallyAt (recvCell c 8) () N) ∗ cred (tallyAt (recvCell c 9) () N) ∗ cred (tallyAt (recvCell c 10) () N)
      ∗ cred (tallyAt (recvCell c 11) () N) ∗ cred (tallyAt (recvCell c 12) () N) ∗ cred (tallyAt (recvCell c 13) () N) ∗ cred (tallyAt (recvCell c 14) () N)
      ∗ cred (tallyAt (recvCell c 15) () N)) := by
    have h := launch_recvs (F := F) c
    rw [offs_eq] at h
    rw [bigSep_insert (by decide), bigSep_insert (by decide), bigSep_insert (by decide), bigSep_insert (by decide), bigSep_insert (by decide),
      bigSep_insert (by decide), bigSep_insert (by decide), bigSep_insert (by decide), bigSep_insert (by decide), bigSep_insert (by decide),
      bigSep_insert (by decide), bigSep_insert (by decide), bigSep_insert (by decide), bigSep_insert (by decide), bigSep_singleton] at h
    exact h
  unfold creds
  iintro ⟨HR, HB⟩
  isplitl [HB]
  · iapply (launch_bars (F := F) c); iexact HB
  iapply h; iexact HR

/-! ## The launch theorem's side conditions -/

/-- What the launch hands a device — its argument array (the one unscoped buffer no window stages), the level facts, the launch
    credit, and what the global step left it — is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds_intro (F := F) c) $$ Hcr
  imodintro
  unfold start xPts
  isplitl
  · isplitl [HG]; · iexact HG
    isplitl [Hc]; · iexact Hc
    isplitl [Hlev]; · iexact Hlev
    iexact Hx
  · iempintro

/-- With the two scratch buffers the region allocates, that is the invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The invariant after the point gives the argument array back, every own semaphore at zero, and the scratch buffers. -/
theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Hx, Hs, Ho⟩
  isplitl [Hx]; · iexact Hx
  isplitl [Ho]; · iexact Ho
  iexact Hs

/-- The pipeline's one staging semaphore sits at level 0, below everything a device owes at launch; after the point nothing is owed. -/
theorem waits (c : Dev nD) : (levAts L lv : sProp 𝕄) ⊢ Pipeline.cellsWaits cfgs (dats m ρ) () 0 c :=
  Pipeline.cellsWaits_intro cfgs (dats m ρ) () 0 c fun w s t =>
    mayWait_zero_level c _ (by fin_cases w <;> fin_cases s <;> decide) _ (by
      rcases t with ⟨_ | _, ht⟩
      · exact fun g u h => h
      · exact fun g u h => absurd h (Nat.lt_irrefl 0))

/-! ## The run -/

set_option maxRecDepth 16384 in
/-- The result array after the one point's write-back: the staged block, written over the whole array. -/
theorem finalA (c : Dev nD) : (dats m ρ 0 c).arrAt (0 : Fin 1) cfg0.N = outC m c := by
  have h := (dats m ρ 0 c).arrAt_succ (0 : Fin 1) t₀
  rw [flush0_0 t₀, if_pos rfl] at h
  refine Eq.trans (show _ = (dats m ρ 0 c).arrAt (0 : Fin 1) (t₀.val + 1) from rfl) (h.trans ?_)
  exact Memref.write_access_unit_zero_univ (Elt F) main_v1 (funext fun a => Nat.zero_mul _) _ _ _

set_option maxRecDepth 16384 in
/-- At the compiled mesh of sixteen devices, for any float values, from any memory with zero counters: every weakly fair
    execution of @main — the sixteen kernels handshaking on the runtime's barrier semaphore, each then sending its
    contribution to every other device and summing what it gathered — terminates, and every final state has each device's
    result array at its value and its argument array unchanged. The ghost state the launch deals (`hu₀`), the global step that
    opens the cells' invariants over every device's semaphores (`hglob`) and the layout fact about the kernel's own
    semaphores (`hown`) are taken as hypotheses. -/
theorem run_main (hb : BodySound m ρ)
    (G : Dev nD → sProp 𝕄) (u₀ : UU)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' m))
    (hown : Pipeline.OwnSemFacts cfg0.spec osem) :
    θ_run defs (onTc (τ := τ) (main (F := F))) (s₀ m ρ) (fun r => ∀ c : Dev nD,
      r.2.mem ((c.tc : Thread nD τ).loc main_v1) = outC m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ hown (Pipeline.PreFacts.none _) EP defs₀ 𝒱₀ m ρ main
    (hmain := fun _ => rfl)
    (hbody := body_obligation m ρ hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := hu₀)
    (hglob := hglob)
    (hA := fun _ _ => rfl) (hpf := fun _ k => k.elim0)
    (X := start m) (Y := xPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xPts
      iintro ⟨Hx, -, HSI⟩
      icombine HSI Hx gives %hx
      imodintro
      isplitr; · ipureintro; exact Buf.eq_of_forall_mem_univ hx
      iexact HSI)
    (hQ := fun s h c => ⟨((h c).1 0).trans (finalA m ρ c), (h c).2.2⟩)

/-- info: 'Cert.KernelIdeal.Proto.run_main' depends on axioms: [propext, Classical.choice, Quot.sound] -/
#guard_msgs in #print axioms run_main

end Cert.KernelIdeal.Proto

end
-- ==== Proof.GlobKernelIdeal.lean ====
/-
  The launch's global step of the sixteen-device all-reduce. The protocol's ghost state is minted at the cells: each of a
  device's thirty-two cells (its barrier cell, its local copy's cell, fifteen send cells, fifteen receive cells) gets its round state, its
  owner's position and its reached-mark, and every duty its token. The step allocates each cell's invariant from its
  counter at zero and its round state, and deals every token to the device that pays the duty: the barrier duty `d` of
  device `c'` and the receive duty at offset `e` of device `c'` go to the device `e` places before `c'` (with `d` the
  opposite offset `16 - e`), a send duty and the local copy's duty stay where they are. Per offset this is a rotation of
  the sixteen devices.
-/
import proofs.«901069_g7700000000001070_dist_sum_ax0_shard0_i_m1024_n512_v7x_i16_f32_1_alg».proof.Proof.ProtoKernelIdeal

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

/-- A device's thirty-two protocol semaphores: the barrier's, the fifteen send semaphores in use, the fifteen receive
    semaphores in use, the local copy's. -/
abbrev csem : Fin 32 → SemLoc sig := fun k =>
  if k.val = 0 then .reg barS
  else if h : k.val ≤ 15 then .dma (sendQ ⟨k.val, by omega⟩)
  else if h' : k.val ≤ 30 then .dma (recvQ ⟨k.val - 15, by omega⟩)
  else .dma copyQ
abbrev kcell (ck : Dev nD × Fin 32) : GSem nD τ sig := ((ck.1 : Thread nD τ), csem ck.2)

theorem csem_injective : Function.Injective csem := by decide

theorem kcell_injective : Function.Injective (kcell : Dev nD × Fin 32 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- The fifteen offsets in use, `1 … 15`, and each one's opposite, `15 … 1`. -/
def off (j : Fin 15) : Fin 16 := ⟨j.val + 1, by omega⟩
def opp (j : Fin 15) : Fin 16 := ⟨15 - j.val, by omega⟩
/-- Where the send and the receive cell of an offset sit among the thirty-two. -/
def sK (j : Fin 15) : Fin 32 := ⟨j.val + 1, by omega⟩
def rK (j : Fin 15) : Fin 32 := ⟨j.val + 16, by omega⟩

theorem csem_sK : ∀ j : Fin 15, csem (sK j) = .dma (sendQ (off j)) := by decide
theorem csem_rK : ∀ j : Fin 15, csem (rK j) = .dma (recvQ (off j)) := by decide

/-- A device's forty-six duties as minted: the local copy's, and by offset the barrier duty at the opposite offset, the
    receive duty, the send duty. -/
def tokS : Unit ⊕ (Fin 15 × Fin 3) → SemLoc sig × Fin 16
  | .inl _ => (.dma copyQ, 0)
  | .inr jt => match jt.2 with
    | 0 => (.reg barS, opp jt.1) | 1 => (.dma (recvQ (off jt.1)), 0) | 2 => (.dma (sendQ (off jt.1)), 0)
theorem tokS_injective : Function.Injective tokS := by decide
def tokOf (cj : Dev nD × (Unit ⊕ (Fin 15 × Fin 3))) : GSem nD τ sig × ℕ × Fin 16 := (((cj.1 : Thread nD τ), (tokS cj.2).1), 0, (tokS cj.2).2)
theorem tokOf_injective : Function.Injective (tokOf : Dev nD × (Unit ⊕ (Fin 15 × Fin 3)) → GSem nD τ sig × ℕ × Fin 16) := by
  rintro ⟨c, jt⟩ ⟨c', jt'⟩ h
  have h1 : c = c' := by have := congrArg (fun x : GSem nD τ sig × ℕ × Fin 16 => x.1.1.1) h; exact this
  subst h1
  have h2 : tokS jt = tokS jt' := Prod.ext (congrArg (fun x : GSem nD τ sig × ℕ × Fin 16 => x.1.2) h) (congrArg (fun x : GSem nD τ sig × ℕ × Fin 16 => x.2.2) h)
  rw [tokS_injective h2]
def protoToks : Finset (GSem nD τ sig × ℕ × Fin 16) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (copyCell c) 0 0 ∗ bigSep Finset.univ fun j : Fin 15 =>
    iprop(dutyTok ER (barCell c) 0 (opp j) ∗ dutyTok ER (recvCell c (off j)) 0 0 ∗ dutyTok ER (sendCell c (off j)) 0 0))

/-- What the launch element deals device `c`. -/
def G (c : Dev nD) : sProp 𝕄 :=
  iprop((bigSep Finset.univ fun k : Fin 32 => roundState ER (sched m) (kcell (c, k)) 0)
    ∗ (bigSep Finset.univ fun k : Fin 32 => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 32 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks; rw [bigSep_univ_sum, bigSep_univ_of_subsingleton (), bigSep_univ_prod]
      exact congrArg _ (bigSep_congr fun j _ => by rw [bigSep_fin3]; rfl)
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline library's and the protocol's, and the latter funds every device. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-! ## The semaphores at zero -/

theorem ownSemFacts : Pipeline.OwnSemFacts cfg0.spec osem := by decide

/-- Where the protocol's send and receive semaphores sit among the kernel's own thirty-three. -/
def sO (j : Fin 15) : Fin 33 := ⟨j.val + 2, by omega⟩
def rO (j : Fin 15) : Fin 33 := ⟨j.val + 18, by omega⟩
theorem osem_sO : ∀ j : Fin 15, osem (sO j) = .dma (sendQ (off j)) := by decide
theorem osem_rO : ∀ j : Fin 15, osem (rO j) = .dma (recvQ (off j)) := by decide

theorem sK_injective : Function.Injective sK := by decide
theorem rK_injective : Function.Injective rK := by decide
theorem sO_injective : Function.Injective sO := by decide
theorem rO_injective : Function.Injective rO := by decide

/-- The thirty-two are the barrier's index, the local copy's, the fifteen send indices and the fifteen receive indices. -/
theorem fin32_eq : (Finset.univ : Finset (Fin 32)) = insert 0 (insert 31 (Finset.univ.map ⟨sK, sK_injective⟩ ∪ Finset.univ.map ⟨rK, rK_injective⟩)) := by decide
theorem fin32_zero : (0 : Fin 32) ∉ insert 31 (Finset.univ.map ⟨sK, sK_injective⟩ ∪ Finset.univ.map ⟨rK, rK_injective⟩) := by decide
theorem fin32_last : (31 : Fin 32) ∉ Finset.univ.map ⟨sK, sK_injective⟩ ∪ Finset.univ.map ⟨rK, rK_injective⟩ := by decide
theorem fin32_disj : Disjoint (Finset.univ.map ⟨sK, sK_injective⟩) (Finset.univ.map ⟨rK, rK_injective⟩) := Finset.disjoint_left.mpr (by decide)

theorem bigSep_fin32 (Φ : Fin 32 → sProp 𝕄) :
    bigSep Finset.univ Φ = iprop(Φ 0 ∗ Φ 31 ∗ (bigSep Finset.univ fun j : Fin 15 => Φ (sK j)) ∗ bigSep Finset.univ fun j : Fin 15 => Φ (rK j)) := by
  rw [fin32_eq, bigSep_insert fin32_zero, bigSep_insert fin32_last, bigSep_union fin32_disj, bigSep_map, bigSep_map]; rfl

/-- The thirty-three own semaphores are the local copy's, the two unused ones and the fifteen send and fifteen receive semaphores. -/
theorem fin33_eq : (Finset.univ : Finset (Fin 33)) = insert 0 (insert 1 (insert 17 (Finset.univ.map ⟨sO, sO_injective⟩ ∪ Finset.univ.map ⟨rO, rO_injective⟩))) := by decide
theorem fin33_zero : (0 : Fin 33) ∉ insert 1 (insert 17 (Finset.univ.map ⟨sO, sO_injective⟩ ∪ Finset.univ.map ⟨rO, rO_injective⟩)) := by decide
theorem fin33_one : (1 : Fin 33) ∉ insert 17 (Finset.univ.map ⟨sO, sO_injective⟩ ∪ Finset.univ.map ⟨rO, rO_injective⟩) := by decide
theorem fin33_17 : (17 : Fin 33) ∉ Finset.univ.map ⟨sO, sO_injective⟩ ∪ Finset.univ.map ⟨rO, rO_injective⟩ := by decide
theorem fin33_disj : Disjoint (Finset.univ.map ⟨sO, sO_injective⟩) (Finset.univ.map ⟨rO, rO_injective⟩) := Finset.disjoint_left.mpr (by decide)

theorem bigSep_fin33 (Φ : Fin 33 → sProp 𝕄) :
    bigSep Finset.univ Φ = iprop(Φ 0 ∗ Φ 1 ∗ Φ 17 ∗ (bigSep Finset.univ fun j : Fin 15 => Φ (sO j)) ∗ bigSep Finset.univ fun j : Fin 15 => Φ (rO j)) := by
  rw [fin33_eq, bigSep_insert fin33_zero, bigSep_insert fin33_one, bigSep_insert fin33_17, bigSep_union fin33_disj, bigSep_map, bigSep_map]; rfl

theorem send_eq (c : Dev nD) (j : Fin 15) : sendCell c (off j) = kcell (c, sK j) := by
  show ((c : Thread nD τ), SemLoc.dma (sendQ (off j))) = ((c : Thread nD τ), csem (sK j)); rw [csem_sK]
theorem recv_eq (c : Dev nD) (j : Fin 15) : recvCell c (off j) = kcell (c, rK j) := by
  show ((c : Thread nD τ), SemLoc.dma (recvQ (off j))) = ((c : Thread nD τ), csem (rK j)); rw [csem_rK]

/-- Anything said of a device's thirty-two cells, said of its barrier cell, its local copy's cell, its send cells and its
    receive cells. -/
theorem bigSep_cells (c : Dev nD) (Φ : GSem nD τ sig → sProp 𝕄) :
    (bigSep Finset.univ fun k : Fin 32 => Φ (kcell (c, k)))
      = iprop(Φ (barCell c) ∗ Φ (copyCell c) ∗ (bigSep Finset.univ fun j : Fin 15 => Φ (sendCell c (off j))) ∗ bigSep Finset.univ fun j : Fin 15 => Φ (recvCell c (off j))) := by
  rw [bigSep_fin32, bigSep_congr (fun j _ => congrArg Φ (send_eq c j)), bigSep_congr (fun j _ => congrArg Φ (recv_eq c j))]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier semaphore at zero are the thirty-two cells' counters and the two unused ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 32 => semVal (kcell (c, k)) 0) ∗ spare c) : sProp 𝕄) := by
  unfold Pipeline.ownSems0 spare
  rw [unscopedSems0_eq, bigSep_fin33, bigSep_cells c (fun g => semVal g 0)]
  simp only [osem_sO, osem_rO]
  iintro ⟨⟨H0, H1, H17, HS, HR⟩, HB⟩
  isplitl [HB H0 HS HR]
  · isplitl [HB]; · iexact HB
    isplitl [H0]; · iexact H0
    isplitl [HS]; · iexact HS
    iexact HR
  isplitl [H1]; · iexact H1
  iexact H17

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ spare c) := by
  unfold G
  iintro ⟨Hos, Hus, Hst, Hat, Htok⟩
  ihave Hv := (sems0_eq (F := F) c) $$ [Hos Hus]
  · isplitl [Hos] <;> iassumption
  icases Hv with ⟨Hv, Hsp⟩
  imod (show iprop((bigSep Finset.univ fun k : Fin 32 => semVal (kcell (c, k)) 0) ∗ bigSep Finset.univ fun k : Fin 32 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsp

/-! ## The regrouping -/

/-- The rotation of the devices by an offset. -/
def ringE (e : Fin 16) : Dev nD ≃ Dev nD := ⟨fun c => peer c e, fun c => src c e, fun c => src_peer c e, fun c => peer_src c e⟩

/-- A family over devices and offsets may be dealt along each offset's rotation. -/
theorem deal (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (peer c (off j)) j := by
  rw [bigSep_univ_comm, bigSep_univ_comm (fun (c : Dev nD) (j : Fin 15) => Φ (peer c (off j)) j)]
  exact bigSep_congr fun j _ => bigSep_univ_equiv (ringE (off j)) (fun c => Φ c j)

/-- The names of the cells, as a function of the cell. -/
def Kof (K' : Dev nD × Fin 32 → ℕ) (g : GSem nD τ sig) : ℕ := if h : ∃ ck, kcell ck = g then K' h.choose else 0
theorem Kof_kcell (K' : Dev nD × Fin 32 → ℕ) (ck : Dev nD × Fin 32) : Kof K' (kcell ck) = K' ck := by
  have h : ∃ ck', kcell ck' = kcell ck := ⟨ck, rfl⟩
  unfold Kof; rw [dif_pos h, kcell_injective h.choose_spec]

/-- The persistent part: every cell's invariant at its name, and that round 0 of every cell is reached. -/
def records (K' : Dev nD × Fin 32 → ℕ) : sProp 𝕄 :=
  iprop((bigSep Finset.univ fun ck : Dev nD × Fin 32 => cellInv ER (sched m) (K' ck) (kcell ck))
    ∗ bigSep Finset.univ fun ck : Dev nD × Fin 32 => reached ER (kcell ck) 0)

instance records_persistent (K' : Dev nD × Fin 32 → ℕ) : BI.Persistent (records m K') := by unfold records; infer_instance

theorem inv_at (K' : Dev nD × Fin 32 → ℕ) (ck : Dev nD × Fin 32) :
    (bigSep Finset.univ fun ck : Dev nD × Fin 32 => (cellInv ER (sched m) (K' ck) (kcell ck) : sProp 𝕄)) ⊢ cellInv ER (sched m) (Kof K' (kcell ck)) (kcell ck) := by
  rw [Kof_kcell]; exact bigSep_elim (Finset.mem_univ ck)
theorem inv_bar (K' : Dev nD × Fin 32 → ℕ) (c : Dev nD) :
    (bigSep Finset.univ fun ck : Dev nD × Fin 32 => (cellInv ER (sched m) (K' ck) (kcell ck) : sProp 𝕄)) ⊢ cellInv ER (sched m) (Kof K' (barCell c)) (barCell c) :=
  inv_at m K' (c, 0)
theorem inv_copy (K' : Dev nD × Fin 32 → ℕ) (c : Dev nD) :
    (bigSep Finset.univ fun ck : Dev nD × Fin 32 => (cellInv ER (sched m) (K' ck) (kcell ck) : sProp 𝕄)) ⊢ cellInv ER (sched m) (Kof K' (copyCell c)) (copyCell c) :=
  inv_at m K' (c, 31)
theorem inv_send (K' : Dev nD × Fin 32 → ℕ) (c : Dev nD) (j : Fin 15) :
    (bigSep Finset.univ fun ck : Dev nD × Fin 32 => (cellInv ER (sched m) (K' ck) (kcell ck) : sProp 𝕄)) ⊢ cellInv ER (sched m) (Kof K' (sendCell c (off j))) (sendCell c (off j)) := by
  rw [send_eq]; exact inv_at m K' (c, sK j)
theorem inv_recv (K' : Dev nD × Fin 32 → ℕ) (c : Dev nD) (j : Fin 15) :
    (bigSep Finset.univ fun ck : Dev nD × Fin 32 => (cellInv ER (sched m) (K' ck) (kcell ck) : sProp 𝕄)) ⊢ cellInv ER (sched m) (Kof K' (recvCell c (off j))) (recvCell c (off j)) := by
  rw [recv_eq]; exact inv_at m K' (c, rK j)

theorem reached_at (ck : Dev nD × Fin 32) :
    (bigSep Finset.univ fun ck : Dev nD × Fin 32 => (reached ER (kcell ck) 0 : sProp 𝕄)) ⊢ reached ER (kcell ck) 0 :=
  bigSep_elim (Finset.mem_univ ck)
theorem reached_bar (c : Dev nD) :
    (bigSep Finset.univ fun ck : Dev nD × Fin 32 => (reached ER (kcell ck) 0 : sProp 𝕄)) ⊢ reached ER (barCell c) 0 :=
  reached_at (F := F) (c, 0)
theorem reached_copy (c : Dev nD) :
    (bigSep Finset.univ fun ck : Dev nD × Fin 32 => (reached ER (kcell ck) 0 : sProp 𝕄)) ⊢ reached ER (copyCell c) 0 :=
  reached_at (F := F) (c, 31)
theorem reached_send (c : Dev nD) (j : Fin 15) :
    (bigSep Finset.univ fun ck : Dev nD × Fin 32 => (reached ER (kcell ck) 0 : sProp 𝕄)) ⊢ reached ER (sendCell c (off j)) 0 := by
  rw [send_eq]; exact reached_at (F := F) (c, sK j)
theorem reached_recv (c : Dev nD) (j : Fin 15) :
    (bigSep Finset.univ fun ck : Dev nD × Fin 32 => (reached ER (kcell ck) 0 : sProp 𝕄)) ⊢ reached ER (recvCell c (off j)) 0 := by
  rw [recv_eq]; exact reached_at (F := F) (c, rK j)

/-- What stays with device `c` at an offset: its positions in its send and receive cells there, -/
def posE (c : Dev nD) (j : Fin 15) : sProp 𝕄 := iprop(atPos ER (sendCell c (off j)) 0 ∅ 0 ∗ atPos ER (recvCell c (off j)) 0 ∅ 0)
/-- and the tokens of the three duties IT pays there: its signal to the device that many places on, its transfer's
    landing there, its transfer's completion here. -/
def payE (c : Dev nD) (j : Fin 15) : sProp 𝕄 :=
  iprop(dutyTok ER (barCell (peer c (off j))) 0 (opp j) ∗ dutyTok ER (recvCell (peer c (off j)) (off j)) 0 0 ∗ dutyTok ER (sendCell c (off j)) 0 0)
/-- All the tokens device `c` pays with: its local copy's, and each offset's three. -/
def payToks (c : Dev nD) : sProp 𝕄 := iprop(dutyTok ER (copyCell c) 0 0 ∗ bigSep Finset.univ fun j : Fin 15 => payE c j)
def linear (c : Dev nD) : sProp 𝕄 :=
  iprop(atPos ER (barCell c) 0 ∅ 0 ∗ atPos ER (copyCell c) 0 ∅ 0 ∗ (bigSep Finset.univ fun j : Fin 15 => posE c j) ∗ payToks c ∗ spare c)

theorem ghostE_intro (K' : Dev nD × Fin 32 → ℕ) (c : Dev nD) (j : Fin 15) :
    iprop(records m K' ∗ posE c j ∗ payE c j) ⊢ ghostE m (Kof K') c (off j) (opp j) := by
  unfold records posE payE ghostE
  iintro ⟨⟨#HI, #HR⟩, ⟨HaS, HaV⟩, HtB, HtV, HtS⟩
  isplitr; · iapply (inv_send m K' c j); iexact HI
  isplitr; · iapply (inv_recv m K' c j); iexact HI
  isplitr; · iapply (inv_bar m K' (peer c (off j))); iexact HI
  isplitr; · iapply (inv_recv m K' (peer c (off j)) j); iexact HI
  isplitl [HaS]; · iexact HaS
  isplitl [HaV]; · iexact HaV
  isplitr; · iapply (reached_bar (F := F) (peer c (off j))); iexact HR
  isplitr; · iapply (reached_recv (F := F) (peer c (off j)) j); iexact HR
  isplitr; · iapply (reached_send (F := F) c j); iexact HR
  isplitr; · iapply (reached_recv (F := F) c j); iexact HR
  isplitl [HtB]; · iexact HtB
  isplitl [HtV]; · iexact HtV
  iexact HtS

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- A device's ghost state, offset by offset. -/
theorem ghost_eq (K : GSem nD τ sig → ℕ) (c : Dev nD) :
    ghost m K c = iprop(cellInv ER (sched m) (K (barCell c)) (barCell c) ∗ atPos ER (barCell c) 0 ∅ 0
      ∗ cellInv ER (sched m) (K (copyCell c)) (copyCell c) ∗ atPos ER (copyCell c) 0 ∅ 0 ∗ reached ER (copyCell c) 0 ∗ dutyTok ER (copyCell c) 0 0
      ∗ bigSep Finset.univ fun j : Fin 15 => ghostE m K c (off j) (opp j)) := by
  unfold ghost; rw [bigSep_fin15]; rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K' : Dev nD × Fin 32 → ℕ) (c : Dev nD) : iprop(records m K' ∗ linear c) ⊢ G' m c := by
  have step : iprop(records m K' ∗ (bigSep Finset.univ fun j : Fin 15 => posE c j) ∗ bigSep Finset.univ fun j : Fin 15 => payE c j)
      ⊢ (bigSep Finset.univ fun j : Fin 15 => ghostE m (Kof K') c (off j) (opp j) : sProp 𝕄) := by
    rw [← bigSep_sep']; exact bigSep_with_persistent fun j _ => ghostE_intro m K' c j
  unfold linear payToks G'
  iintro ⟨#HR, HaB, HaC, Hpos, ⟨HtC, Hpay⟩, Hsp⟩
  isplitr [Hsp]
  · iexists (Kof K')
    iapply (Entails.of_eq (ghost_eq m (Kof K') c).symm)
    isplitr
    · unfold records; icases HR with ⟨#HI, -⟩
      iapply (inv_bar m K' c); iexact HI
    isplitl [HaB]; · iexact HaB
    isplitr
    · unfold records; icases HR with ⟨#HI, -⟩
      iapply (inv_copy m K' c); iexact HI
    isplitl [HaC]; · iexact HaC
    isplitr
    · unfold records; icases HR with ⟨-, #HRr⟩
      iapply (reached_copy (F := F) c); iexact HRr
    isplitl [HtC]; · iexact HtC
    iapply step
    isplitr; · iexact HR
    isplitl [Hpos]; · iexact Hpos
    iexact Hpay
  iexact Hsp

/-- The tokens dealt around: at each offset, a barrier's token and a receive token go that many devices back. -/
theorem toks_around : (bigSep Finset.univ fun c : Dev nD => (toks c : sProp 𝕄)) ⊢ bigSep Finset.univ fun c : Dev nD => payToks c := by
  unfold toks payToks payE
  simp only [bigSep_sep']
  rw [deal (fun (c : Dev nD) (j : Fin 15) => (dutyTok ER (barCell c) 0 (opp j) : sProp 𝕄)),
    deal (fun (c : Dev nD) (j : Fin 15) => (dutyTok ER (recvCell c (off j)) 0 0 : sProp 𝕄))]

theorem lin_intro (c : Dev nD) :
    iprop((bigSep Finset.univ fun k : Fin 32 => atPos ER (kcell (c, k)) 0 ∅ 0) ∗ payToks c ∗ spare c) ⊢ (linear c : sProp 𝕄) := by
  unfold linear posE
  rw [bigSep_cells c (fun g => atPos ER g 0 ∅ 0), bigSep_sep']
  iintro ⟨⟨HB, HC, HS, HV⟩, Hpay, Hsp⟩
  isplitl [HB]; · iexact HB
  isplitl [HC]; · iexact HC
  isplitl [HS HV]
  · isplitl [HS]; · iexact HS
    iexact HV
  isplitl [Hpay]; · iexact Hpay
  iexact Hsp

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ spare c) : sProp 𝕄)
      ⊢ bigSep Finset.univ (G' m) := by
  rw [bigSep_sep', bigSep_sep', bigSep_sep', ← bigSep_univ_prod (fun ck : Dev nD × Fin 32 => iprop(∃ κ : ℕ, cellInv ER (sched m) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok, Hsp⟩
  ihave HK := (BI.bigSep_exists_pi Finset.univ (fun (ck : Dev nD × Fin 32) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => bigSep Finset.univ fun k : Fin 32 => atPos ER (kcell (c, k)) 0 ∅ 0)
        ∗ (bigSep Finset.univ fun c : Dev nD => payToks c) ∗ bigSep Finset.univ fun c : Dev nD => spare c) ⊢ (bigSep Finset.univ fun c : Dev nD => linear c : sProp 𝕄) from by
      rw [← bigSep_sep', ← bigSep_sep']; exact bigSep_mono fun c _ => lin_intro c)
    isplitl [Hat]; · iexact Hat
    isplitl [Htk]; · iexact Htk
    iexact Hsp

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Proto.hu₀' depends on axioms: [propext, Classical.choice, Quot.sound] -/
#guard_msgs in #print axioms hu₀

/-- info: 'Cert.KernelIdeal.Proto.ownSemFacts' depends on axioms: [propext, Classical.choice, Quot.sound] -/
#guard_msgs in #print axioms ownSemFacts

/-- info: 'Cert.KernelIdeal.Proto.glob' depends on axioms: [propext, Classical.choice, Quot.sound] -/
#guard_msgs in #print axioms glob

end Cert.KernelIdeal.Proto

end
-- ==== Proof.SpecKernel.lean ====
/-
  The all-reduce this kernel computes, as pure functions of the sixteen devices' blocks: each device sums the
  rows of its own block (its contribution, one row of 512 columns), every device gathers the sixteen
  contributions — row `e` of its gather buffer holding the contribution of the device `e` places before it on
  the ring, row 0 its own — and sums the gathered rows.
-/
import proofs.«901069_g7700000000001070_dist_sum_ax0_shard0_i_m1024_n512_v7x_i16_f32_1_alg».proof.Proof.Gen.Kernel.Skeleton
import Idealize.ShloMosaic.Lib.ValueIdx

noncomputable section

namespace Cert.Kernel.Spec

open Cert.Kernel Cert.Kernel.Gen Idealize.ShloMosaic Idealize.ShloMosaic.ValueIdx

variable {F : FTy → Type} [FloatOps F]

/-- The device `e` places before `c` on the ring of sixteen: the one whose transfer at offset `e` lands on `c`. -/
def src (c : Dev nD) (e : Fin 16) : Dev nD := ⟨(c.val + 16 - e.val) % 16, Nat.mod_lt _ (by decide)⟩
/-- The device `e` places after `c`: the one `c`'s transfer at offset `e` is addressed to. -/
def peer (c : Dev nD) (e : Fin 16) : Dev nD := ⟨(c.val + e.val) % 16, Nat.mod_lt _ (by decide)⟩

theorem src_peer (c : Dev nD) (e : Fin 16) : src (peer c e) e = c := by revert c e; decide
theorem peer_src (c : Dev nD) (e : Fin 16) : peer (src c e) e = c := by revert c e; decide
theorem src_zero (c : Dev nD) : src c 0 = c := by revert c; decide

/-- One device's contribution: the column sums of its block, as a row. -/
def part (x : Vec F S1024x512 .f32) : Vec F S1x512 .f32 := k0_pay2 x

/-- What device `c`'s gather buffer holds once every transfer has landed: row `e` the contribution of `src c e`. -/
def comm (xs : Dev nD → Vec F S1024x512 .f32) (c : Dev nD) : Vec F S16x512 .f32 :=
  fun i => part (xs (src c (i 0))) (ix2 (0 : Fin 1) (i 1))

/-- Device `c`'s result: the column sums of its gather buffer, as a row. -/
def out (xs : Dev nD → Vec F S1024x512 .f32) (c : Dev nD) : Vec F S1x512 .f32 := k0_pay1 (comm xs c)

end Cert.Kernel.Spec

end
-- ==== Proof.ProtoKernel.lean ====
/-
  The protocol of the sixteen-device all-reduce, under the rounds discipline. Duty names are ring offsets
  `e : Fin 16`. Device `c`'s barrier cell has, in its one round, the fifteen unit duties `e = 1 … 15`: duty `e` is
  paid by the device `e` places after `c` (`peer c e`), and hands `c` row `e` of that device's gather buffer together with
  the fact that that device's receive cell `e` is at round 0 — exactly what `c`'s transfer at offset `e` needs. Each of a
  device's fifteen receive cells has one duty, paid by the transfer of the device `e` places before it, whose landing
  hands over row `e` holding that device's contribution; each of its fifteen send cells one duty, paid by its own transfer,
  whose completion hands back the share of row 0 the transfer read.
-/
import proofs.«901069_g7700000000001070_dist_sum_ax0_shard0_i_m1024_n512_v7x_i16_f32_1_alg».proof.Proof.SpecKernel
import proofs.«901069_g7700000000001070_dist_sum_ax0_shard0_i_m1024_n512_v7x_i16_f32_1_alg».proof.Proof.Gen.Kernel.Frame
import Idealize.ShloMosaic.Lib.Pipeline.Launch
import Idealize.ShloMosaic.Lib.Pipeline.Kit
import Idealize.ShloMosaic.Lib.Transfers
import Idealize.ShloMosaic.Lib.Tactic

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The memrefs and cells -/

abbrev xM : Memref sig .tc .hbm S1024x512 .f32 := Memref.whole main_arg0
abbrev oM : Memref sig .tc .vmem S1x512 .f32 := Memref.whole cc0_stg0_0
abbrev cM : Memref sig .tc .vmem S16x512 .f32 := Memref.whole cc0_scratch0
abbrev vM : Memref sig .tc .vmem S1024x512 .f32 := Memref.whole cc0_scratch1

theorem row_inb (e : Fin 16) : ∀ a, (![e.val, 0] : Fin 2 → Nat) a + S1x512.size a ≤ S16x512.size a := by
  intro a; fin_cases a
  · show e.val + 1 ≤ 16; omega
  · show 0 + 512 ≤ 512; omega

/-- Row `e` of the gather buffer, as the transfers name it: the one-row slice, squeezed to a vector. -/
abbrev rowM (e : Fin 16) : Memref sig .tc .vmem S512 .f32 :=
  ((cM : Memref sig .tc .vmem S16x512 .f32).slice (Rect.unit (s := S16x512) ![e.val, 0] S1x512.size (row_inb e)) (fun _ => rfl)).squeeze S512 squeezes_S1x512_S512

abbrev barS : Sem sig := (SemArray.scalar (sig.barrier 0 rfl) : Sems sig S_).sem
abbrev copyQ : DmaSem sig := (1 : Fin 34)
abbrev sendQ (e : Fin 16) : DmaSem sig := (⟨2 + e.val, by omega⟩ : Fin 34)
abbrev recvQ (e : Fin 16) : DmaSem sig := (⟨18 + e.val, by omega⟩ : Fin 34)

abbrev barCell (c : Dev nD) : GSem nD τ sig := ((c : Thread nD τ), .reg barS)
abbrev sendCell (c : Dev nD) (e : Fin 16) : GSem nD τ sig := ((c : Thread nD τ), .dma (sendQ e))
abbrev recvCell (c : Dev nD) (e : Fin 16) : GSem nD τ sig := ((c : Thread nD τ), .dma (recvQ e))
/-- The cell of the local copy's semaphore (the device's own copy of its block into VMEM completes on it). -/
abbrev copyCell (c : Dev nD) : GSem nD τ sig := ((c : Thread nD τ), .dma copyQ)

/-- The credit of one row's transfer. -/
abbrev N : ℕ := (rowM (1 : Fin 16)).view.dmaCredit
/-- The credit of the local copy of a block. -/
def NC : ℕ := (vM : Memref sig .tc .vmem S1024x512 .f32).view.dmaCredit

/-! ## Contents -/

/-- The blocks as launched. -/
def xs (p : Dev nD) : Vec F S1024x512 .f32 := m ((p : Thread nD τ).loc main_arg0)

/-- What device `c`'s gather buffer holds in the end. -/
def commC (c : Dev nD) : Buf (Elt F) ((cM : Memref sig .tc .vmem S16x512 .f32).view.loc (c : Thread nD τ)) := Spec.comm (xs m) c

/-- What device `c`'s result holds in the end. -/
def outC (c : Dev nD) : (cc0_stg0_0 : Ref sig .tc).ty.Contents (Elt F) := Spec.out (xs m) c

/-- The read share of row 0 that the transfer at offset `e` borrows. -/
abbrev shr (e : Fin 16) : PosShare TreeShare := Transfers.shareTok fullShare 16 e

/-- Row `e` of `p`'s gather buffer, at share `q`, over whole-buffer contents `f`. -/
def rowPts (p : Dev nD) (e : Fin 16) (q : PosShare TreeShare) (f : Buf (Elt F) ((cM : Memref sig .tc .vmem S16x512 .f32).view.loc (p : Thread nD τ))) : sProp 𝕄 :=
  (rowM e).view.loc (p : Thread nD τ) ↦[(rowM e).view.set]{q} f

/-! ## The schedule -/

/-- What the signal of `peer c e` (duty `e` of `c`'s barrier cell) hands `c`: row `e` of that device's gather buffer, at
    any contents, and that its receive cell `e` is at round 0. -/
def barPay (c : Dev nD) (e : Fin 16) : sProp 𝕄 :=
  iprop((∃ f, rowPts (peer c e) e fullShare f) ∗ reached ER (recvCell (peer c e) e) 0)
/-- What the landing of the transfer at offset `e` hands its target `c`: row `e` at the final contents. -/
def recvPay (c : Dev nD) (e : Fin 16) : sProp 𝕄 := rowPts c e fullShare (commC m c)
/-- What the completion of `c`'s transfer at offset `e` hands back: the share of row 0 it read. -/
def sendPay (c : Dev nD) (e : Fin 16) : sProp 𝕄 := rowPts c 0 (shr e) (commC m c)

/-- What the completion of the local copy hands back: the VMEM copy holding the block, and the block itself. -/
def copyPay (c : Dev nD) : sProp 𝕄 :=
  iprop((((c : Thread nD τ).loc cc0_scratch1) ↦{fullShare} (m ((c : Thread nD τ).loc main_arg0) : Buf (Elt F) ((c : Thread nD τ).loc cc0_scratch1)))
    ∗ (((c : Thread nD τ).loc main_arg0) ↦{fullShare} m ((c : Thread nD τ).loc main_arg0)))

/-- A send semaphore in use (offsets 1 … 15 of the array at 2), a receive semaphore in use (of the array at 18). -/
abbrev qSend (q : DmaSem sig) : Prop := 3 ≤ q.val ∧ q.val ≤ 17
abbrev qRecv (q : DmaSem sig) : Prop := 19 ≤ q.val ∧ q.val ≤ 33
def offS (q : DmaSem sig) : Fin 16 := ⟨(q.val - 2) % 16, Nat.mod_lt _ (by decide)⟩
def offR (q : DmaSem sig) : Fin 16 := ⟨(q.val - 18) % 16, Nat.mod_lt _ (by decide)⟩

theorem N_pos : 0 < N := View.dmaCredit_pos _ (by decide)
theorem NC_pos : 0 < NC := View.dmaCredit_pos _ (by decide)

/-- One round. A barrier cell: the fifteen unit duties `1 … 15`. A send or receive cell in use: the duty `0` of one row's
    credit. -/
def sched : Rounds.Schedule (GSem nD τ sig) (Fin 16) 𝕄 where
  duties g r := if r = 0 ∧ g.1.2 = .tc then
      (match g.2 with
        | .reg _ => Finset.univ.erase 0
        | .dma q => if qSend q ∨ qRecv q ∨ q.val = 1 then {0} else ∅)
    else ∅
  unitless _ := False
  amount g _ _ := match g.2 with | .reg _ => 1 | .dma q => if q.val = 1 then NC else N
  payload g _ d := match g.2 with
    | .reg _ => barPay g.1.1 d
    | .dma q => if qRecv q then recvPay m g.1.1 (offR q) else if qSend q then sendPay m g.1.1 (offS q)
        else if q.val = 1 then copyPay m g.1.1 else iprop(emp)
  amount_pos g _ _ _ := by
    cases g.2
    · exact Nat.one_pos
    · dsimp only; split
      · exact NC_pos
      · exact N_pos

instance sched_payload_storable (g : GSem nD τ sig) (r : ℕ) (d : Fin 16) :
    BI.Storable (upEmb : UEmb _ 𝕄) ((sched (F := F) m).payload g r d) := by
  show BI.Storable upEmb (match g.2 with
    | .reg _ => barPay g.1.1 d
    | .dma q => if qRecv q then recvPay m g.1.1 (offR q) else if qSend q then sendPay m g.1.1 (offS q)
        else if q.val = 1 then copyPay m g.1.1 else iprop(emp))
  unfold barPay recvPay sendPay copyPay rowPts
  (repeat' split) <;> infer_instance

/-- A round with one duty expects that duty's amount. -/
theorem expect_single (Rd : Rounds.Schedule (GSem nD τ sig) (Fin 16) 𝕄) (g : GSem nD τ sig) (r : ℕ) (d : Fin 16) (n : ℕ)
    (hd : Rd.duties g r = {d}) (ha : Rd.amount g r d = n) : Rd.expect g r = n := by
  unfold Schedule.expect Schedule.amountOf; rw [hd, Finset.sum_singleton, ha]

section Sched
variable (c : Dev nD) (e : Fin 16)

omit [FloatOps F] in
theorem offS_send : offS (sendQ e) = e := Fin.ext (by show (2 + e.val - 2) % 16 = e.val; omega)
omit [FloatOps F] in
theorem offR_recv : offR (recvQ e) = e := Fin.ext (by show (18 + e.val - 18) % 16 = e.val; omega)
omit [FloatOps F] in
theorem qSend_send (he : e ≠ 0) : qSend (sendQ e) := by
  have : e.val ≠ 0 := fun h => he (Fin.ext h)
  show 3 ≤ 2 + e.val ∧ 2 + e.val ≤ 17; omega
omit [FloatOps F] in
theorem qRecv_recv (he : e ≠ 0) : qRecv (recvQ e) := by
  have : e.val ≠ 0 := fun h => he (Fin.ext h)
  show 19 ≤ 18 + e.val ∧ 18 + e.val ≤ 33; omega
omit [FloatOps F] in
theorem not_qRecv_send : ¬ qRecv (sendQ e) := by show ¬ (19 ≤ 2 + e.val ∧ 2 + e.val ≤ 33); omega

theorem duties_bar : (sched (F := F) m).duties (barCell c) 0 = Finset.univ.erase 0 := by
  dsimp only [sched]; rw [if_pos ⟨rfl, rfl⟩]
theorem duties_send (he : e ≠ 0) : (sched (F := F) m).duties (sendCell c e) 0 = {0} := by
  dsimp only [sched]; rw [if_pos ⟨rfl, rfl⟩]; exact if_pos (.inl (qSend_send e he))
theorem duties_recv (he : e ≠ 0) : (sched (F := F) m).duties (recvCell c e) 0 = {0} := by
  dsimp only [sched]; rw [if_pos ⟨rfl, rfl⟩]; exact if_pos (.inr (.inl (qRecv_recv e he)))
theorem duties_later (g : GSem nD τ sig) : ∀ r, 1 ≤ r → (sched (F := F) m).duties g r = ∅ :=
  fun r hr => by dsimp only [sched]; rw [if_neg fun h => by omega]

theorem amount_bar (d : Fin 16) : (sched (F := F) m).amount (barCell c) 0 d = 1 := rfl
theorem amount_send (d : Fin 16) : (sched (F := F) m).amount (sendCell c e) 0 d = N := by
  show (if 2 + e.val = 1 then NC else N) = N; rw [if_neg (by omega)]
theorem amount_recv (d : Fin 16) : (sched (F := F) m).amount (recvCell c e) 0 d = N := by
  show (if 18 + e.val = 1 then NC else N) = N; rw [if_neg (by omega)]

theorem expect_bar : (sched (F := F) m).expect (barCell c) 0 = 15 := by
  unfold Schedule.expect Schedule.amountOf
  rw [duties_bar, Finset.sum_congr rfl fun d _ => amount_bar m c d, Finset.sum_const, smul_eq_mul, mul_one]
  decide
theorem expect_send (he : e ≠ 0) : (sched (F := F) m).expect (sendCell c e) 0 = N := by
  unfold Schedule.expect Schedule.amountOf; rw [duties_send m c e he, Finset.sum_singleton, amount_send]
theorem expect_recv (he : e ≠ 0) : (sched (F := F) m).expect (recvCell c e) 0 = N := by
  unfold Schedule.expect Schedule.amountOf; rw [duties_recv m c e he, Finset.sum_singleton, amount_recv]

theorem payload_bar (d : Fin 16) : (sched (F := F) m).payload (barCell c) 0 d
    = iprop((∃ f, (rowM d).view.loc (peer c d : Thread nD τ) ↦[(rowM d).view.set]{fullShare} f) ∗ reached ER (recvCell (peer c d) d) 0) := rfl
theorem payload_send (he : e ≠ 0) (d : Fin 16) : (sched (F := F) m).payload (sendCell c e) 0 d
    = ((rowM 0).view.loc (c : Thread nD τ) ↦[(rowM 0).view.set]{shr e} commC m c : sProp 𝕄) := by
  dsimp only [sched]; rw [if_neg (not_qRecv_send e), if_pos (qSend_send e he), offS_send]; rfl
theorem payload_recv (he : e ≠ 0) (d : Fin 16) : (sched (F := F) m).payload (recvCell c e) 0 d
    = ((rowM e).view.loc (c : Thread nD τ) ↦[(rowM e).view.set]{fullShare} commC m c : sProp 𝕄) := by
  dsimp only [sched]; rw [if_pos (qRecv_recv e he), offR_recv]; rfl

theorem duties_copy : (sched (F := F) m).duties (copyCell c) 0 = {0} := by
  dsimp only [sched]; rw [if_pos ⟨rfl, rfl⟩]; exact if_pos (.inr (.inr rfl))
theorem amount_copy (d : Fin 16) : (sched (F := F) m).amount (copyCell c) 0 d = NC := by
  show (if (copyQ : DmaSem sig).val = 1 then NC else N) = NC; rw [if_pos (by decide)]
theorem expect_copy : (sched (F := F) m).expect (copyCell c) 0 = NC :=
  expect_single (sched (F := F) m) (copyCell c) 0 0 NC (duties_copy m c) (amount_copy m c 0)
theorem payload_copy (d : Fin 16) : (sched (F := F) m).payload (copyCell c) 0 d = copyPay m c := by
  dsimp only [sched]; rw [if_neg (by decide), if_neg (by decide), if_pos (by decide)]

end Sched

/-! ## The kernel's device chains: the signal and the transfer at offset `e` both name `peer c e` -/

@[sl_canon] theorem dev1_eq (c : Dev nD) : (⟨k0_dev1 c, k0_dev1_lt c⟩ : Dev nD) = peer c 1 := by revert c; decide +kernel
@[sl_canon] theorem dev2_eq (c : Dev nD) : (⟨k0_dev2 c, k0_dev2_lt c⟩ : Dev nD) = peer c 2 := by revert c; decide +kernel
@[sl_canon] theorem dev3_eq (c : Dev nD) : (⟨k0_dev3 c, k0_dev3_lt c⟩ : Dev nD) = peer c 3 := by revert c; decide +kernel
@[sl_canon] theorem dev4_eq (c : Dev nD) : (⟨k0_dev4 c, k0_dev4_lt c⟩ : Dev nD) = peer c 4 := by revert c; decide +kernel
@[sl_canon] theorem dev5_eq (c : Dev nD) : (⟨k0_dev5 c, k0_dev5_lt c⟩ : Dev nD) = peer c 5 := by revert c; decide +kernel
@[sl_canon] theorem dev6_eq (c : Dev nD) : (⟨k0_dev6 c, k0_dev6_lt c⟩ : Dev nD) = peer c 6 := by revert c; decide +kernel
@[sl_canon] theorem dev7_eq (c : Dev nD) : (⟨k0_dev7 c, k0_dev7_lt c⟩ : Dev nD) = peer c 7 := by revert c; decide +kernel
@[sl_canon] theorem dev8_eq (c : Dev nD) : (⟨k0_dev8 c, k0_dev8_lt c⟩ : Dev nD) = peer c 8 := by revert c; decide +kernel
@[sl_canon] theorem dev9_eq (c : Dev nD) : (⟨k0_dev9 c, k0_dev9_lt c⟩ : Dev nD) = peer c 9 := by revert c; decide +kernel
@[sl_canon] theorem dev10_eq (c : Dev nD) : (⟨k0_dev10 c, k0_dev10_lt c⟩ : Dev nD) = peer c 10 := by revert c; decide +kernel
@[sl_canon] theorem dev11_eq (c : Dev nD) : (⟨k0_dev11 c, k0_dev11_lt c⟩ : Dev nD) = peer c 11 := by revert c; decide +kernel
@[sl_canon] theorem dev12_eq (c : Dev nD) : (⟨k0_dev12 c, k0_dev12_lt c⟩ : Dev nD) = peer c 12 := by revert c; decide +kernel
@[sl_canon] theorem dev13_eq (c : Dev nD) : (⟨k0_dev13 c, k0_dev13_lt c⟩ : Dev nD) = peer c 13 := by revert c; decide +kernel
@[sl_canon] theorem dev14_eq (c : Dev nD) : (⟨k0_dev14 c, k0_dev14_lt c⟩ : Dev nD) = peer c 14 := by revert c; decide +kernel
@[sl_canon] theorem dev15_eq (c : Dev nD) : (⟨k0_dev15 c, k0_dev15_lt c⟩ : Dev nD) = peer c 15 := by revert c; decide +kernel
@[sl_canon] theorem dev16_eq (c : Dev nD) : (⟨k0_dev16 c, k0_dev16_lt c⟩ : Dev nD) = peer c 1 := by revert c; decide +kernel
@[sl_canon] theorem dev17_eq (c : Dev nD) : (⟨k0_dev17 c, k0_dev17_lt c⟩ : Dev nD) = peer c 2 := by revert c; decide +kernel
@[sl_canon] theorem dev18_eq (c : Dev nD) : (⟨k0_dev18 c, k0_dev18_lt c⟩ : Dev nD) = peer c 3 := by revert c; decide +kernel
@[sl_canon] theorem dev19_eq (c : Dev nD) : (⟨k0_dev19 c, k0_dev19_lt c⟩ : Dev nD) = peer c 4 := by revert c; decide +kernel
@[sl_canon] theorem dev20_eq (c : Dev nD) : (⟨k0_dev20 c, k0_dev20_lt c⟩ : Dev nD) = peer c 5 := by revert c; decide +kernel
@[sl_canon] theorem dev21_eq (c : Dev nD) : (⟨k0_dev21 c, k0_dev21_lt c⟩ : Dev nD) = peer c 6 := by revert c; decide +kernel
@[sl_canon] theorem dev22_eq (c : Dev nD) : (⟨k0_dev22 c, k0_dev22_lt c⟩ : Dev nD) = peer c 7 := by revert c; decide +kernel
@[sl_canon] theorem dev23_eq (c : Dev nD) : (⟨k0_dev23 c, k0_dev23_lt c⟩ : Dev nD) = peer c 8 := by revert c; decide +kernel
@[sl_canon] theorem dev24_eq (c : Dev nD) : (⟨k0_dev24 c, k0_dev24_lt c⟩ : Dev nD) = peer c 9 := by revert c; decide +kernel
@[sl_canon] theorem dev25_eq (c : Dev nD) : (⟨k0_dev25 c, k0_dev25_lt c⟩ : Dev nD) = peer c 10 := by revert c; decide +kernel
@[sl_canon] theorem dev26_eq (c : Dev nD) : (⟨k0_dev26 c, k0_dev26_lt c⟩ : Dev nD) = peer c 11 := by revert c; decide +kernel
@[sl_canon] theorem dev27_eq (c : Dev nD) : (⟨k0_dev27 c, k0_dev27_lt c⟩ : Dev nD) = peer c 12 := by revert c; decide +kernel
@[sl_canon] theorem dev28_eq (c : Dev nD) : (⟨k0_dev28 c, k0_dev28_lt c⟩ : Dev nD) = peer c 13 := by revert c; decide +kernel
@[sl_canon] theorem dev29_eq (c : Dev nD) : (⟨k0_dev29 c, k0_dev29_lt c⟩ : Dev nD) = peer c 14 := by revert c; decide +kernel
@[sl_canon] theorem dev30_eq (c : Dev nD) : (⟨k0_dev30 c, k0_dev30_lt c⟩ : Dev nD) = peer c 15 := by revert c; decide +kernel

/-! ## What each device owes at launch; the levels -/

/-- The offsets in use. -/
def offs : Finset (Fin 16) := Finset.univ.erase 0
theorem offs_eq : offs = {1, 2, 3, 4, 5, 6, 7, 8, 9, 10, 11, 12, 13, 14, 15} := by decide
theorem mem_offs {e : Fin 16} : e ∈ offs ↔ e ≠ 0 := by unfold offs; simp

/-- Device `c` owes each later device's receive cell (at the offset between them) one row's credit, -/
def owedR (c : Dev nD) (e : Fin 16) : CellTallies nD τ sig Unit := tallyAt (recvCell (peer c e) e) () N
/-- and its barrier cell one unit. -/
def owedB (c : Dev nD) (e : Fin 16) : CellTallies nD τ sig Unit := tallyAt (barCell (peer c e)) () 1
def recvsF (c : Dev nD) : CellTallies nD τ sig Unit := ∑ e ∈ offs, owedR c e
def barsF (c : Dev nD) : CellTallies nD τ sig Unit := ∑ e ∈ offs, owedB c e
def O₀ (c : Dev nD) : CellTallies nD τ sig Unit := recvsF c + barsF c

/-- The same sums written out, offset by offset (the form in which the transfers and signals peel them). -/
def recvsX (c : Dev nD) : CellTallies nD τ sig Unit :=
  owedR c 1 + owedR c 2 + owedR c 3 + owedR c 4 + owedR c 5 + owedR c 6 + owedR c 7 + owedR c 8 + owedR c 9 + owedR c 10
    + owedR c 11 + owedR c 12 + owedR c 13 + owedR c 14 + owedR c 15
def barsX (c : Dev nD) : CellTallies nD τ sig Unit :=
  owedB c 1 + owedB c 2 + owedB c 3 + owedB c 4 + owedB c 5 + owedB c 6 + owedB c 7 + owedB c 8 + owedB c 9 + owedB c 10
    + owedB c 11 + owedB c 12 + owedB c 13 + owedB c 14 + owedB c 15

theorem recvsF_eq (c : Dev nD) : recvsF c = recvsX c := by
  unfold recvsF recvsX; rw [offs_eq]
  rw [Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_singleton]
  abel
theorem barsF_eq (c : Dev nD) : barsF c = barsX c := by
  unfold barsF barsX; rw [offs_eq]
  rw [Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_insert (by decide), Finset.sum_singleton]
  abel
theorem O₀_eq (c : Dev nD) : O₀ c = recvsX c + barsX c := by unfold O₀; rw [recvsF_eq, barsF_eq]

def L (g : GSem nD τ sig) : Finset Unit := if g.1.2 = .tc then {()} else ∅
/-- Barrier cells at 1, receive cells in use at 2, everything else (staging, the local copy, send cells) at 0. -/
def lv (g : GSem nD τ sig) (_ : Unit) : ℕ := match g.2 with | .reg _ => 1 | .dma q => if qRecv q then 2 else 0

theorem L_of_ne (g : GSem nD τ sig) (h : g.1.2 ≠ .tc) : L g = ∅ := if_neg h
theorem L_tc (c : Dev nD) (sm : SemLoc sig) : L ((c : Thread nD τ), sm) = {()} := if_pos rfl

theorem recvsF_pos {c : Dev nD} {g : GSem nD τ sig} {u : Unit} (h : 0 < recvsF c g u) : ∃ e : Fin 16, e ≠ 0 ∧ g = recvCell (peer c e) e := by
  obtain ⟨e, he, hp⟩ := Pipeline.sum_pos_exists h
  refine ⟨e, mem_offs.mp he, ?_⟩
  unfold owedR at hp; rw [tallyAt_apply] at hp
  by_contra hn
  rw [if_neg fun h' => hn h'.1] at hp; exact Nat.lt_irrefl 0 hp
theorem barsF_pos {c : Dev nD} {g : GSem nD τ sig} {u : Unit} (h : 0 < barsF c g u) : ∃ e : Fin 16, g = barCell (peer c e) := by
  obtain ⟨e, he, hp⟩ := Pipeline.sum_pos_exists h
  refine ⟨e, ?_⟩
  unfold owedB at hp; rw [tallyAt_apply] at hp
  by_contra hn
  rw [if_neg fun h' => hn h'.1] at hp; exact Nat.lt_irrefl 0 hp

theorem lv_recv (p : Dev nD) (e : Fin 16) (he : e ≠ 0) : lv (recvCell p e) () = 2 := by
  show (if qRecv (recvQ e) then 2 else 0) = 2; rw [if_pos (qRecv_recv e he)]
theorem lv_bar (p : Dev nD) : lv (barCell p) () = 1 := rfl

/-- A wait on a cell below level 1 (a staging cell, the local copy's, a send cell) while owing anything of the launch debt. -/
theorem mayWait_zero_level (c : Dev nD) (q : DmaSem sig) (hq : ¬ qRecv q) (O : CellTallies nD τ sig Unit)
    (hO : ∀ g u, 0 < O g u → 0 < O₀ c g u) :
    (levAts L lv : sProp 𝕄) ⊢ MayWait (c : Thread nD τ) (.dma q) () O :=
  Pipeline.mayWait_of_levAts (by rw [L_tc]; exact Finset.mem_singleton_self _) fun g u hg => by
    have h0 : lv ((c : Thread nD τ), SemLoc.dma q) () = 0 := by show (if qRecv q then 2 else 0) = 0; rw [if_neg hq]
    rw [h0]
    rcases Pipeline.add_pos_cases (show 0 < (recvsF c + barsF c) g u from hO g u hg) with h | h
    · obtain ⟨e, he, rfl⟩ := recvsF_pos h
      exact ⟨by rw [L_tc]; exact Finset.mem_singleton_self _, by rw [lv_recv _ e he]; decide⟩
    · obtain ⟨e, rfl⟩ := barsF_pos h
      exact ⟨by rw [L_tc]; exact Finset.mem_singleton_self _, by rw [lv_bar]; decide⟩

/-- At its barrier wait a device owes receive credits only: receive cells sit above barrier cells. -/
theorem mayWait_bar (c : Dev nD) :
    (levAts L lv : sProp 𝕄) ⊢ MayWait (c : Thread nD τ) (.reg barS) () (recvsX c) :=
  Pipeline.mayWait_of_levAts (by rw [L_tc]; exact Finset.mem_singleton_self _) fun g u hg => by
    rw [← recvsF_eq] at hg
    obtain ⟨e, he, rfl⟩ := recvsF_pos hg
    exact ⟨by rw [L_tc]; exact Finset.mem_singleton_self _, by rw [lv_recv _ e he]; show 1 < 2; decide⟩

/-! ## The ghost state a device's body starts from -/

/-- Device `c`'s share of the protocol at offset `e` (`e'` its opposite, `16 - e`): the invariants of the four cells it
    touches there — its own send and receive cells, and the barrier cell and receive cell of `peer c e` —, its positions
    in its own two, the rounds it knows reached, and the three duty tokens it pays with: its signal to `peer c e` (that
    cell's duty `e'`), its transfer's landing there, its transfer's completion here. -/
def ghostE (K : GSem nD τ sig → ℕ) (c : Dev nD) (e e' : Fin 16) : sProp 𝕄 :=
  iprop(cellInv ER (sched m) (K (sendCell c e)) (sendCell c e) ∗ cellInv ER (sched m) (K (recvCell c e)) (recvCell c e)
    ∗ cellInv ER (sched m) (K (barCell (peer c e))) (barCell (peer c e)) ∗ cellInv ER (sched m) (K (recvCell (peer c e) e)) (recvCell (peer c e) e)
    ∗ atPos ER (sendCell c e) 0 ∅ 0 ∗ atPos ER (recvCell c e) 0 ∅ 0
    ∗ reached ER (barCell (peer c e)) 0 ∗ reached ER (recvCell (peer c e) e) 0 ∗ reached ER (sendCell c e) 0 ∗ reached ER (recvCell c e) 0
    ∗ dutyTok ER (barCell (peer c e)) 0 e' ∗ dutyTok ER (recvCell (peer c e) e) 0 0 ∗ dutyTok ER (sendCell c e) 0 0)

/-- All of it: its barrier cell's invariant and position, its local copy's cell (invariant, position, round 0 reached, the one
    duty's token), and the fifteen offsets' shares. -/
def ghost (K : GSem nD τ sig → ℕ) (c : Dev nD) : sProp 𝕄 :=
  iprop(cellInv ER (sched m) (K (barCell c)) (barCell c) ∗ atPos ER (barCell c) 0 ∅ 0
    ∗ cellInv ER (sched m) (K (copyCell c)) (copyCell c) ∗ atPos ER (copyCell c) 0 ∅ 0 ∗ reached ER (copyCell c) 0 ∗ dutyTok ER (copyCell c) 0 0
    ∗ ghostE m K c 1 15    ∗ ghostE m K c 2 14    ∗ ghostE m K c 3 13    ∗ ghostE m K c 4 12
    ∗ ghostE m K c 5 11    ∗ ghostE m K c 6 10    ∗ ghostE m K c 7 9    ∗ ghostE m K c 8 8
    ∗ ghostE m K c 9 7    ∗ ghostE m K c 10 6    ∗ ghostE m K c 11 5    ∗ ghostE m K c 12 4
    ∗ ghostE m K c 13 3    ∗ ghostE m K c 14 2    ∗ ghostE m K c 15 1)

/-- The credit dealt at launch: the barrier cell's fifteen units, each receive cell's row. -/
def creds (c : Dev nD) : sProp 𝕄 :=
  iprop(cred (tallyAt (barCell c) () 15) ∗ cred (tallyAt (recvCell c 1) () N) ∗ cred (tallyAt (recvCell c 2) () N) ∗ cred (tallyAt (recvCell c 3) () N) ∗ cred (tallyAt (recvCell c 4) () N)
    ∗ cred (tallyAt (recvCell c 5) () N) ∗ cred (tallyAt (recvCell c 6) () N) ∗ cred (tallyAt (recvCell c 7) () N) ∗ cred (tallyAt (recvCell c 8) () N)
    ∗ cred (tallyAt (recvCell c 9) () N) ∗ cred (tallyAt (recvCell c 10) () N) ∗ cred (tallyAt (recvCell c 11) () N) ∗ cred (tallyAt (recvCell c 12) () N)
    ∗ cred (tallyAt (recvCell c 13) () N) ∗ cred (tallyAt (recvCell c 14) () N) ∗ cred (tallyAt (recvCell c 15) () N))

/-- The device's block of the argument, as launched (no window stages it: the body copies it itself). -/
def xPts (c : Dev nD) : sProp 𝕄 := ((c : Thread nD τ).loc main_arg0) ↦{fullShare} m ((c : Thread nD τ).loc main_arg0)
/-- The two unused entries of the semaphore arrays, at zero. -/
def spare (c : Dev nD) : sProp 𝕄 :=
  iprop(semVal ((c : Thread nD τ), .dma (sendQ 0)) 0 ∗ semVal ((c : Thread nD τ), .dma (recvQ 0)) 0)
/-- The two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The kernel's own (scoped, non-staging) DMA semaphores: 1 … 33. -/
abbrev osem : Fin 33 → SemLoc sig := fun i => .dma (⟨i.val + 1, by omega⟩ : Fin 34)

/-- What the launch's global step leaves a device: the protocol's ghost state and the unused semaphores. -/
def G' (c : Dev nD) : sProp 𝕄 := iprop((∃ K, ghost m K c) ∗ spare c)
def start (c : Dev nD) : sProp 𝕄 := iprop(G' m c ∗ creds c ∗ levAts L lv ∗ xPts m c)
def Φ₀ (c : Dev nD) : sProp 𝕄 := iprop(start m c ∗ scratch c)
/-- After the point: the argument block back, the scratch buffers, every own semaphore at zero, its cell closed. -/
def Φ₁ (c : Dev nD) : sProp 𝕄 :=
  iprop(xPts m c ∗ scratch c ∗ bigSep Finset.univ fun i : Fin 33 => semVal ((c : Thread nD τ), osem i) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, -/
def bodyPre (c : Dev nD) : sProp 𝕄 :=
  iprop(Φ₀ m c ∗ (dats m ρ 0 c).owesAt () t₀.castSucc
    ∗ (∃ d, stg c cc0_stg0_0 ((dats m ρ 0 c).before (0 : Fin 1) t₀ d)))
/-- and what it leaves: the result's staging buffer at the device's result. -/
def bodyPost (c : Dev nD) : sProp 𝕄 :=
  iprop(Φ₁ m c ∗ (dats m ρ 0 c).owesAt () t₀.succ ∗ stg c cc0_stg0_0 (outC m c))

/-- The body as the pipeline calls it at the point. -/
abbrev bodyProg : Prog (TpuEff nD τ sig (Elt F) Λ₀ .tc) PUnit :=
  cc0_body (Memref.whole main_arg0) (Memref.isWhole_whole _) (Memref.whole cc0_stg0_0) (hstage0_0 0) (Memref.whole cc0_scratch0) (Memref.isWhole_whole _)
    (Memref.whole cc0_scratch1) (Memref.isWhole_whole _) cc0_scratch2 cc0_scratch3 cc0_scratch4

/-- The statement the body's proof owes (proved in the body module; the launch takes it as a hypothesis). -/
def BodySound : Prop := ∀ (c : Dev nD) (Kt : PUnit → sProp 𝕄),
    iprop(bodyPre m ρ c ∗ (bodyPost m ρ c -∗ Kt ⟨⟩)) ⊢ wp frame (wpE (defs₀ (F := F)) 𝒱₀ c none) Set.univ (bodyProg (F := F)) Kt

end Cert.Kernel.Proto

end
-- ==== Proof.RowsKernel.lean ====
/-
  The rows of the gather buffer. The sixteen rows of a device's [16,512] gather buffer are held separately: row `e` is the
  set of buffer indices whose first coordinate is `e`. The whole buffer is the separating conjunction of its sixteen rows;
  row 0 at full share is its sixteen read tokens and the remainder; and a copy of the sender's row 0 onto row `e` of the
  receiver leaves that row at the receiver's final contents.
-/
import proofs.«901069_g7700000000001070_dist_sum_ax0_shard0_i_m1024_n512_v7x_i16_f32_1_alg».proof.Proof.ProtoKernel
import Idealize.ShloMosaic.Lib.Pipeline.Value

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows as index sets -/

/-- Row `e` is the buffer indices whose first coordinate is `e`. -/
theorem mem_row (e : Fin 16) (i : S16x512.Idx) : i ∈ (rowM e).view.set ↔ (i 0).val = e.val := by
  show i ∈ (((View.whole cc0_scratch0 : View sig .tc .vmem S16x512 .f32).slice
      (Rect.unit (s := S16x512) ![e.val, 0] S1x512.size (row_inb e))).reshape S512 squeezes_S1x512_S512.numel_eq).set ↔ _
  rw [View.set_reshape, View.set_slice_whole, Rect.mem_set_unit]
  constructor
  · intro h
    have h0 := h 0
    have : (![e.val, 0] : Fin 2 → Nat) 0 = e.val := rfl
    have hs : S1x512.size 0 = 1 := rfl
    omega
  · intro h a
    fin_cases a
    · show e.val ≤ (i 0).val ∧ (i 0).val < e.val + 1; omega
    · show 0 ≤ (i 1).val ∧ (i 1).val < 0 + 512
      have := (i 1).isLt
      exact ⟨Nat.zero_le _, by simpa using this⟩

/-- Every buffer index lies in the row its first coordinate names. -/
theorem rows_cover (c : Dev nD) :
    (Finset.univ : Finset (Idx ((c : Thread nD τ).loc cc0_scratch0)))
      = Finset.univ.biUnion fun e : Fin 16 => ((rowM e).view.set : Finset (Idx ((c : Thread nD τ).loc cc0_scratch0))) := by
  ext i
  simp only [Finset.mem_univ, Finset.mem_biUnion, true_and, true_iff]
  have i' : S16x512.Idx := i
  exact ⟨⟨((show S16x512.Idx from i) 0).val, ((show S16x512.Idx from i) 0).isLt⟩, (mem_row _ i).mpr rfl⟩

/-- Distinct rows share no index. -/
theorem rows_disjoint (c : Dev nD) (e e' : Fin 16) (h : e ≠ e') :
    Disjoint ((rowM e).view.set : Finset (Idx ((c : Thread nD τ).loc cc0_scratch0))) ((rowM e').view.set) := by
  refine Finset.disjoint_left.mpr fun i hi hj => h (Fin.ext ?_)
  have h1 := (mem_row e i).mp hi
  have h2 := (mem_row e' i).mp hj
  omega

/-! ## The whole buffer is its sixteen rows -/

/-- The whole gather buffer, as the separating conjunction over its rows. -/
theorem comm_rows (c : Dev nD) (q : PosShare TreeShare) (f : Buf (Elt F) ((c : Thread nD τ).loc cc0_scratch0)) :
    ((((c : Thread nD τ).loc cc0_scratch0) ↦{q} f) : sProp 𝕄) = bigSep Finset.univ fun e : Fin 16 => rowPts c e q f := by
  have h := pointsTo_biUnion (Ix := Unit) (Val := Elt F) (Name := ℕ) (U := UU) (Lvl := ℕ) (ℓ := (c : Thread nD τ).loc cc0_scratch0) (q := q) (f := f)
    (Finset.univ : Finset (Fin 16)) (fun e : Fin 16 => ((rowM e).view.set : Finset (Idx ((c : Thread nD τ).loc cc0_scratch0))))
    (fun e _ e' _ hne => rows_disjoint c e e' hne)
  rw [← rows_cover c] at h
  exact h

theorem comm_eq16 (c : Dev nD) (q : PosShare TreeShare) (f : Buf (Elt F) ((c : Thread nD τ).loc cc0_scratch0)) :
    ((((c : Thread nD τ).loc cc0_scratch0) ↦{q} f) : sProp 𝕄)
      = iprop(rowPts c 0 q f ∗ rowPts c 1 q f ∗ rowPts c 2 q f ∗ rowPts c 3 q f ∗ rowPts c 4 q f ∗ rowPts c 5 q f ∗ rowPts c 6 q f ∗ rowPts c 7 q f ∗ rowPts c 8 q f ∗ rowPts c 9 q f ∗ rowPts c 10 q f ∗ rowPts c 11 q f ∗ rowPts c 12 q f ∗ rowPts c 13 q f ∗ rowPts c 14 q f ∗ rowPts c 15 q f) :=
  (comm_rows c q f).trans
    (bigSep_univ_eq_bigSepL [(0 : Fin 16), 1, 2, 3, 4, 5, 6, 7, 8, 9, 10, 11, 12, 13, 14, 15] (by decide) (by decide) _)

/-- The whole gather buffer splits into its sixteen rows, -/
theorem comm_split16 (c : Dev nD) (q : PosShare TreeShare) (f : Buf (Elt F) ((c : Thread nD τ).loc cc0_scratch0)) :
    ((((c : Thread nD τ).loc cc0_scratch0) ↦{q} f) : sProp 𝕄)
      ⊢ iprop(rowPts c 0 q f ∗ rowPts c 1 q f ∗ rowPts c 2 q f ∗ rowPts c 3 q f ∗ rowPts c 4 q f ∗ rowPts c 5 q f ∗ rowPts c 6 q f ∗ rowPts c 7 q f ∗ rowPts c 8 q f ∗ rowPts c 9 q f ∗ rowPts c 10 q f ∗ rowPts c 11 q f ∗ rowPts c 12 q f ∗ rowPts c 13 q f ∗ rowPts c 14 q f ∗ rowPts c 15 q f) :=
  Entails.of_eq (comm_eq16 c q f)

/-- and sixteen rows over the same contents join to the whole. -/
theorem comm_join16 (c : Dev nD) (q : PosShare TreeShare) (f : Buf (Elt F) ((c : Thread nD τ).loc cc0_scratch0)) :
    iprop(rowPts c 0 q f ∗ rowPts c 1 q f ∗ rowPts c 2 q f ∗ rowPts c 3 q f ∗ rowPts c 4 q f ∗ rowPts c 5 q f ∗ rowPts c 6 q f ∗ rowPts c 7 q f ∗ rowPts c 8 q f ∗ rowPts c 9 q f ∗ rowPts c 10 q f ∗ rowPts c 11 q f ∗ rowPts c 12 q f ∗ rowPts c 13 q f ∗ rowPts c 14 q f ∗ rowPts c 15 q f)
      ⊢ ((((c : Thread nD τ).loc cc0_scratch0) ↦{q} f) : sProp 𝕄) :=
  Entails.of_eq (comm_eq16 c q f).symm

/-! ## Row 0 at full share is its sixteen read tokens and the remainder -/

theorem row0_toks_eq (c : Dev nD) (f : Buf (Elt F) ((c : Thread nD τ).loc cc0_scratch0)) :
    (bigSep Finset.univ fun e : Fin 16 => (rowPts c 0 (shr e) f : sProp 𝕄))
      = iprop(rowPts c 0 (shr 0) f ∗ rowPts c 0 (shr 1) f ∗ rowPts c 0 (shr 2) f ∗ rowPts c 0 (shr 3) f ∗ rowPts c 0 (shr 4) f ∗ rowPts c 0 (shr 5) f ∗ rowPts c 0 (shr 6) f ∗ rowPts c 0 (shr 7) f ∗ rowPts c 0 (shr 8) f ∗ rowPts c 0 (shr 9) f ∗ rowPts c 0 (shr 10) f ∗ rowPts c 0 (shr 11) f ∗ rowPts c 0 (shr 12) f ∗ rowPts c 0 (shr 13) f ∗ rowPts c 0 (shr 14) f ∗ rowPts c 0 (shr 15) f) :=
  bigSep_univ_eq_bigSepL [(0 : Fin 16), 1, 2, 3, 4, 5, 6, 7, 8, 9, 10, 11, 12, 13, 14, 15] (by decide) (by decide) _

/-- Row 0 at full share hands out one read token per ring offset and keeps the remainder, -/
theorem row0_toks_split (c : Dev nD) (f : Buf (Elt F) ((c : Thread nD τ).loc cc0_scratch0)) :
    (rowPts c 0 fullShare f : sProp 𝕄)
      ⊢ iprop(rowPts c 0 (Transfers.shareDrop fullShare 16) f ∗ rowPts c 0 (shr 0) f ∗ rowPts c 0 (shr 1) f ∗ rowPts c 0 (shr 2) f ∗ rowPts c 0 (shr 3) f ∗ rowPts c 0 (shr 4) f ∗ rowPts c 0 (shr 5) f ∗ rowPts c 0 (shr 6) f ∗ rowPts c 0 (shr 7) f ∗ rowPts c 0 (shr 8) f ∗ rowPts c 0 (shr 9) f ∗ rowPts c 0 (shr 10) f ∗ rowPts c 0 (shr 11) f ∗ rowPts c 0 (shr 12) f ∗ rowPts c 0 (shr 13) f ∗ rowPts c 0 (shr 14) f ∗ rowPts c 0 (shr 15) f) := by
  rw [← row0_toks_eq c f]
  exact Transfers.pointsTo_toks_split (Ix := Unit) (Val := Elt F) (Name := ℕ) (U := UU) (Lvl := ℕ)
    (ℓ := (rowM 0).view.loc (c : Thread nD τ)) (S := (rowM 0).view.set) (f := f) fullShare 16

/-- and takes them back. -/
theorem row0_toks_join (c : Dev nD) (f : Buf (Elt F) ((c : Thread nD τ).loc cc0_scratch0)) :
    iprop(rowPts c 0 (Transfers.shareDrop fullShare 16) f ∗ rowPts c 0 (shr 0) f ∗ rowPts c 0 (shr 1) f ∗ rowPts c 0 (shr 2) f ∗ rowPts c 0 (shr 3) f ∗ rowPts c 0 (shr 4) f ∗ rowPts c 0 (shr 5) f ∗ rowPts c 0 (shr 6) f ∗ rowPts c 0 (shr 7) f ∗ rowPts c 0 (shr 8) f ∗ rowPts c 0 (shr 9) f ∗ rowPts c 0 (shr 10) f ∗ rowPts c 0 (shr 11) f ∗ rowPts c 0 (shr 12) f ∗ rowPts c 0 (shr 13) f ∗ rowPts c 0 (shr 14) f ∗ rowPts c 0 (shr 15) f)
      ⊢ (rowPts c 0 fullShare f : sProp 𝕄) := by
  rw [← row0_toks_eq c f]
  exact Transfers.pointsTo_toks_join (Ix := Unit) (Val := Elt F) (Name := ℕ) (U := UU) (Lvl := ℕ)
    (ℓ := (rowM 0).view.loc (c : Thread nD τ)) (S := (rowM 0).view.set) (f := f) fullShare 16

/-! ## Where a row's indices sit in the buffer -/

/-- The index of row `e` under the row's coordinate `y`: first coordinate `e`, -/
theorem row_emb_fst (e : Fin 16) (y : S512.Idx) : (((rowM e).view.emb y : S16x512.Idx) 0).val = e.val := by
  show (((Rect.unit (s := S16x512) ![e.val, 0] S1x512.size (row_inb e)).emb
      ((Shape.reshapeEquiv squeezes_S1x512_S512.numel_eq) y) : S16x512.Idx) 0).val = e.val
  rw [Rect.emb_apply]
  have h := ((Shape.reshapeEquiv squeezes_S1x512_S512.numel_eq) y (0 : Fin 2)).isLt
  have hs : S1x512.size 0 = 1 := rfl
  show e.val + 1 * ((Shape.reshapeEquiv squeezes_S1x512_S512.numel_eq) y (0 : Fin 2)).val = e.val
  omega

/-- and second coordinate the same in every row. -/
theorem row_emb_snd (e : Fin 16) (y : S512.Idx) :
    (((rowM e).view.emb y : S16x512.Idx) 1) = (((rowM 0).view.emb y : S16x512.Idx) 1) := by
  apply Fin.ext
  show (((Rect.unit (s := S16x512) ![e.val, 0] S1x512.size (row_inb e)).emb
      ((Shape.reshapeEquiv squeezes_S1x512_S512.numel_eq) y) : S16x512.Idx) 1).val
    = (((Rect.unit (s := S16x512) ![(0 : Fin 16).val, 0] S1x512.size (row_inb 0)).emb
      ((Shape.reshapeEquiv squeezes_S1x512_S512.numel_eq) y) : S16x512.Idx) 1).val
  rw [Rect.emb_apply, Rect.emb_apply]
  rfl

/-! ## What a landed row holds -/

/-- The final contents of a gather buffer at an index, by its coordinates. -/
theorem commC_apply (c : Dev nD) (i : S16x512.Idx) :
    commC m c i = part (xs m (src c (i 0))) (ValueIdx.ix2 (0 : Fin 1) (i 1)) := rfl

/-- Row 0 of the sender `c`, copied onto row `e` of the device `e` places after it, leaves that row at that device's
    final contents: the sender's row 0 is its own contribution, and the receiver's row `e` is to hold the contribution of
    the device `e` places before it, the sender. -/
theorem landed_row (c : Dev nD) (e : Fin 16) (fd : Buf (Elt F) ((rowM e).view.loc ((peer c e : Dev nD) : Thread nD τ))) :
    (((rowM e).view.loc ((peer c e : Dev nD) : Thread nD τ) ↦[(rowM e).view.set]{fullShare}
        ((rowM e).view.write (Elt F) fd ((rowM 0).view.read (Elt F) (commC m c)) Finset.univ)) : sProp 𝕄)
      = rowPts (peer c e) e fullShare (commC m (peer c e)) := by
  unfold rowPts
  refine pointsTo_congr fun i hi => ?_
  obtain ⟨y, rfl⟩ := View.exists_emb_of_mem_set (rowM e).view hi
  rw [View.write_emb_of_mem _ _ (Finset.mem_univ y), View.read_apply]
  show commC m c ((rowM 0).view.emb y) = commC m (peer c e) ((rowM e).view.emb y)
  rw [commC_apply, commC_apply, row_emb_snd e y]
  have h0 : (((rowM 0).view.emb y : S16x512.Idx) 0) = (0 : Fin 16) := Fin.ext (row_emb_fst 0 y)
  have he : (((rowM e).view.emb y : S16x512.Idx) 0) = e := Fin.ext (row_emb_fst e y)
  rw [h0, he, src_zero, src_peer]

/-! ## The whole gather buffer read back -/

/-- A load of the whole final gather buffer reads the gathered contributions. -/
theorem read_comm_whole (c : Dev nD) :
    (Memref.whole cc0_scratch0 : Memref sig .tc .vmem S16x512 .f32).view.readAt (Elt F)
        (Rect.unit (s := S16x512) ![0, 0] S16x512.size inb_S16x512_S16x512_0_0).toLoadRect (commC m c)
      = Spec.comm (xs m) c :=
  Memref.readAt_unit_zero (Elt F) cc0_scratch0 (by funext a; fin_cases a <;> rfl) inb_S16x512_S16x512_0_0 (commC m c)

/-! ## What a store of the contribution into the first row leaves -/

/-- The one-row slice at the origin, as a store names it, is row 0. -/
theorem store0_set (inb : ∀ a, (![0, 0] : Fin 2 → Nat) a + S1x512.size a ≤ S16x512.size a) :
    ((Memref.whole cc0_scratch0 : Memref sig .tc .vmem S16x512 .f32).access (Rect.unit (s := S16x512) ![0, 0] S1x512.size inb)).set
      = (rowM 0).view.set := by
  show ((View.whole cc0_scratch0 : View sig .tc .vmem S16x512 .f32).slice (Rect.unit (s := S16x512) ![0, 0] S1x512.size inb)).set
    = (((View.whole cc0_scratch0 : View sig .tc .vmem S16x512 .f32).slice
      (Rect.unit (s := S16x512) ![(0 : Fin 16).val, 0] S1x512.size (row_inb 0))).reshape S512 squeezes_S1x512_S512.numel_eq).set
  rw [View.set_reshape]
  rfl

/-- A device's contribution, stored through the one-row slice at the origin of its gather buffer, leaves row 0 at the
    buffer's final contents: row 0 is to hold the device's own contribution. -/
theorem stored_row0_at (c : Dev nD) (inb : ∀ a, (![0, 0] : Fin 2 → Nat) a + S1x512.size a ≤ S16x512.size a)
    (f : Buf (Elt F) ((c : Thread nD τ).loc cc0_scratch0)) :
    ((((c : Thread nD τ).loc cc0_scratch0) ↦[(rowM 0).view.set]{fullShare}
        (((Memref.whole cc0_scratch0 : Memref sig .tc .vmem S16x512 .f32).access (Rect.unit (s := S16x512) ![0, 0] S1x512.size inb)).write
          (Elt F) f (part (xs m c)) Finset.univ)) : sProp 𝕄)
      = rowPts c 0 fullShare (commC m c) := by
  unfold rowPts
  refine pointsTo_congr fun i hi => ?_
  rw [← store0_set inb] at hi
  obtain ⟨y, rfl⟩ := View.exists_emb_of_mem_set _ hi
  rw [View.write_emb_of_mem _ _ (Finset.mem_univ y)]
  show part (xs m c) y = commC m c ((Rect.unit (s := S16x512) ![0, 0] S1x512.size inb).emb y)
  have h0 : (((Rect.unit (s := S16x512) ![0, 0] S1x512.size inb).emb y : S16x512.Idx) 0) = (0 : Fin 16) :=
    Fin.ext (by
      rw [Rect.emb_apply]
      have hy : (y 0).val < 1 := (y 0).isLt
      show 0 + 1 * (y 0).val = 0
      omega)
  have h1 : (((Rect.unit (s := S16x512) ![0, 0] S1x512.size inb).emb y : S16x512.Idx) 1) = y 1 :=
    Fin.ext (by rw [Rect.emb_apply]; show 0 + 1 * (y 1).val = (y 1).val; omega)
  rw [commC_apply, h0, h1, src_zero]
  congr 1
  refine (ValueIdx.eq_ix2 y).trans ?_
  congr 1
  exact Fin.ext (by
    have hy : (y 0).val < 1 := (y 0).isLt
    show (y 0).val = 0
    omega)

/-- Such a store leaves every other row as it was. -/
theorem stored_row_ne (c : Dev nD) (inb : ∀ a, (![0, 0] : Fin 2 → Nat) a + S1x512.size a ≤ S16x512.size a)
    (f : Buf (Elt F) ((c : Thread nD τ).loc cc0_scratch0)) (w : S1x512.Idx → Elt F .f32) (e : Fin 16) (he : e ≠ 0)
    (q : PosShare TreeShare) :
    (rowPts c e q (((Memref.whole cc0_scratch0 : Memref sig .tc .vmem S16x512 .f32).access
        (Rect.unit (s := S16x512) ![0, 0] S1x512.size inb)).write (Elt F) f w Finset.univ) : sProp 𝕄)
      = rowPts c e q f := by
  unfold rowPts
  refine pointsTo_congr fun i hi => ?_
  refine View.write_of_not_mem _ _ _ ?_
  rw [View.setOn_univ, store0_set inb]
  intro h0
  have h1 := (mem_row e i).mp hi
  have h2 := (mem_row 0 i).mp h0
  exact he (Fin.ext (by rw [← h1, h2]))

/-! ## The accesses of the body, restated over the rows -/

/-- The one-row rectangle at the origin of the gather buffer. -/
abbrev r0 : Rect S16x512 := Rect.unit (s := S16x512) ![0, 0] S1x512.size inb_S16x512_S1x512_0_0

/-- A load through it reads inside row 0, -/
theorem row0_load_sub :
    (cM : Memref sig .tc .vmem S16x512 .f32).view.setOn r0.toLoadRect.set ⊆ (rowM 0).view.set :=
  Eq.subset ((View.set_slice (View.whole cc0_scratch0 : View sig .tc .vmem S16x512 .f32) r0).symm.trans
    (store0_set inb_S16x512_S1x512_0_0))

/-- a store through it writes inside row 0, -/
theorem row0_store_sub :
    ((cM : Memref sig .tc .vmem S16x512 .f32).access r0).setOn (Finset.univ : Finset r0.shape.Idx) ⊆ (rowM 0).view.set := by
  rw [View.setOn_univ, store0_set inb_S16x512_S1x512_0_0]

/-- and the store of the device's own contribution leaves row 0 at the final contents. -/
theorem stored_row0 (c : Dev nD) (f0 : Buf (Elt F) (((cM : Memref sig .tc .vmem S16x512 .f32).access r0).loc (c : Thread nD τ))) :
    ((((cM : Memref sig .tc .vmem S16x512 .f32).access r0).loc (c : Thread nD τ)) ↦[(rowM 0).view.set]{fullShare}
        (((cM : Memref sig .tc .vmem S16x512 .f32).access r0).write (Elt F) f0 (Gen.k0_pay2 (xs m c)) Finset.univ) : sProp 𝕄)
      = rowPts c 0 fullShare (commC m c) :=
  stored_row0_at m c inb_S16x512_S1x512_0_0 f0

/-! ## Whole-buffer accesses -/

/-- A load of the whole block scratch reads its contents. -/
theorem read_vm_whole (c : Dev nD) (f : Buf (Elt F) ((c : Thread nD τ).loc cc0_scratch1)) :
    (vM : Memref sig .tc .vmem S1024x512 .f32).view.readAt (Elt F)
        (Rect.unit (s := S1024x512) ![0, 0] S1024x512.size inb_S1024x512_S1024x512_0_0).toLoadRect f = f :=
  Memref.readAt_unit_zero (Elt F) cc0_scratch1 (by funext a; fin_cases a <;> rfl) inb_S1024x512_S1024x512_0_0 f

/-- A store over the whole result buffer leaves its payload. -/
theorem write_out (f w : (cc0_stg0_0 : Ref sig .tc).ty.Contents (Elt F)) :
    (((oM : Memref sig .tc .vmem S1x512 .f32).access (Rect.unit (s := S1x512) ![0, 0] S1x512.size inb_S1x512_S1x512_0_0)
        : View sig .tc _ _ _).write (Elt F) f w Finset.univ) = w :=
  Memref.write_access_unit_zero_univ (Elt F) cc0_stg0_0 (by funext a; fin_cases a <;> rfl) inb_S1x512_S1x512_0_0 f w

end Cert.Kernel.Proto

end
-- ==== Proof.StepsKernel.lean ====
import proofs.«901069_g7700000000001070_dist_sum_ax0_shard0_i_m1024_n512_v7x_i16_f32_1_alg».proof.Proof.ProtoKernel
import proofs.«901069_g7700000000001070_dist_sum_ax0_shard0_i_m1024_n512_v7x_i16_f32_1_alg».proof.Proof.RowsKernel
import proofs.«901069_g7700000000001070_dist_sum_ax0_shard0_i_m1024_n512_v7x_i16_f32_1_alg».proof.Proof.Gen.Kernel.Skeleton

set_option maxRecDepth 16384

noncomputable section

namespace Cert.Kernel.Proto

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem peer_peer (c : Dev nD) (e e' : Fin 16) (h : e.val + e'.val = 16) : peer (peer c e) e' = c := by
  apply Fin.ext; show ((c.val + e.val) % 16 + e'.val) % 16 = c.val
  have : c.val < 16 := c.isLt
  have : e.val < 16 := e.isLt
  have : e'.val < 16 := e'.isLt
  omega

theorem duties_barX (c : Dev nD) : (sched (F := F) m).duties (barCell c) 0 = {1, 2, 3, 4, 5, 6, 7, 8, 9, 10, 11, 12, 13, 14, 15} := by
  rw [duties_bar]; decide

/-- The payload of the duty a device pays on a later device's barrier cell, resolved: it hands over one of ITS OWN rows. -/
theorem payload_bar_peer (c : Dev nD) (e e' : Fin 16) (h : e.val + e'.val = 16) : (sched (F := F) m).payload (barCell (peer c e)) 0 e'
    = iprop((∃ f, (rowM e').view.loc (c : Thread nD τ) ↦[(rowM e').view.set]{fullShare} f) ∗ reached ER (recvCell c e') 0) := by
  rw [payload_bar]
  exact congrArg (fun p : Dev nD => (iprop((∃ f, (rowM e').view.loc (p : Thread nD τ) ↦[(rowM e').view.set]{fullShare} f) ∗ reached ER (recvCell p e') 0) : sProp 𝕄)) (peer_peer c e e' h)

/-! ## What a device owes, written out so that the steps peel it from the right in program order -/

def recvsRev (c : Dev nD) : CellTallies nD τ sig Unit := owedR c 15 + owedR c 14 + owedR c 13 + owedR c 12 + owedR c 11 + owedR c 10 + owedR c 9 + owedR c 8 + owedR c 7 + owedR c 6 + owedR c 5 + owedR c 4 + owedR c 3 + owedR c 2 + owedR c 1
def barsRev (c : Dev nD) : CellTallies nD τ sig Unit := owedB c 15 + owedB c 14 + owedB c 13 + owedB c 12 + owedB c 11 + owedB c 10 + owedB c 9 + owedB c 8 + owedB c 7 + owedB c 6 + owedB c 5 + owedB c 4 + owedB c 3 + owedB c 2 + owedB c 1
theorem recvsRev_eq (c : Dev nD) : recvsRev c = recvsX c := by unfold recvsRev recvsX; abel
theorem barsRev_eq (c : Dev nD) : barsRev c = barsX c := by unfold barsRev barsX; abel
theorem O₀_rev (c : Dev nD) : O₀ c = recvsRev c + barsRev c := by rw [O₀_eq, recvsRev_eq, barsRev_eq]

theorem credit_row (e : Fin 16) : (rowM e).view.dmaCredit = N := by revert e; decide

/-! ## The protocol's steps, one rule each at a symbolic offset -/

/-- The signal at offset `e`: it pays duty `e'` (the opposite offset) of the barrier cell of `peer c e`, handing over the
    signaller's own row `e'` and that its receive cell `e'` is at round 0. -/
theorem wp_sig (c : Dev nD) (e e' : Fin 16) (h : e.val + e'.val = 16) (κ : ℕ) (f : Buf (Elt F) ((cM : Memref sig .tc .vmem S16x512 .f32).view.loc (c : Thread nD τ)))
    {α : Type} {Q : α → sProp 𝕄} {k : PUnit → Prog (TpuEff nD τ sig (Elt F) Λ₀ .tc) α}
    {O₁ : CellTallies nD τ sig Unit} (O : CellTallies nD τ sig Unit) (hO : O₁ = O + tallyAt (barCell (peer c e)) () 1) {W : Waits sig Unit} :
    (cellInv ER (sched m) κ (barCell (peer c e)) : sProp 𝕄)
      ⊢ iprop(reached ER (recvCell c e') 0 -∗ reached ER (barCell (peer c e)) 0 -∗ owes (c : Thread nD τ) O₁ W -∗ dutyTok ER (barCell (peer c e)) 0 e'
          -∗ rowPts c e' fullShare f
          -∗ (owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c e : Thread nD τ) barS 1) k) Q) := by
  iintro #HI #Hrr #Hrb HO Ht Hrow Hk
  iapply (Rounds.wp_signal 𝒱₀ ER (sched m) (c : Thread nD τ) none (dst := (peer c e : Thread nD τ)) (κ := κ)
      (d := e') (by
        rw [duties_bar]; refine Finset.mem_erase.mpr ⟨fun h0 => ?_, Finset.mem_univ _⟩
        have : e.val < 16 := e.isLt
        rw [h0] at h; simp at h; omega) (amount_bar m (peer c e) e') () O hO) $$ [HO Ht Hrow] Hk
  isplitr; · iexact HI
  isplitl [HO]; · iexact HO
  isplitl [Ht]; · iexact Ht
  isplitl [Hrow]
  · rw [payload_bar_peer m c e e' h]
    isplitl [Hrow]; · iexists f; unfold rowPts; iexact Hrow
    iexact Hrr
  · iexact Hrb

/-- The rest of the barrier cell's round, no duty taken: the fifteen peers' payloads. -/
theorem rest_bar (c : Dev nD) : bigSep ((sched (F := F) m).duties (barCell c) 0 \ ∅) (fun d => (sched (F := F) m).payload (barCell c) 0 d)
    = iprop(barPay c 1 ∗ barPay c 2 ∗ barPay c 3 ∗ barPay c 4 ∗ barPay c 5 ∗ barPay c 6 ∗ barPay c 7 ∗ barPay c 8 ∗ barPay c 9 ∗ barPay c 10 ∗ barPay c 11 ∗ barPay c 12 ∗ barPay c 13 ∗ barPay c 14 ∗ barPay c 15) := by
  rw [Finset.sdiff_empty, duties_barX, bigSep_eq_bigSepL_of_eq [1, 2, 3, 4, 5, 6, 7, 8, 9, 10, 11, 12, 13, 14, 15] (by decide) (by decide)]
  simp only [bigSepL_cons_cons, bigSepL_singleton]
  rfl

theorem mayWait_barRev (c : Dev nD) : (levAts L lv : sProp 𝕄) ⊢ MayWait (c : Thread nD τ) (.reg barS) () (recvsRev c) := by
  rw [recvsRev_eq]; exact mayWait_bar c

/-- The wait for fifteen on the device's own barrier cell, while it owes the fifteen receive credits: every peer's row
    for this device, and that the peer's receive cell is ready, come with it. -/
theorem wp_bar_wait (c : Dev nD) (κ : ℕ) {α : Type} {Q : α → sProp 𝕄} {k : PUnit → Prog (TpuEff nD τ sig (Elt F) Λ₀ .tc) α} {W : Waits sig Unit} :
    (cellInv ER (sched m) κ (barCell c) : sProp 𝕄)
      ⊢ iprop(levAts L lv -∗ cred (tallyAt (barCell c) () 15) -∗ owes (c : Thread nD τ) (recvsRev c) W -∗ atPos ER (barCell c) 0 ∅ 0
          -∗ ((owes (c : Thread nD τ) (recvsRev c) (insert (SemLoc.reg barS, ()) W) ∗ barPay c 1 ∗ barPay c 2 ∗ barPay c 3 ∗ barPay c 4 ∗ barPay c 5 ∗ barPay c 6 ∗ barPay c 7 ∗ barPay c 8 ∗ barPay c 9 ∗ barPay c 10 ∗ barPay c 11 ∗ barPay c 12 ∗ barPay c 13 ∗ barPay c 14 ∗ barPay c 15)
                -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro #HI #Hlev Hc HO Hat Hk
  iapply (Rounds.wp_wait_rest_token 𝒱₀ ER (sched m) (c : Thread nD τ) none (κ := κ)
      (wpE_semWait_eq 𝒱₀ (c : Thread nD τ) none Set.univ) (Set.mem_univ _) () (O := recvsRev c) (W := W) (R := 0) (m := 0) (T := ∅)
      (by rw [expect_bar])) $$ [Hc HO Hat]
  · isplitr; · iexact HI
    isplitl [Hc]; · iexact Hc
    isplitl [HO]; · iexact HO
    isplitr; · iapply (mayWait_barRev c); iexact Hlev
    iexact Hat
  iintro ⟨HO, -, -, Hpay⟩
  ihave Hp := (Entails.of_eq (rest_bar m c)) $$ Hpay
  iapply Hk
  isplitl [HO]; · iexact HO
  iexact Hp

/-- The transfer at offset `e`: row 0 of `c` (the share `shr e` of it) onto row `e` of `peer c e`, paying the one duty of `c`'s send
    cell `e` and the one duty of that device's receive cell `e`; the landing leaves the row at its final contents. -/
theorem wp_send_e (c : Dev nD) (e : Fin 16) (he : e ≠ 0) (κ₁ κ₂ : ℕ) (n : Dev nD) (hn : n = peer c e)
    (fn : Buf (Elt F) ((rowM e : Memref sig .tc .vmem S512 .f32).view.loc (peer c e : Thread nD τ)))
    {hsc : (rowM e : Memref sig (Dev.tc n : Thread nD τ).2.kind .vmem S512 .f32).view.ref.isScScratch = false}
    {hsrc : (rowM 0 : Memref sig .tc .vmem S512 .f32).view.WordExact} {hdst : (rowM e : Memref sig .tc .vmem S512 .f32).view.WordExact}
    {hsem : DmaTarget.Typed .vmem (.dma (recvQ e)) (.remote (Dev.tc n : Thread nD τ) (rowM e : Memref sig .tc .vmem S512 .f32) (.dma (sendQ e)) hsc)}
    {α : Type} {Q : α → sProp 𝕄} {k : PUnit → Prog (TpuEff nD τ sig (Elt F) Λ₀ .tc) α}
    {O₁ : CellTallies nD τ sig Unit} (O : CellTallies nD τ sig Unit) (hO : O₁ = O + tallyAt (recvCell (peer c e) e) () N) {W : Waits sig Unit} :
    (cellInv ER (sched m) κ₁ (sendCell c e) : sProp 𝕄)
      ⊢ iprop(cellInv ER (sched m) κ₂ (recvCell (peer c e) e) -∗ reached ER (sendCell c e) 0 -∗ reached ER (recvCell (peer c e) e) 0
          -∗ rowPts c 0 (shr e) (commC m c) -∗ rowPts (peer c e) e fullShare fn -∗ owes (c : Thread nD τ) O₁ W
          -∗ dutyTok ER (sendCell c e) 0 0 -∗ dutyTok ER (recvCell (peer c e) e) 0 0
          -∗ ((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM e) (.dma (sendQ e)) hsc) (.dma (recvQ e)) hsrc hdst hsem) k) Q) := by
  subst hn
  iintro #HIs #HIr #Hrs #Hrr Hsrc Hdst HO Hts Htr Hk
  unfold rowPts
  iapply (Rounds.wp_send_pointsTo 𝒱₀ ER (sched m) (c : Thread nD τ) none (c' := (peer c e : Thread nD τ))
    (src := (rowM 0 : Memref sig .tc .vmem S512 .f32)) (dst := (rowM e : Memref sig .tc .vmem S512 .f32))
    (sS := SemLoc.dma (sendQ e)) (sem := SemLoc.dma (recvQ e)) (q := shr e) (fs := commC m c) (κ₁ := κ₁) (κ₂ := κ₂)
    (r₁ := 0) (r₂ := 0) (d₁ := 0) (d₂ := 0) (fd := fn)
    (by rw [duties_send m c e he]; exact Finset.mem_singleton_self _) (by rw [duties_recv m (peer c e) e he]; exact Finset.mem_singleton_self _)
    () () N (credit_row e) (amount_send m c e 0) (amount_recv m (peer c e) e 0) O hO (W := W)
    (Entails.of_eq (payload_send m c e he 0).symm)
    (Entails.of_eq ((landed_row m c e fn).trans (payload_recv m (peer c e) e he 0).symm))) $$ [Hsrc Hdst HO Hts Htr] Hk
  isplitr; · iexact HIs
  isplitr; · iexact HIr
  isplitl [Hsrc]; · iexact Hsrc
  isplitl [Hdst]; · iexact Hdst
  isplitl [HO]; · iexact HO
  isplitl [Hts]; · iexact Hts
  isplitr; · iexact Hrs
  isplitl [Htr]; · iexact Htr
  iexact Hrr

theorem rest_recv (c : Dev nD) (e : Fin 16) (he : e ≠ 0) : bigSep ((sched (F := F) m).duties (recvCell c e) 0 \ ∅) (fun d => (sched (F := F) m).payload (recvCell c e) 0 d)
    = rowPts c e fullShare (commC m c) := by
  rw [Finset.sdiff_empty, duties_recv m c e he, bigSep_singleton, payload_recv m c e he]; rfl
theorem rest_send (c : Dev nD) (e : Fin 16) (he : e ≠ 0) : bigSep ((sched (F := F) m).duties (sendCell c e) 0 \ ∅) (fun d => (sched (F := F) m).payload (sendCell c e) 0 d)
    = rowPts c 0 (shr e) (commC m c) := by
  rw [Finset.sdiff_empty, duties_send m c e he, bigSep_singleton, payload_send m c e he]; rfl

/-- The wait on the device's receive cell `e`, owing nothing: row `e` comes back at its final contents, and the cell closes. -/
theorem wp_recv_wait (c : Dev nD) (e : Fin 16) (he : e ≠ 0) (κ : ℕ)
    {sp' : Space} {s' : Shape} {e' : EltTy} {src : Memref sig .tc sp' s' e'} {dst : Memref sig .tc .vmem S512 .f32}
    {hsrc : src.view.WordExact} {hdst : dst.view.WordExact} (hcr : dst.view.dmaCredit = N)
    {α : Type} {Q : α → sProp 𝕄} {k : PUnit → Prog (TpuEff nD τ sig (Elt F) Λ₀ .tc) α} {W : Waits sig Unit} :
    (cellInv ER (sched m) κ (recvCell c e) : sProp 𝕄)
      ⊢ iprop(cred (tallyAt (recvCell c e) () N) -∗ owes (c : Thread nD τ) 0 W -∗ atPos ER (recvCell c e) 0 ∅ 0
          -∗ ((owes (c : Thread nD τ) 0 (insert (SemLoc.dma (recvQ e), ()) W) ∗ semVal (recvCell c e) 0 ∗ rowPts c e fullShare (commC m c))
                -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ e) src dst hsrc hdst) k) Q) := by
  iintro #HI Hc HO Hat Hk
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m c e he, hcr])) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  ihave Hrow := (Entails.of_eq (rest_recv m c e he)) $$ Hpay
  imod (Rounds.cell_close ER (sched m) (Set.mem_univ κ) (fun h => h) (R := 0 + 1) (duties_later m (recvCell c e))) $$ [Hat] with Hz
  · isplitr; · iexact HI
    iexact Hat
  iapply Hk
  isplitl [HO]; · iexact HO
  isplitl [Hz]; · iexact Hz
  iexact Hrow

/-- The wait on the device's send cell `e`, owing nothing: the share of row 0 the transfer read comes back, and the cell closes. -/
theorem wp_send_wait (c : Dev nD) (e : Fin 16) (he : e ≠ 0) (κ : ℕ)
    {sp' : Space} {s' : Shape} {e' : EltTy} {src : Memref sig .tc sp' s' e'} {dst : Memref sig .tc .vmem S512 .f32}
    {hsrc : src.view.WordExact} {hdst : dst.view.WordExact} (hcr : dst.view.dmaCredit = N)
    {α : Type} {Q : α → sProp 𝕄} {k : PUnit → Prog (TpuEff nD τ sig (Elt F) Λ₀ .tc) α} {W : Waits sig Unit} :
    (cellInv ER (sched m) κ (sendCell c e) : sProp 𝕄)
      ⊢ iprop(cred (tallyAt (sendCell c e) () N) -∗ owes (c : Thread nD τ) 0 W -∗ atPos ER (sendCell c e) 0 ∅ 0
          -∗ ((owes (c : Thread nD τ) 0 (insert (SemLoc.dma (sendQ e), ()) W) ∗ semVal (sendCell c e) 0 ∗ rowPts c 0 (shr e) (commC m c))
                -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ e) src dst hsrc hdst) k) Q) := by
  iintro #HI Hc HO Hat Hk
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, expect_send m c e he, hcr])) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  ihave Hrow := (Entails.of_eq (rest_send m c e he)) $$ Hpay
  imod (Rounds.cell_close ER (sched m) (Set.mem_univ κ) (fun h => h) (R := 0 + 1) (duties_later m (sendCell c e))) $$ [Hat] with Hz
  · isplitr; · iexact HI
    iexact Hat
  iapply Hk
  isplitl [HO]; · iexact HO
  isplitl [Hz]; · iexact Hz
  iexact Hrow

/-! ## The local copy of the device's block into VMEM, and its wait -/

theorem recvsRev_pos (c : Dev nD) (g : GSem nD τ sig) (u : Unit) (h : 0 < recvsRev c g u) : 0 < O₀ c g u := by
  rw [recvsRev_eq, ← recvsF_eq] at h
  show 0 < (recvsF c + barsF c) g u
  rw [Pi.add_apply, Finsupp.add_apply]; omega

theorem copied_eq (c : Dev nD) (fd : Buf (Elt F) ((vM : Memref sig .tc .vmem S1024x512 .f32).view.loc (c : Thread nD τ)))
    (fs : Buf (Elt F) ((xM : Memref sig .tc .hbm S1024x512 .f32).view.loc (c : Thread nD τ))) :
    (vM : Memref sig .tc .vmem S1024x512 .f32).view.write (Elt F) fd ((xM : Memref sig .tc .hbm S1024x512 .f32).view.read (Elt F) fs) Finset.univ = fs := by
  show (View.whole cc0_scratch1).write (Elt F) fd ((View.whole main_arg0).read (Elt F) fs) Finset.univ = fs
  rw [View.read_whole]
  exact View.write_whole_univ _ _ _

/-- The local copy: it pays the one duty of the copy cell; its completion will hand back the VMEM copy holding the block
    and the block. -/
theorem wp_copy_x (c : Dev nD) (κ : ℕ) (fv : Buf (Elt F) ((c : Thread nD τ).loc cc0_scratch1))
    {hsrc : (xM : Memref sig .tc .hbm S1024x512 .f32).view.WordExact} {hdst : (vM : Memref sig .tc .vmem S1024x512 .f32).view.WordExact}
    {hsem : DmaTarget.Typed (nD := nD) .hbm (.dma copyQ) (.here vM : DmaTarget nD τ sig (c : Thread nD τ).2 .vmem S1024x512 .f32)}
    {α : Type} {Q : α → sProp 𝕄} {k : PUnit → Prog (TpuEff nD τ sig (Elt F) Λ₀ .tc) α} :
    (cellInv ER (sched m) κ (copyCell c) : sProp 𝕄)
      ⊢ iprop(reached ER (copyCell c) 0 -∗ dutyTok ER (copyCell c) 0 0 -∗ xPts m c -∗ (((c : Thread nD τ).loc cc0_scratch1) ↦{fullShare} fv)
          -∗ (cred (tallyAt (copyCell c) () NC) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.here vM) (.dma copyQ) hsrc hdst hsem) k) Q) := by
  iintro #HI #Hr Ht Hx Hv Hk
  unfold xPts
  iapply (Rounds.wp_copy_pointsTo 𝒱₀ ER (sched m) (c : Thread nD τ) none (src := (xM : Memref sig .tc .hbm S1024x512 .f32)) (dst := (vM : Memref sig .tc .vmem S1024x512 .f32))
      (sem := SemLoc.dma copyQ) (q := fullShare) (fs := m ((c : Thread nD τ).loc main_arg0)) (fd := fv) (r := 0) (d := 0) (κ := κ)
      (by rw [duties_copy]; exact Finset.mem_singleton_self _) () NC rfl (amount_copy m c 0)
      (by rw [payload_copy, copied_eq]; unfold copyPay; rw [View.set_whole, View.set_whole])) $$ [Ht Hx Hv] Hk
  isplitr; · iexact HI
  isplitl [Hx]; · rw [View.set_whole]; iexact Hx
  isplitl [Hv]; · rw [View.set_whole]; iexact Hv
  isplitl [Ht]; · iexact Ht
  iexact Hr

theorem rest_copy (c : Dev nD) : bigSep ((sched (F := F) m).duties (copyCell c) 0 \ ∅) (fun d => (sched (F := F) m).payload (copyCell c) 0 d) = copyPay m c := by
  rw [Finset.sdiff_empty, duties_copy, bigSep_singleton, payload_copy]

/-- The wait for the local copy, while the fifteen receive credits are still owed: the copy and the block come back, and
    the cell closes. -/
theorem wp_copy_wait (c : Dev nD) (κ : ℕ)
    {hsrc : (xM : Memref sig .tc .hbm S1024x512 .f32).view.WordExact} {hdst : (vM : Memref sig .tc .vmem S1024x512 .f32).view.WordExact}
    {α : Type} {Q : α → sProp 𝕄} {k : PUnit → Prog (TpuEff nD τ sig (Elt F) Λ₀ .tc) α} {W : Waits sig Unit} :
    (cellInv ER (sched m) κ (copyCell c) : sProp 𝕄)
      ⊢ iprop(levAts L lv -∗ cred (tallyAt (copyCell c) () NC) -∗ owes (c : Thread nD τ) (recvsRev c) W -∗ atPos ER (copyCell c) 0 ∅ 0
          -∗ ((owes (c : Thread nD τ) (recvsRev c) (insert (SemLoc.dma copyQ, ()) W) ∗ semVal (copyCell c) 0 ∗ copyPay m c)
                -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 copyQ xM vM hsrc hdst) k) Q) := by
  iintro #HI #Hlev Hc HO Hat Hk
  iapply (Rounds.wp_wait_rest_token 𝒱₀ ER (sched m) (c : Thread nD τ) none (κ := κ)
      (wpE_waitDma2_eq 𝒱₀ (c : Thread nD τ) none Set.univ) (Set.mem_univ _) () (O := recvsRev c) (W := W) (R := 0) (m := 0) (T := ∅)
      (by rw [Nat.zero_add, expect_copy]; rfl)) $$ [Hc HO Hat]
  · isplitr; · iexact HI
    isplitl [Hc]; · iexact Hc
    isplitl [HO]; · iexact HO
    isplitr
    · iapply (mayWait_zero_level c copyQ (by decide) (recvsRev c) (recvsRev_pos c)); iexact Hlev
    iexact Hat
  iintro ⟨HO, Hat, -, Hpay⟩
  ihave Hp := (Entails.of_eq (rest_copy m c)) $$ Hpay
  imod (Rounds.cell_close ER (sched m) (Set.mem_univ κ) (fun h => h) (R := 0 + 1) (duties_later m (copyCell c))) $$ [Hat] with Hz
  · isplitr; · iexact HI
    iexact Hat
  iapply Hk
  isplitl [HO]; · iexact HO
  isplitl [Hz]; · iexact Hz
  iexact Hp

/-! ## After the waits: the payloads read, the cells closed, the own semaphores listed -/

theorem pay_recv (c : Dev nD) (e : Fin 16) (he : e ≠ 0) : bigSep ((sched (F := F) m).duties (recvCell c e) 0) (fun d => (sched (F := F) m).payload (recvCell c e) 0 d)
    = rowPts c e fullShare (commC m c) := by
  rw [duties_recv m c e he, bigSep_singleton, payload_recv m c e he]; rfl
theorem pay_send (c : Dev nD) (e : Fin 16) (he : e ≠ 0) : bigSep ((sched (F := F) m).duties (sendCell c e) 0) (fun d => (sched (F := F) m).payload (sendCell c e) 0 d)
    = rowPts c 0 (shr e) (commC m c) := by
  rw [duties_send m c e he, bigSep_singleton, payload_send m c e he]; rfl

/-- A cell past its one round closes: its counter, at zero, is the device's again. -/
theorem close_cell (g : GSem nD τ sig) (κ : ℕ) :
    (cellInv ER (sched m) κ g : sProp 𝕄) ⊢ iprop(atPos ER g 1 ∅ 0 -∗ |={Set.univ}=> semVal g 0) := by
  iintro #HI Hat
  iapply (Rounds.cell_close ER (sched m) (Set.mem_univ κ) (fun h => h) (R := 1) (duties_later m g))
  isplitr; · iexact HI
  iexact Hat

theorem own33_eq (c : Dev nD) : (bigSep Finset.univ fun i : Fin 33 => (semVal ((c : Thread nD τ), osem i) 0 : sProp 𝕄))
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0 ∗ semVal ((c : Thread nD τ), osem 30) 0 ∗ semVal ((c : Thread nD τ), osem 31) 0 ∗ semVal ((c : Thread nD τ), osem 32) 0) := by
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  simp only [bigSepL_cons_cons, bigSepL_singleton]
  rfl

theorem ret_bind' {E : Type → Type} {α β : Type} (a : α) (k : α → Prog E β) : (Prog.ret a : Prog E α).bind k = k a := rfl

end Cert.Kernel.Proto

end
-- ==== Proof.BodyKernel.lean ====
/-
  One device's body, stepped in program order from the ghost state the launch deals it.

  The gather buffer is first cut into its sixteen rows. The fifteen signals each pay one duty of a later device's barrier
  cell, handing that device the row it will write here and the fact that this device's receive cell for it is at round 0.
  The local copy of the block completes on its own cell; the block's column sums are stored into row 0, which then holds
  this device's part of the buffer's final contents. The wait for fifteen on the barrier cell returns, from every other
  device, its row for this device and its receive cell's readiness. Row 0 is split into read shares, one per transfer;
  the fifteen transfers each pay a duty of this device's send cell and of the target's receive cell, the landing leaving
  the target's row at its final contents. The thirty waits return the fifteen landed rows and the fifteen read shares
  and close the cells; the rows are joined back into the whole buffer at its final contents, whose column sums are the
  device's result.
-/
import proofs.«901069_g7700000000001070_dist_sum_ax0_shard0_i_m1024_n512_v7x_i16_f32_1_alg».proof.Proof.ProtoKernel
import proofs.«901069_g7700000000001070_dist_sum_ax0_shard0_i_m1024_n512_v7x_i16_f32_1_alg».proof.Proof.RowsKernel
import proofs.«901069_g7700000000001070_dist_sum_ax0_shard0_i_m1024_n512_v7x_i16_f32_1_alg».proof.Proof.StepsKernel
import proofs.«901069_g7700000000001070_dist_sum_ax0_shard0_i_m1024_n512_v7x_i16_f32_1_alg».proof.Proof.Gen.Kernel.Skeleton

set_option maxRecDepth 16384
set_option maxHeartbeats 6400000

noncomputable section

namespace Cert.Kernel.Proto

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body at device `c`: from the launch's ghost state, its credits, its block and its scratch buffers to the result's
    staging buffer at `Spec.out` of the blocks, every own semaphore back at zero, nothing owed. -/
theorem sound_body_at (c : Dev nD) (Kt : PUnit → sProp 𝕄) :
    iprop(bodyPre m ρ c ∗ (bodyPost m ρ c -∗ Kt ⟨⟩)) ⊢ wp frame (wpE (defs₀ (F := F)) 𝒱₀ c none) Set.univ (bodyProg (F := F)) Kt := by
  unfold bodyPre Φ₀ start G' creds spare scratch ghost ghostE
  iintro ⟨⟨⟨⟨⟨⟨%K, ⟨#HIbar, Hatb, #HIcp, Hatc, #Hrcp, Htcp, ⟨#HIs1, #HIr1, #HIb1, #HIp1, Has1, Har1, #Hrb1, #Hrp1, #Hrs1, #Hrr1, Htb1, Htp1, Hts1⟩, ⟨#HIs2, #HIr2, #HIb2, #HIp2, Has2, Har2, #Hrb2, #Hrp2, #Hrs2, #Hrr2, Htb2, Htp2, Hts2⟩, ⟨#HIs3, #HIr3, #HIb3, #HIp3, Has3, Har3, #Hrb3, #Hrp3, #Hrs3, #Hrr3, Htb3, Htp3, Hts3⟩, ⟨#HIs4, #HIr4, #HIb4, #HIp4, Has4, Har4, #Hrb4, #Hrp4, #Hrs4, #Hrr4, Htb4, Htp4, Hts4⟩, ⟨#HIs5, #HIr5, #HIb5, #HIp5, Has5, Har5, #Hrb5, #Hrp5, #Hrs5, #Hrr5, Htb5, Htp5, Hts5⟩, ⟨#HIs6, #HIr6, #HIb6, #HIp6, Has6, Har6, #Hrb6, #Hrp6, #Hrs6, #Hrr6, Htb6, Htp6, Hts6⟩, ⟨#HIs7, #HIr7, #HIb7, #HIp7, Has7, Har7, #Hrb7, #Hrp7, #Hrs7, #Hrr7, Htb7, Htp7, Hts7⟩, ⟨#HIs8, #HIr8, #HIb8, #HIp8, Has8, Har8, #Hrb8, #Hrp8, #Hrs8, #Hrr8, Htb8, Htp8, Hts8⟩, ⟨#HIs9, #HIr9, #HIb9, #HIp9, Has9, Har9, #Hrb9, #Hrp9, #Hrs9, #Hrr9, Htb9, Htp9, Hts9⟩, ⟨#HIs10, #HIr10, #HIb10, #HIp10, Has10, Har10, #Hrb10, #Hrp10, #Hrs10, #Hrr10, Htb10, Htp10, Hts10⟩, ⟨#HIs11, #HIr11, #HIb11, #HIp11, Has11, Har11, #Hrb11, #Hrp11, #Hrs11, #Hrr11, Htb11, Htp11, Hts11⟩, ⟨#HIs12, #HIr12, #HIb12, #HIp12, Has12, Har12, #Hrb12, #Hrp12, #Hrs12, #Hrr12, Htb12, Htp12, Hts12⟩, ⟨#HIs13, #HIr13, #HIb13, #HIp13, Has13, Har13, #Hrb13, #Hrp13, #Hrs13, #Hrr13, Htb13, Htp13, Hts13⟩, ⟨#HIs14, #HIr14, #HIb14, #HIp14, Has14, Har14, #Hrb14, #Hrp14, #Hrs14, #Hrr14, Htb14, Htp14, Hts14⟩, ⟨#HIs15, #HIr15, #HIb15, #HIp15, Has15, Har15, #Hrb15, #Hrp15, #Hrs15, #Hrr15, Htb15, Htp15, Hts15⟩⟩⟩, Hsp2, Hsp3⟩, ⟨Hcb, Hcr1, Hcr2, Hcr3, Hcr4, Hcr5, Hcr6, Hcr7, Hcr8, Hcr9, Hcr10, Hcr11, Hcr12, Hcr13, Hcr14, Hcr15⟩, #Hlev, Hx⟩, ⟨%fc, Hcomm⟩, ⟨%fv, Hvm⟩⟩, Ho, ⟨%d0, %g0, %hg0, Hout⟩⟩, Hk⟩
  unfold Dat.owesAt Pipeline.owesWithin
  icases Ho with ⟨%W, %hW, HO⟩
  rw [show (dats m ρ 0 c).owed t₀.castSucc = O₀ c from rfl, O₀_rev]
  unfold barsRev owedB
  -- the gather buffer, row by row
  ihave Hrows := (comm_split16 c fullShare fc) $$ Hcomm
  icases Hrows with ⟨Hrow0, Hrow1, Hrow2, Hrow3, Hrow4, Hrow5, Hrow6, Hrow7, Hrow8, Hrow9, Hrow10, Hrow11, Hrow12, Hrow13, Hrow14, Hrow15⟩
  unfold bodyProg
  -- the fifteen signals: offset e pays duty 16 - e of the barrier cell of the device e places on, with this device's row 16 - e
  sl_exec
  iapply (wp_sig m c 1 15 (by decide) _ fc _ (add_assoc _ _ _).symm) $$ HIb1 Hrr15 Hrb1 HO Htb1 Hrow15
  iintro HO
  sl_exec
  iapply (wp_sig m c 2 14 (by decide) _ fc _ (add_assoc _ _ _).symm) $$ HIb2 Hrr14 Hrb2 HO Htb2 Hrow14
  iintro HO
  sl_exec
  iapply (wp_sig m c 3 13 (by decide) _ fc _ (add_assoc _ _ _).symm) $$ HIb3 Hrr13 Hrb3 HO Htb3 Hrow13
  iintro HO
  sl_exec
  iapply (wp_sig m c 4 12 (by decide) _ fc _ (add_assoc _ _ _).symm) $$ HIb4 Hrr12 Hrb4 HO Htb4 Hrow12
  iintro HO
  sl_exec
  iapply (wp_sig m c 5 11 (by decide) _ fc _ (add_assoc _ _ _).symm) $$ HIb5 Hrr11 Hrb5 HO Htb5 Hrow11
  iintro HO
  sl_exec
  iapply (wp_sig m c 6 10 (by decide) _ fc _ (add_assoc _ _ _).symm) $$ HIb6 Hrr10 Hrb6 HO Htb6 Hrow10
  iintro HO
  sl_exec
  iapply (wp_sig m c 7 9 (by decide) _ fc _ (add_assoc _ _ _).symm) $$ HIb7 Hrr9 Hrb7 HO Htb7 Hrow9
  iintro HO
  sl_exec
  iapply (wp_sig m c 8 8 (by decide) _ fc _ (add_assoc _ _ _).symm) $$ HIb8 Hrr8 Hrb8 HO Htb8 Hrow8
  iintro HO
  sl_exec
  iapply (wp_sig m c 9 7 (by decide) _ fc _ (add_assoc _ _ _).symm) $$ HIb9 Hrr7 Hrb9 HO Htb9 Hrow7
  iintro HO
  sl_exec
  iapply (wp_sig m c 10 6 (by decide) _ fc _ (add_assoc _ _ _).symm) $$ HIb10 Hrr6 Hrb10 HO Htb10 Hrow6
  iintro HO
  sl_exec
  iapply (wp_sig m c 11 5 (by decide) _ fc _ (add_assoc _ _ _).symm) $$ HIb11 Hrr5 Hrb11 HO Htb11 Hrow5
  iintro HO
  sl_exec
  iapply (wp_sig m c 12 4 (by decide) _ fc _ (add_assoc _ _ _).symm) $$ HIb12 Hrr4 Hrb12 HO Htb12 Hrow4
  iintro HO
  sl_exec
  iapply (wp_sig m c 13 3 (by decide) _ fc _ (add_assoc _ _ _).symm) $$ HIb13 Hrr3 Hrb13 HO Htb13 Hrow3
  iintro HO
  sl_exec
  iapply (wp_sig m c 14 2 (by decide) _ fc _ (add_assoc _ _ _).symm) $$ HIb14 Hrr2 Hrb14 HO Htb14 Hrow2
  iintro HO
  sl_exec
  iapply (wp_sig m c 15 1 (by decide) _ fc _ rfl) $$ HIb15 Hrr1 Hrb15 HO Htb15 Hrow1
  iintro HO
  sl_exec
  -- the local copy of the block, and its wait (the fifteen receive credits still owed)
  iapply (wp_copy_x m c _ fv) $$ HIcp Hrcp Htcp Hx Hvm
  iintro Hcc
  iapply (wp_copy_wait m c _) $$ HIcp Hlev Hcc HO Hatc
  iintro ⟨HO, Hzc, Hcp⟩
  unfold copyPay
  icases Hcp with ⟨Hvm, Hx⟩
  -- the block's column sums into row 0: the row then holds this device's part of the final contents
  iapply (wp_load 𝒱₀ (c : Thread nD τ) none Set.univ (m := (vM : Memref sig .tc .vmem S1024x512 .f32)) (Finset.subset_univ _)) $$ Hvm
  iintro Hvm
  ihave Hrow0 := (Entails.of_eq (show (rowPts c 0 fullShare fc : sProp 𝕄) = (((cM : Memref sig .tc .vmem S16x512 .f32).view.loc (c : Thread nD τ)) ↦[(rowM 0).view.set]{fullShare} fc) from rfl)) $$ Hrow0
  iapply (wp_load 𝒱₀ (c : Thread nD τ) none Set.univ (m := (cM : Memref sig .tc .vmem S16x512 .f32)) row0_load_sub) $$ Hrow0
  iintro Hrow0
  iapply (wp_store 𝒱₀ (c : Thread nD τ) none Set.univ (m := (cM : Memref sig .tc .vmem S16x512 .f32)) (r := r0) (Mk := Finset.univ) row0_store_sub) $$ Hrow0
  iintro Hrow0
  rw [read_vm_whole c]
  ihave Hrow0 := (Entails.of_eq (show ((((cM : Memref sig .tc .vmem S16x512 .f32).access r0).loc (c : Thread nD τ)) ↦[(rowM 0).view.set]{fullShare}
      (((cM : Memref sig .tc .vmem S16x512 .f32).access r0).write (Elt F) fc (k0_pay2 (m ((c : Thread nD τ).loc main_arg0))) Finset.univ) : sProp 𝕄)
      = rowPts c 0 fullShare (commC m c) from stored_row0 m c fc)) $$ Hrow0
  -- the wait for fifteen on the barrier cell: every other device's row for this one comes with it
  iapply (wp_bar_wait m c _) $$ HIbar Hlev Hcb HO Hatb
  unfold barPay
  iintro ⟨HO, ⟨⟨%fd1, Hd1⟩, #Hq1⟩, ⟨⟨%fd2, Hd2⟩, #Hq2⟩, ⟨⟨%fd3, Hd3⟩, #Hq3⟩, ⟨⟨%fd4, Hd4⟩, #Hq4⟩, ⟨⟨%fd5, Hd5⟩, #Hq5⟩, ⟨⟨%fd6, Hd6⟩, #Hq6⟩, ⟨⟨%fd7, Hd7⟩, #Hq7⟩, ⟨⟨%fd8, Hd8⟩, #Hq8⟩, ⟨⟨%fd9, Hd9⟩, #Hq9⟩, ⟨⟨%fd10, Hd10⟩, #Hq10⟩, ⟨⟨%fd11, Hd11⟩, #Hq11⟩, ⟨⟨%fd12, Hd12⟩, #Hq12⟩, ⟨⟨%fd13, Hd13⟩, #Hq13⟩, ⟨⟨%fd14, Hd14⟩, #Hq14⟩, ⟨⟨%fd15, Hd15⟩, #Hq15⟩⟩
  rw [ret_bind']
  unfold recvsRev owedR
  -- row 0 in sixteen read shares; the fifteen transfers
  ihave Htk := (row0_toks_split c (commC m c)) $$ Hrow0
  icases Htk with ⟨Hrest, Hs0, Hs1, Hs2, Hs3, Hs4, Hs5, Hs6, Hs7, Hs8, Hs9, Hs10, Hs11, Hs12, Hs13, Hs14, Hs15⟩
  sl_exec
  iapply (wp_send_e m c 1 (by decide) _ _ _ (dev16_eq c) fd1 _ rfl) $$ HIs1 HIp1 Hrs1 Hq1 Hs1 Hd1 HO Hts1 Htp1
  iintro ⟨Hcs1, HO⟩
  sl_exec
  iapply (wp_send_e m c 2 (by decide) _ _ _ (dev17_eq c) fd2 _ rfl) $$ HIs2 HIp2 Hrs2 Hq2 Hs2 Hd2 HO Hts2 Htp2
  iintro ⟨Hcs2, HO⟩
  sl_exec
  iapply (wp_send_e m c 3 (by decide) _ _ _ (dev18_eq c) fd3 _ rfl) $$ HIs3 HIp3 Hrs3 Hq3 Hs3 Hd3 HO Hts3 Htp3
  iintro ⟨Hcs3, HO⟩
  sl_exec
  iapply (wp_send_e m c 4 (by decide) _ _ _ (dev19_eq c) fd4 _ rfl) $$ HIs4 HIp4 Hrs4 Hq4 Hs4 Hd4 HO Hts4 Htp4
  iintro ⟨Hcs4, HO⟩
  sl_exec
  iapply (wp_send_e m c 5 (by decide) _ _ _ (dev20_eq c) fd5 _ rfl) $$ HIs5 HIp5 Hrs5 Hq5 Hs5 Hd5 HO Hts5 Htp5
  iintro ⟨Hcs5, HO⟩
  sl_exec
  iapply (wp_send_e m c 6 (by decide) _ _ _ (dev21_eq c) fd6 _ rfl) $$ HIs6 HIp6 Hrs6 Hq6 Hs6 Hd6 HO Hts6 Htp6
  iintro ⟨Hcs6, HO⟩
  sl_exec
  iapply (wp_send_e m c 7 (by decide) _ _ _ (dev22_eq c) fd7 _ rfl) $$ HIs7 HIp7 Hrs7 Hq7 Hs7 Hd7 HO Hts7 Htp7
  iintro ⟨Hcs7, HO⟩
  sl_exec
  iapply (wp_send_e m c 8 (by decide) _ _ _ (dev23_eq c) fd8 _ rfl) $$ HIs8 HIp8 Hrs8 Hq8 Hs8 Hd8 HO Hts8 Htp8
  iintro ⟨Hcs8, HO⟩
  sl_exec
  iapply (wp_send_e m c 9 (by decide) _ _ _ (dev24_eq c) fd9 _ rfl) $$ HIs9 HIp9 Hrs9 Hq9 Hs9 Hd9 HO Hts9 Htp9
  iintro ⟨Hcs9, HO⟩
  sl_exec
  iapply (wp_send_e m c 10 (by decide) _ _ _ (dev25_eq c) fd10 _ rfl) $$ HIs10 HIp10 Hrs10 Hq10 Hs10 Hd10 HO Hts10 Htp10
  iintro ⟨Hcs10, HO⟩
  sl_exec
  iapply (wp_send_e m c 11 (by decide) _ _ _ (dev26_eq c) fd11 _ rfl) $$ HIs11 HIp11 Hrs11 Hq11 Hs11 Hd11 HO Hts11 Htp11
  iintro ⟨Hcs11, HO⟩
  sl_exec
  iapply (wp_send_e m c 12 (by decide) _ _ _ (dev27_eq c) fd12 _ rfl) $$ HIs12 HIp12 Hrs12 Hq12 Hs12 Hd12 HO Hts12 Htp12
  iintro ⟨Hcs12, HO⟩
  sl_exec
  iapply (wp_send_e m c 13 (by decide) _ _ _ (dev28_eq c) fd13 _ rfl) $$ HIs13 HIp13 Hrs13 Hq13 Hs13 Hd13 HO Hts13 Htp13
  iintro ⟨Hcs13, HO⟩
  sl_exec
  iapply (wp_send_e m c 14 (by decide) _ _ _ (dev29_eq c) fd14 _ rfl) $$ HIs14 HIp14 Hrs14 Hq14 Hs14 Hd14 HO Hts14 Htp14
  iintro ⟨Hcs14, HO⟩
  sl_exec
  iapply (wp_send_e m c 15 (by decide) _ _ _ (dev30_eq c) fd15 _ (zero_add _).symm) $$ HIs15 HIp15 Hrs15 Hq15 Hs15 Hd15 HO Hts15 Htp15
  iintro ⟨Hcs15, HO⟩
  sl_exec
  -- the thirty waits are over: the landed rows, the read shares back, the cells closed
  ihave Hrow1 := (Entails.of_eq (pay_recv m c 1 (by decide))) $$ Har1_pay1
  ihave Hrow2 := (Entails.of_eq (pay_recv m c 2 (by decide))) $$ Har2_pay1
  ihave Hrow3 := (Entails.of_eq (pay_recv m c 3 (by decide))) $$ Har3_pay1
  ihave Hrow4 := (Entails.of_eq (pay_recv m c 4 (by decide))) $$ Har4_pay1
  ihave Hrow5 := (Entails.of_eq (pay_recv m c 5 (by decide))) $$ Har5_pay1
  ihave Hrow6 := (Entails.of_eq (pay_recv m c 6 (by decide))) $$ Har6_pay1
  ihave Hrow7 := (Entails.of_eq (pay_recv m c 7 (by decide))) $$ Har7_pay1
  ihave Hrow8 := (Entails.of_eq (pay_recv m c 8 (by decide))) $$ Har8_pay1
  ihave Hrow9 := (Entails.of_eq (pay_recv m c 9 (by decide))) $$ Har9_pay1
  ihave Hrow10 := (Entails.of_eq (pay_recv m c 10 (by decide))) $$ Har10_pay1
  ihave Hrow11 := (Entails.of_eq (pay_recv m c 11 (by decide))) $$ Har11_pay1
  ihave Hrow12 := (Entails.of_eq (pay_recv m c 12 (by decide))) $$ Har12_pay1
  ihave Hrow13 := (Entails.of_eq (pay_recv m c 13 (by decide))) $$ Har13_pay1
  ihave Hrow14 := (Entails.of_eq (pay_recv m c 14 (by decide))) $$ Har14_pay1
  ihave Hrow15 := (Entails.of_eq (pay_recv m c 15 (by decide))) $$ Har15_pay1
  ihave Hs1 := (Entails.of_eq (pay_send m c 1 (by decide))) $$ Has1_pay1
  ihave Hs2 := (Entails.of_eq (pay_send m c 2 (by decide))) $$ Has2_pay1
  ihave Hs3 := (Entails.of_eq (pay_send m c 3 (by decide))) $$ Has3_pay1
  ihave Hs4 := (Entails.of_eq (pay_send m c 4 (by decide))) $$ Has4_pay1
  ihave Hs5 := (Entails.of_eq (pay_send m c 5 (by decide))) $$ Has5_pay1
  ihave Hs6 := (Entails.of_eq (pay_send m c 6 (by decide))) $$ Has6_pay1
  ihave Hs7 := (Entails.of_eq (pay_send m c 7 (by decide))) $$ Has7_pay1
  ihave Hs8 := (Entails.of_eq (pay_send m c 8 (by decide))) $$ Has8_pay1
  ihave Hs9 := (Entails.of_eq (pay_send m c 9 (by decide))) $$ Has9_pay1
  ihave Hs10 := (Entails.of_eq (pay_send m c 10 (by decide))) $$ Has10_pay1
  ihave Hs11 := (Entails.of_eq (pay_send m c 11 (by decide))) $$ Has11_pay1
  ihave Hs12 := (Entails.of_eq (pay_send m c 12 (by decide))) $$ Has12_pay1
  ihave Hs13 := (Entails.of_eq (pay_send m c 13 (by decide))) $$ Has13_pay1
  ihave Hs14 := (Entails.of_eq (pay_send m c 14 (by decide))) $$ Has14_pay1
  ihave Hs15 := (Entails.of_eq (pay_send m c 15 (by decide))) $$ Has15_pay1
  imod (close_cell m (recvCell c 1) _) $$ HIr1 Har1 with Hzr1
  imod (close_cell m (recvCell c 2) _) $$ HIr2 Har2 with Hzr2
  imod (close_cell m (recvCell c 3) _) $$ HIr3 Har3 with Hzr3
  imod (close_cell m (recvCell c 4) _) $$ HIr4 Har4 with Hzr4
  imod (close_cell m (recvCell c 5) _) $$ HIr5 Har5 with Hzr5
  imod (close_cell m (recvCell c 6) _) $$ HIr6 Har6 with Hzr6
  imod (close_cell m (recvCell c 7) _) $$ HIr7 Har7 with Hzr7
  imod (close_cell m (recvCell c 8) _) $$ HIr8 Har8 with Hzr8
  imod (close_cell m (recvCell c 9) _) $$ HIr9 Har9 with Hzr9
  imod (close_cell m (recvCell c 10) _) $$ HIr10 Har10 with Hzr10
  imod (close_cell m (recvCell c 11) _) $$ HIr11 Har11 with Hzr11
  imod (close_cell m (recvCell c 12) _) $$ HIr12 Har12 with Hzr12
  imod (close_cell m (recvCell c 13) _) $$ HIr13 Har13 with Hzr13
  imod (close_cell m (recvCell c 14) _) $$ HIr14 Har14 with Hzr14
  imod (close_cell m (recvCell c 15) _) $$ HIr15 Har15 with Hzr15
  imod (close_cell m (sendCell c 1) _) $$ HIs1 Has1 with Hzs1
  imod (close_cell m (sendCell c 2) _) $$ HIs2 Has2 with Hzs2
  imod (close_cell m (sendCell c 3) _) $$ HIs3 Has3 with Hzs3
  imod (close_cell m (sendCell c 4) _) $$ HIs4 Has4 with Hzs4
  imod (close_cell m (sendCell c 5) _) $$ HIs5 Has5 with Hzs5
  imod (close_cell m (sendCell c 6) _) $$ HIs6 Has6 with Hzs6
  imod (close_cell m (sendCell c 7) _) $$ HIs7 Has7 with Hzs7
  imod (close_cell m (sendCell c 8) _) $$ HIs8 Has8 with Hzs8
  imod (close_cell m (sendCell c 9) _) $$ HIs9 Has9 with Hzs9
  imod (close_cell m (sendCell c 10) _) $$ HIs10 Has10 with Hzs10
  imod (close_cell m (sendCell c 11) _) $$ HIs11 Has11 with Hzs11
  imod (close_cell m (sendCell c 12) _) $$ HIs12 Has12 with Hzs12
  imod (close_cell m (sendCell c 13) _) $$ HIs13 Has13 with Hzs13
  imod (close_cell m (sendCell c 14) _) $$ HIs14 Has14 with Hzs14
  imod (close_cell m (sendCell c 15) _) $$ HIs15 Has15 with Hzs15
  -- the buffer whole again at its final contents; its column sums into the result's staging buffer
  ihave Hrow0 := (row0_toks_join c (commC m c)) $$ [Hrest Hs0 Hs1 Hs2 Hs3 Hs4 Hs5 Hs6 Hs7 Hs8 Hs9 Hs10 Hs11 Hs12 Hs13 Hs14 Hs15]
  · isplitl [Hrest]; · iexact Hrest
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  ihave Hcomm := (comm_join16 c fullShare (commC m c)) $$ [Hrow0 Hrow1 Hrow2 Hrow3 Hrow4 Hrow5 Hrow6 Hrow7 Hrow8 Hrow9 Hrow10 Hrow11 Hrow12 Hrow13 Hrow14 Hrow15]
  · isplitl [Hrow0]; · iexact Hrow0
    isplitl [Hrow1]; · iexact Hrow1
    isplitl [Hrow2]; · iexact Hrow2
    isplitl [Hrow3]; · iexact Hrow3
    isplitl [Hrow4]; · iexact Hrow4
    isplitl [Hrow5]; · iexact Hrow5
    isplitl [Hrow6]; · iexact Hrow6
    isplitl [Hrow7]; · iexact Hrow7
    isplitl [Hrow8]; · iexact Hrow8
    isplitl [Hrow9]; · iexact Hrow9
    isplitl [Hrow10]; · iexact Hrow10
    isplitl [Hrow11]; · iexact Hrow11
    isplitl [Hrow12]; · iexact Hrow12
    isplitl [Hrow13]; · iexact Hrow13
    isplitl [Hrow14]; · iexact Hrow14
    iexact Hrow15
  iapply (wp_load 𝒱₀ (c : Thread nD τ) none Set.univ (m := (cM : Memref sig .tc .vmem S16x512 .f32)) (Finset.subset_univ _)) $$ Hcomm
  iintro Hcomm
  iapply (wp_load 𝒱₀ (c : Thread nD τ) none Set.univ (m := (oM : Memref sig .tc .vmem S1x512 .f32)) (Finset.subset_univ _)) $$ Hout
  iintro Hout
  iapply (wp_store 𝒱₀ (c : Thread nD τ) none Set.univ (m := (oM : Memref sig .tc .vmem S1x512 .f32)) (r := Rect.unit (s := S1x512) ![0, 0] S1x512.size inb_S1x512_S1x512_0_0) (Mk := Finset.univ) (Finset.subset_univ _)) $$ Hout
  iintro Hout
  rw [write_out, read_comm_whole m c]
  rw [ret_bind', Prog.pure_eq_ret, wp_ret]
  imodintro
  iapply Hk
  unfold bodyPost Φ₁ scratch xPts Dat.owesAt Pipeline.owesWithin
  rw [show (dats m ρ 0 c).owed t₀.succ = 0 from rfl, own33_eq]
  isplitr [HO Hout]
  · isplitl [Hx]; · iexact Hx
    isplitl [Hcomm Hvm]
    · isplitl [Hcomm]
      · iexists (commC m c); iexact Hcomm
      · iexists _; iexact Hvm
    isplitl [Hzc]; · iexact Hzc
    isplitl [Hsp2]; · iexact Hsp2
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzs8]; · iexact Hzs8
    isplitl [Hzs9]; · iexact Hzs9
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hsp3]; · iexact Hsp3
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    isplitl [Hzr11]; · iexact Hzr11
    isplitl [Hzr12]; · iexact Hzr12
    isplitl [Hzr13]; · iexact Hzr13
    isplitl [Hzr14]; · iexact Hzr14
    iexact Hzr15
  isplitl [HO]
  · iexists _
    isplitr
    rotate_left
    · iexact HO
    · ipureintro; exact fun _ _ => Or.inl trivial
  iexists _; isplitr; · (ipureintro; rfl)
  iexact Hout

theorem sound_body : BodySound m ρ := fun c Kt => sound_body_at m ρ c Kt

/-- info: 'Cert.Kernel.Proto.sound_body' depends on axioms: [propext, Classical.choice, Quot.sound] -/
#guard_msgs in #print axioms sound_body

end Cert.Kernel.Proto

end
-- ==== Proof.LaunchKernel.lean ====
/-
  The launch of the sixteen-device all-reduce: the per-device body obligation from the body's soundness statement, the
  credit each device is dealt at launch, the side conditions of the launch theorem, and the run of @main with each device's
  result array at its value and its argument array unchanged.
-/
import proofs.«901069_g7700000000001070_dist_sum_ax0_shard0_i_m1024_n512_v7x_i16_f32_1_alg».proof.Proof.ProtoKernel
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

omit [FloatOps F] in
/-- A whole buffer owned at the full share is its points-to at the named contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- The pipeline's body obligation on device `c`, from the body's soundness statement: the grid has one point and one window. -/
theorem body_obligation (hb : BodySound m ρ) (c : Dev nD) :
    BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ (bodyProg (F := F)) (fun _ => bodyPost m ρ c)
  iintro H
  iapply (hb c fun _ => bodyPost m ρ c)
  isplitl [H]; · iexact H
  iintro H; iexact H

theorem share_eq (c : Dev nD) (w : Fin cfg0.W) : (dats m ρ 0 c).share w = fullShare := by unfold Dat.share; split <;> rfl

/-! ## The launch credit -/

omit [FloatOps F] in
/-- Unit credits on one cell, one per member of a finite set, add up to the set's size. -/
theorem cred_units {α : Type} [DecidableEq α] (s : Finset α) (g : GSem nD τ sig) :
    (bigSep s fun _ : α => (cred (tallyAt g () 1) : sProp 𝕄)) ⊢ cred (tallyAt g () s.card) := by
  induction s using Finset.induction_on with
  | empty => rw [bigSep_empty, Finset.card_empty, tallyAt_zero, cred_zero]; exact BI.Entails.refl _
  | insert a s ha ih =>
    rw [bigSep_insert ha, Finset.card_insert_of_notMem ha, Nat.add_comm, ← tallyAt_add]
    show iprop(cred (tallyAt g () 1) ∗ bigSep s fun _ : α => cred (tallyAt g () 1)) ⊢ (cred (tallyAt g () 1 + tallyAt g () s.card) : sProp 𝕄)
    iintro ⟨H1, H2⟩
    iapply (cred_add (tallyAt g () 1) (tallyAt g () s.card)).2
    isplitl [H1]; · iexact H1
    iapply ih; iexact H2

omit [FloatOps F] in
theorem card_offs : offs.card = 15 := by decide

omit [FloatOps F] in
/-- Every device owing, at each offset, one row's credit to the receive cell of the device that many places after it, each
    device's receive cell at that offset is dealt one row's credit: the device that many places before it owes it. -/
theorem launch_recvs (c : Dev nD) :
    (Pipeline.launchCred recvsF c : sProp 𝕄) ⊢ bigSep offs fun e => cred (tallyAt (recvCell c e) () N) := by
  rw [show (recvsF : Dev nD → CellTallies nD τ sig Unit) = fun d => ∑ e ∈ offs, (fun e d => owedR d e) e d from rfl, Pipeline.launchCred_sum]
  exact bigSep_mono fun e _ =>
    Pipeline.launchCred_tallyAt (.dma (recvQ e)) (fun d => peer d e) (fun c => src c e) (fun c => peer_src c e) (fun d => src_peer d e) () N c

omit [FloatOps F] in
/-- Every device owing one unit to the barrier cell of each other device, each barrier cell is dealt fifteen. -/
theorem launch_bars (c : Dev nD) :
    (Pipeline.launchCred barsF c : sProp 𝕄) ⊢ cred (tallyAt (barCell c) () 15) := by
  rw [show (barsF : Dev nD → CellTallies nD τ sig Unit) = fun d => ∑ e ∈ offs, (fun e d => owedB d e) e d from rfl, Pipeline.launchCred_sum]
  refine (bigSep_mono fun e _ =>
    Pipeline.launchCred_tallyAt (.reg barS) (fun d => peer d e) (fun c => src c e) (fun c => peer_src c e) (fun d => src_peer d e) () 1 c).trans ?_
  have h := cred_units (F := F) offs (barCell c)
  rw [card_offs] at h
  exact h

omit [FloatOps F] in
/-- The launch credit, written out cell by cell. -/
theorem creds_intro (c : Dev nD) : (Pipeline.launchCred O₀ c : sProp 𝕄) ⊢ creds c := by
  rw [show (O₀ : Dev nD → CellTallies nD τ sig Unit) = fun d => recvsF d + barsF d from rfl, Pipeline.launchCred_add]
  have h : (Pipeline.launchCred recvsF c : sProp 𝕄) ⊢ iprop(cred (tallyAt (recvCell c 1) () N) ∗ cred (tallyAt (recvCell c 2) () N)
      ∗ cred (tallyAt (recvCell c 3) () N) ∗ cred (tallyAt (recvCell c 4) () N) ∗ cred (tallyAt (recvCell c 5) () N) ∗ cred (tallyAt (recvCell c 6) () N)
      ∗ cred (tallyAt (recvCell c 7) () N) ∗ cred (tallyAt (recvCell c 8) () N) ∗ cred (tallyAt (recvCell c 9) () N) ∗ cred (tallyAt (recvCell c 10) () N)
      ∗ cred (tallyAt (recvCell c 11) () N) ∗ cred (tallyAt (recvCell c 12) () N) ∗ cred (tallyAt (recvCell c 13) () N) ∗ cred (tallyAt (recvCell c 14) () N)
      ∗ cred (tallyAt (recvCell c 15) () N)) := by
    have h := launch_recvs (F := F) c
    rw [offs_eq] at h
    rw [bigSep_insert (by decide), bigSep_insert (by decide), bigSep_insert (by decide), bigSep_insert (by decide), bigSep_insert (by decide),
      bigSep_insert (by decide), bigSep_insert (by decide), bigSep_insert (by decide), bigSep_insert (by decide), bigSep_insert (by decide),
      bigSep_insert (by decide), bigSep_insert (by decide), bigSep_insert (by decide), bigSep_insert (by decide), bigSep_singleton] at h
    exact h
  unfold creds
  iintro ⟨HR, HB⟩
  isplitl [HB]
  · iapply (launch_bars (F := F) c); iexact HB
  iapply h; iexact HR

/-! ## The launch theorem's side conditions -/

/-- What the launch hands a device — its argument array (the one unscoped buffer no window stages), the level facts, the launch
    credit, and what the global step left it — is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds_intro (F := F) c) $$ Hcr
  imodintro
  unfold start xPts
  isplitl
  · isplitl [HG]; · iexact HG
    isplitl [Hc]; · iexact Hc
    isplitl [Hlev]; · iexact Hlev
    iexact Hx
  · iempintro

/-- With the two scratch buffers the region allocates, that is the invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The invariant after the point gives the argument array back, every own semaphore at zero, and the scratch buffers. -/
theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Hx, Hs, Ho⟩
  isplitl [Hx]; · iexact Hx
  isplitl [Ho]; · iexact Ho
  iexact Hs

/-- The pipeline's one staging semaphore sits at level 0, below everything a device owes at launch; after the point nothing is owed. -/
theorem waits (c : Dev nD) : (levAts L lv : sProp 𝕄) ⊢ Pipeline.cellsWaits cfgs (dats m ρ) () 0 c :=
  Pipeline.cellsWaits_intro cfgs (dats m ρ) () 0 c fun w s t =>
    mayWait_zero_level c _ (by fin_cases w <;> fin_cases s <;> decide) _ (by
      rcases t with ⟨_ | _, ht⟩
      · exact fun g u h => h
      · exact fun g u h => absurd h (Nat.lt_irrefl 0))

/-! ## The run -/

set_option maxRecDepth 16384 in
/-- The result array after the one point's write-back: the staged block, written over the whole array. -/
theorem finalA (c : Dev nD) : (dats m ρ 0 c).arrAt (0 : Fin 1) cfg0.N = outC m c := by
  have h := (dats m ρ 0 c).arrAt_succ (0 : Fin 1) t₀
  rw [flush0_0 t₀, if_pos rfl] at h
  refine Eq.trans (show _ = (dats m ρ 0 c).arrAt (0 : Fin 1) (t₀.val + 1) from rfl) (h.trans ?_)
  exact Memref.write_access_unit_zero_univ (Elt F) main_v1 (funext fun a => Nat.zero_mul _) _ _ _

set_option maxRecDepth 16384 in
/-- At the compiled mesh of sixteen devices, for any float values, from any memory with zero counters: every weakly fair
    execution of @main — the sixteen kernels handshaking on the runtime's barrier semaphore, each then sending its
    contribution to every other device and summing what it gathered — terminates, and every final state has each device's
    result array at its value and its argument array unchanged. The ghost state the launch deals (`hu₀`), the global step that
    opens the cells' invariants over every device's semaphores (`hglob`) and the layout fact about the kernel's own
    semaphores (`hown`) are taken as hypotheses. -/
theorem run_main (hb : BodySound m ρ)
    (G : Dev nD → sProp 𝕄) (u₀ : UU)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' m))
    (hown : Pipeline.OwnSemFacts cfg0.spec osem) :
    θ_run defs (onTc (τ := τ) (main (F := F))) (s₀ m ρ) (fun r => ∀ c : Dev nD,
      r.2.mem ((c.tc : Thread nD τ).loc main_v1) = outC m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ hown (Pipeline.PreFacts.none _) EP defs₀ 𝒱₀ m ρ main
    (hmain := fun _ => rfl)
    (hbody := body_obligation m ρ hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := hu₀)
    (hglob := hglob)
    (hA := fun _ _ => rfl) (hpf := fun _ k => k.elim0)
    (X := start m) (Y := xPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xPts
      iintro ⟨Hx, -, HSI⟩
      icombine HSI Hx gives %hx
      imodintro
      isplitr; · ipureintro; exact Buf.eq_of_forall_mem_univ hx
      iexact HSI)
    (hQ := fun s h c => ⟨((h c).1 0).trans (finalA m ρ c), (h c).2.2⟩)

/-- info: 'Cert.Kernel.Proto.run_main' depends on axioms: [propext, Classical.choice, Quot.sound] -/
#guard_msgs in #print axioms run_main

end Cert.Kernel.Proto

end
-- ==== Proof.GlobKernel.lean ====
/-
  The launch's global step of the sixteen-device all-reduce. The protocol's ghost state is minted at the cells: each of a
  device's thirty-two cells (its barrier cell, its local copy's cell, fifteen send cells, fifteen receive cells) gets its round state, its
  owner's position and its reached-mark, and every duty its token. The step allocates each cell's invariant from its
  counter at zero and its round state, and deals every token to the device that pays the duty: the barrier duty `d` of
  device `c'` and the receive duty at offset `e` of device `c'` go to the device `e` places before `c'` (with `d` the
  opposite offset `16 - e`), a send duty and the local copy's duty stay where they are. Per offset this is a rotation of
  the sixteen devices.
-/
import proofs.«901069_g7700000000001070_dist_sum_ax0_shard0_i_m1024_n512_v7x_i16_f32_1_alg».proof.Proof.ProtoKernel

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

/-- A device's thirty-two protocol semaphores: the barrier's, the fifteen send semaphores in use, the fifteen receive
    semaphores in use, the local copy's. -/
abbrev csem : Fin 32 → SemLoc sig := fun k =>
  if k.val = 0 then .reg barS
  else if h : k.val ≤ 15 then .dma (sendQ ⟨k.val, by omega⟩)
  else if h' : k.val ≤ 30 then .dma (recvQ ⟨k.val - 15, by omega⟩)
  else .dma copyQ
abbrev kcell (ck : Dev nD × Fin 32) : GSem nD τ sig := ((ck.1 : Thread nD τ), csem ck.2)

theorem csem_injective : Function.Injective csem := by decide

theorem kcell_injective : Function.Injective (kcell : Dev nD × Fin 32 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- The fifteen offsets in use, `1 … 15`, and each one's opposite, `15 … 1`. -/
def off (j : Fin 15) : Fin 16 := ⟨j.val + 1, by omega⟩
def opp (j : Fin 15) : Fin 16 := ⟨15 - j.val, by omega⟩
/-- Where the send and the receive cell of an offset sit among the thirty-two. -/
def sK (j : Fin 15) : Fin 32 := ⟨j.val + 1, by omega⟩
def rK (j : Fin 15) : Fin 32 := ⟨j.val + 16, by omega⟩

theorem csem_sK : ∀ j : Fin 15, csem (sK j) = .dma (sendQ (off j)) := by decide
theorem csem_rK : ∀ j : Fin 15, csem (rK j) = .dma (recvQ (off j)) := by decide

/-- A device's forty-six duties as minted: the local copy's, and by offset the barrier duty at the opposite offset, the
    receive duty, the send duty. -/
def tokS : Unit ⊕ (Fin 15 × Fin 3) → SemLoc sig × Fin 16
  | .inl _ => (.dma copyQ, 0)
  | .inr jt => match jt.2 with
    | 0 => (.reg barS, opp jt.1) | 1 => (.dma (recvQ (off jt.1)), 0) | 2 => (.dma (sendQ (off jt.1)), 0)
theorem tokS_injective : Function.Injective tokS := by decide
def tokOf (cj : Dev nD × (Unit ⊕ (Fin 15 × Fin 3))) : GSem nD τ sig × ℕ × Fin 16 := (((cj.1 : Thread nD τ), (tokS cj.2).1), 0, (tokS cj.2).2)
theorem tokOf_injective : Function.Injective (tokOf : Dev nD × (Unit ⊕ (Fin 15 × Fin 3)) → GSem nD τ sig × ℕ × Fin 16) := by
  rintro ⟨c, jt⟩ ⟨c', jt'⟩ h
  have h1 : c = c' := by have := congrArg (fun x : GSem nD τ sig × ℕ × Fin 16 => x.1.1.1) h; exact this
  subst h1
  have h2 : tokS jt = tokS jt' := Prod.ext (congrArg (fun x : GSem nD τ sig × ℕ × Fin 16 => x.1.2) h) (congrArg (fun x : GSem nD τ sig × ℕ × Fin 16 => x.2.2) h)
  rw [tokS_injective h2]
def protoToks : Finset (GSem nD τ sig × ℕ × Fin 16) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (copyCell c) 0 0 ∗ bigSep Finset.univ fun j : Fin 15 =>
    iprop(dutyTok ER (barCell c) 0 (opp j) ∗ dutyTok ER (recvCell c (off j)) 0 0 ∗ dutyTok ER (sendCell c (off j)) 0 0))

/-- What the launch element deals device `c`. -/
def G (c : Dev nD) : sProp 𝕄 :=
  iprop((bigSep Finset.univ fun k : Fin 32 => roundState ER (sched m) (kcell (c, k)) 0)
    ∗ (bigSep Finset.univ fun k : Fin 32 => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 32 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks; rw [bigSep_univ_sum, bigSep_univ_of_subsingleton (), bigSep_univ_prod]
      exact congrArg _ (bigSep_congr fun j _ => by rw [bigSep_fin3]; rfl)
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline library's and the protocol's, and the latter funds every device. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-! ## The semaphores at zero -/

theorem ownSemFacts : Pipeline.OwnSemFacts cfg0.spec osem := by decide

/-- Where the protocol's send and receive semaphores sit among the kernel's own thirty-three. -/
def sO (j : Fin 15) : Fin 33 := ⟨j.val + 2, by omega⟩
def rO (j : Fin 15) : Fin 33 := ⟨j.val + 18, by omega⟩
theorem osem_sO : ∀ j : Fin 15, osem (sO j) = .dma (sendQ (off j)) := by decide
theorem osem_rO : ∀ j : Fin 15, osem (rO j) = .dma (recvQ (off j)) := by decide

theorem sK_injective : Function.Injective sK := by decide
theorem rK_injective : Function.Injective rK := by decide
theorem sO_injective : Function.Injective sO := by decide
theorem rO_injective : Function.Injective rO := by decide

/-- The thirty-two are the barrier's index, the local copy's, the fifteen send indices and the fifteen receive indices. -/
theorem fin32_eq : (Finset.univ : Finset (Fin 32)) = insert 0 (insert 31 (Finset.univ.map ⟨sK, sK_injective⟩ ∪ Finset.univ.map ⟨rK, rK_injective⟩)) := by decide
theorem fin32_zero : (0 : Fin 32) ∉ insert 31 (Finset.univ.map ⟨sK, sK_injective⟩ ∪ Finset.univ.map ⟨rK, rK_injective⟩) := by decide
theorem fin32_last : (31 : Fin 32) ∉ Finset.univ.map ⟨sK, sK_injective⟩ ∪ Finset.univ.map ⟨rK, rK_injective⟩ := by decide
theorem fin32_disj : Disjoint (Finset.univ.map ⟨sK, sK_injective⟩) (Finset.univ.map ⟨rK, rK_injective⟩) := Finset.disjoint_left.mpr (by decide)

theorem bigSep_fin32 (Φ : Fin 32 → sProp 𝕄) :
    bigSep Finset.univ Φ = iprop(Φ 0 ∗ Φ 31 ∗ (bigSep Finset.univ fun j : Fin 15 => Φ (sK j)) ∗ bigSep Finset.univ fun j : Fin 15 => Φ (rK j)) := by
  rw [fin32_eq, bigSep_insert fin32_zero, bigSep_insert fin32_last, bigSep_union fin32_disj, bigSep_map, bigSep_map]; rfl

/-- The thirty-three own semaphores are the local copy's, the two unused ones and the fifteen send and fifteen receive semaphores. -/
theorem fin33_eq : (Finset.univ : Finset (Fin 33)) = insert 0 (insert 1 (insert 17 (Finset.univ.map ⟨sO, sO_injective⟩ ∪ Finset.univ.map ⟨rO, rO_injective⟩))) := by decide
theorem fin33_zero : (0 : Fin 33) ∉ insert 1 (insert 17 (Finset.univ.map ⟨sO, sO_injective⟩ ∪ Finset.univ.map ⟨rO, rO_injective⟩)) := by decide
theorem fin33_one : (1 : Fin 33) ∉ insert 17 (Finset.univ.map ⟨sO, sO_injective⟩ ∪ Finset.univ.map ⟨rO, rO_injective⟩) := by decide
theorem fin33_17 : (17 : Fin 33) ∉ Finset.univ.map ⟨sO, sO_injective⟩ ∪ Finset.univ.map ⟨rO, rO_injective⟩ := by decide
theorem fin33_disj : Disjoint (Finset.univ.map ⟨sO, sO_injective⟩) (Finset.univ.map ⟨rO, rO_injective⟩) := Finset.disjoint_left.mpr (by decide)

theorem bigSep_fin33 (Φ : Fin 33 → sProp 𝕄) :
    bigSep Finset.univ Φ = iprop(Φ 0 ∗ Φ 1 ∗ Φ 17 ∗ (bigSep Finset.univ fun j : Fin 15 => Φ (sO j)) ∗ bigSep Finset.univ fun j : Fin 15 => Φ (rO j)) := by
  rw [fin33_eq, bigSep_insert fin33_zero, bigSep_insert fin33_one, bigSep_insert fin33_17, bigSep_union fin33_disj, bigSep_map, bigSep_map]; rfl

theorem send_eq (c : Dev nD) (j : Fin 15) : sendCell c (off j) = kcell (c, sK j) := by
  show ((c : Thread nD τ), SemLoc.dma (sendQ (off j))) = ((c : Thread nD τ), csem (sK j)); rw [csem_sK]
theorem recv_eq (c : Dev nD) (j : Fin 15) : recvCell c (off j) = kcell (c, rK j) := by
  show ((c : Thread nD τ), SemLoc.dma (recvQ (off j))) = ((c : Thread nD τ), csem (rK j)); rw [csem_rK]

/-- Anything said of a device's thirty-two cells, said of its barrier cell, its local copy's cell, its send cells and its
    receive cells. -/
theorem bigSep_cells (c : Dev nD) (Φ : GSem nD τ sig → sProp 𝕄) :
    (bigSep Finset.univ fun k : Fin 32 => Φ (kcell (c, k)))
      = iprop(Φ (barCell c) ∗ Φ (copyCell c) ∗ (bigSep Finset.univ fun j : Fin 15 => Φ (sendCell c (off j))) ∗ bigSep Finset.univ fun j : Fin 15 => Φ (recvCell c (off j))) := by
  rw [bigSep_fin32, bigSep_congr (fun j _ => congrArg Φ (send_eq c j)), bigSep_congr (fun j _ => congrArg Φ (recv_eq c j))]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier semaphore at zero are the thirty-two cells' counters and the two unused ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 32 => semVal (kcell (c, k)) 0) ∗ spare c) : sProp 𝕄) := by
  unfold Pipeline.ownSems0 spare
  rw [unscopedSems0_eq, bigSep_fin33, bigSep_cells c (fun g => semVal g 0)]
  simp only [osem_sO, osem_rO]
  iintro ⟨⟨H0, H1, H17, HS, HR⟩, HB⟩
  isplitl [HB H0 HS HR]
  · isplitl [HB]; · iexact HB
    isplitl [H0]; · iexact H0
    isplitl [HS]; · iexact HS
    iexact HR
  isplitl [H1]; · iexact H1
  iexact H17

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ spare c) := by
  unfold G
  iintro ⟨Hos, Hus, Hst, Hat, Htok⟩
  ihave Hv := (sems0_eq (F := F) c) $$ [Hos Hus]
  · isplitl [Hos] <;> iassumption
  icases Hv with ⟨Hv, Hsp⟩
  imod (show iprop((bigSep Finset.univ fun k : Fin 32 => semVal (kcell (c, k)) 0) ∗ bigSep Finset.univ fun k : Fin 32 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsp

/-! ## The regrouping -/

/-- The rotation of the devices by an offset. -/
def ringE (e : Fin 16) : Dev nD ≃ Dev nD := ⟨fun c => peer c e, fun c => src c e, fun c => src_peer c e, fun c => peer_src c e⟩

/-- A family over devices and offsets may be dealt along each offset's rotation. -/
theorem deal (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (peer c (off j)) j := by
  rw [bigSep_univ_comm, bigSep_univ_comm (fun (c : Dev nD) (j : Fin 15) => Φ (peer c (off j)) j)]
  exact bigSep_congr fun j _ => bigSep_univ_equiv (ringE (off j)) (fun c => Φ c j)

/-- The names of the cells, as a function of the cell. -/
def Kof (K' : Dev nD × Fin 32 → ℕ) (g : GSem nD τ sig) : ℕ := if h : ∃ ck, kcell ck = g then K' h.choose else 0
theorem Kof_kcell (K' : Dev nD × Fin 32 → ℕ) (ck : Dev nD × Fin 32) : Kof K' (kcell ck) = K' ck := by
  have h : ∃ ck', kcell ck' = kcell ck := ⟨ck, rfl⟩
  unfold Kof; rw [dif_pos h, kcell_injective h.choose_spec]

/-- The persistent part: every cell's invariant at its name, and that round 0 of every cell is reached. -/
def records (K' : Dev nD × Fin 32 → ℕ) : sProp 𝕄 :=
  iprop((bigSep Finset.univ fun ck : Dev nD × Fin 32 => cellInv ER (sched m) (K' ck) (kcell ck))
    ∗ bigSep Finset.univ fun ck : Dev nD × Fin 32 => reached ER (kcell ck) 0)

instance records_persistent (K' : Dev nD × Fin 32 → ℕ) : BI.Persistent (records m K') := by unfold records; infer_instance

theorem inv_at (K' : Dev nD × Fin 32 → ℕ) (ck : Dev nD × Fin 32) :
    (bigSep Finset.univ fun ck : Dev nD × Fin 32 => (cellInv ER (sched m) (K' ck) (kcell ck) : sProp 𝕄)) ⊢ cellInv ER (sched m) (Kof K' (kcell ck)) (kcell ck) := by
  rw [Kof_kcell]; exact bigSep_elim (Finset.mem_univ ck)
theorem inv_bar (K' : Dev nD × Fin 32 → ℕ) (c : Dev nD) :
    (bigSep Finset.univ fun ck : Dev nD × Fin 32 => (cellInv ER (sched m) (K' ck) (kcell ck) : sProp 𝕄)) ⊢ cellInv ER (sched m) (Kof K' (barCell c)) (barCell c) :=
  inv_at m K' (c, 0)
theorem inv_copy (K' : Dev nD × Fin 32 → ℕ) (c : Dev nD) :
    (bigSep Finset.univ fun ck : Dev nD × Fin 32 => (cellInv ER (sched m) (K' ck) (kcell ck) : sProp 𝕄)) ⊢ cellInv ER (sched m) (Kof K' (copyCell c)) (copyCell c) :=
  inv_at m K' (c, 31)
theorem inv_send (K' : Dev nD × Fin 32 → ℕ) (c : Dev nD) (j : Fin 15) :
    (bigSep Finset.univ fun ck : Dev nD × Fin 32 => (cellInv ER (sched m) (K' ck) (kcell ck) : sProp 𝕄)) ⊢ cellInv ER (sched m) (Kof K' (sendCell c (off j))) (sendCell c (off j)) := by
  rw [send_eq]; exact inv_at m K' (c, sK j)
theorem inv_recv (K' : Dev nD × Fin 32 → ℕ) (c : Dev nD) (j : Fin 15) :
    (bigSep Finset.univ fun ck : Dev nD × Fin 32 => (cellInv ER (sched m) (K' ck) (kcell ck) : sProp 𝕄)) ⊢ cellInv ER (sched m) (Kof K' (recvCell c (off j))) (recvCell c (off j)) := by
  rw [recv_eq]; exact inv_at m K' (c, rK j)

theorem reached_at (ck : Dev nD × Fin 32) :
    (bigSep Finset.univ fun ck : Dev nD × Fin 32 => (reached ER (kcell ck) 0 : sProp 𝕄)) ⊢ reached ER (kcell ck) 0 :=
  bigSep_elim (Finset.mem_univ ck)
theorem reached_bar (c : Dev nD) :
    (bigSep Finset.univ fun ck : Dev nD × Fin 32 => (reached ER (kcell ck) 0 : sProp 𝕄)) ⊢ reached ER (barCell c) 0 :=
  reached_at (F := F) (c, 0)
theorem reached_copy (c : Dev nD) :
    (bigSep Finset.univ fun ck : Dev nD × Fin 32 => (reached ER (kcell ck) 0 : sProp 𝕄)) ⊢ reached ER (copyCell c) 0 :=
  reached_at (F := F) (c, 31)
theorem reached_send (c : Dev nD) (j : Fin 15) :
    (bigSep Finset.univ fun ck : Dev nD × Fin 32 => (reached ER (kcell ck) 0 : sProp 𝕄)) ⊢ reached ER (sendCell c (off j)) 0 := by
  rw [send_eq]; exact reached_at (F := F) (c, sK j)
theorem reached_recv (c : Dev nD) (j : Fin 15) :
    (bigSep Finset.univ fun ck : Dev nD × Fin 32 => (reached ER (kcell ck) 0 : sProp 𝕄)) ⊢ reached ER (recvCell c (off j)) 0 := by
  rw [recv_eq]; exact reached_at (F := F) (c, rK j)

/-- What stays with device `c` at an offset: its positions in its send and receive cells there, -/
def posE (c : Dev nD) (j : Fin 15) : sProp 𝕄 := iprop(atPos ER (sendCell c (off j)) 0 ∅ 0 ∗ atPos ER (recvCell c (off j)) 0 ∅ 0)
/-- and the tokens of the three duties IT pays there: its signal to the device that many places on, its transfer's
    landing there, its transfer's completion here. -/
def payE (c : Dev nD) (j : Fin 15) : sProp 𝕄 :=
  iprop(dutyTok ER (barCell (peer c (off j))) 0 (opp j) ∗ dutyTok ER (recvCell (peer c (off j)) (off j)) 0 0 ∗ dutyTok ER (sendCell c (off j)) 0 0)
/-- All the tokens device `c` pays with: its local copy's, and each offset's three. -/
def payToks (c : Dev nD) : sProp 𝕄 := iprop(dutyTok ER (copyCell c) 0 0 ∗ bigSep Finset.univ fun j : Fin 15 => payE c j)
def linear (c : Dev nD) : sProp 𝕄 :=
  iprop(atPos ER (barCell c) 0 ∅ 0 ∗ atPos ER (copyCell c) 0 ∅ 0 ∗ (bigSep Finset.univ fun j : Fin 15 => posE c j) ∗ payToks c ∗ spare c)

theorem ghostE_intro (K' : Dev nD × Fin 32 → ℕ) (c : Dev nD) (j : Fin 15) :
    iprop(records m K' ∗ posE c j ∗ payE c j) ⊢ ghostE m (Kof K') c (off j) (opp j) := by
  unfold records posE payE ghostE
  iintro ⟨⟨#HI, #HR⟩, ⟨HaS, HaV⟩, HtB, HtV, HtS⟩
  isplitr; · iapply (inv_send m K' c j); iexact HI
  isplitr; · iapply (inv_recv m K' c j); iexact HI
  isplitr; · iapply (inv_bar m K' (peer c (off j))); iexact HI
  isplitr; · iapply (inv_recv m K' (peer c (off j)) j); iexact HI
  isplitl [HaS]; · iexact HaS
  isplitl [HaV]; · iexact HaV
  isplitr; · iapply (reached_bar (F := F) (peer c (off j))); iexact HR
  isplitr; · iapply (reached_recv (F := F) (peer c (off j)) j); iexact HR
  isplitr; · iapply (reached_send (F := F) c j); iexact HR
  isplitr; · iapply (reached_recv (F := F) c j); iexact HR
  isplitl [HtB]; · iexact HtB
  isplitl [HtV]; · iexact HtV
  iexact HtS

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- A device's ghost state, offset by offset. -/
theorem ghost_eq (K : GSem nD τ sig → ℕ) (c : Dev nD) :
    ghost m K c = iprop(cellInv ER (sched m) (K (barCell c)) (barCell c) ∗ atPos ER (barCell c) 0 ∅ 0
      ∗ cellInv ER (sched m) (K (copyCell c)) (copyCell c) ∗ atPos ER (copyCell c) 0 ∅ 0 ∗ reached ER (copyCell c) 0 ∗ dutyTok ER (copyCell c) 0 0
      ∗ bigSep Finset.univ fun j : Fin 15 => ghostE m K c (off j) (opp j)) := by
  unfold ghost; rw [bigSep_fin15]; rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K' : Dev nD × Fin 32 → ℕ) (c : Dev nD) : iprop(records m K' ∗ linear c) ⊢ G' m c := by
  have step : iprop(records m K' ∗ (bigSep Finset.univ fun j : Fin 15 => posE c j) ∗ bigSep Finset.univ fun j : Fin 15 => payE c j)
      ⊢ (bigSep Finset.univ fun j : Fin 15 => ghostE m (Kof K') c (off j) (opp j) : sProp 𝕄) := by
    rw [← bigSep_sep']; exact bigSep_with_persistent fun j _ => ghostE_intro m K' c j
  unfold linear payToks G'
  iintro ⟨#HR, HaB, HaC, Hpos, ⟨HtC, Hpay⟩, Hsp⟩
  isplitr [Hsp]
  · iexists (Kof K')
    iapply (Entails.of_eq (ghost_eq m (Kof K') c).symm)
    isplitr
    · unfold records; icases HR with ⟨#HI, -⟩
      iapply (inv_bar m K' c); iexact HI
    isplitl [HaB]; · iexact HaB
    isplitr
    · unfold records; icases HR with ⟨#HI, -⟩
      iapply (inv_copy m K' c); iexact HI
    isplitl [HaC]; · iexact HaC
    isplitr
    · unfold records; icases HR with ⟨-, #HRr⟩
      iapply (reached_copy (F := F) c); iexact HRr
    isplitl [HtC]; · iexact HtC
    iapply step
    isplitr; · iexact HR
    isplitl [Hpos]; · iexact Hpos
    iexact Hpay
  iexact Hsp

/-- The tokens dealt around: at each offset, a barrier's token and a receive token go that many devices back. -/
theorem toks_around : (bigSep Finset.univ fun c : Dev nD => (toks c : sProp 𝕄)) ⊢ bigSep Finset.univ fun c : Dev nD => payToks c := by
  unfold toks payToks payE
  simp only [bigSep_sep']
  rw [deal (fun (c : Dev nD) (j : Fin 15) => (dutyTok ER (barCell c) 0 (opp j) : sProp 𝕄)),
    deal (fun (c : Dev nD) (j : Fin 15) => (dutyTok ER (recvCell c (off j)) 0 0 : sProp 𝕄))]

theorem lin_intro (c : Dev nD) :
    iprop((bigSep Finset.univ fun k : Fin 32 => atPos ER (kcell (c, k)) 0 ∅ 0) ∗ payToks c ∗ spare c) ⊢ (linear c : sProp 𝕄) := by
  unfold linear posE
  rw [bigSep_cells c (fun g => atPos ER g 0 ∅ 0), bigSep_sep']
  iintro ⟨⟨HB, HC, HS, HV⟩, Hpay, Hsp⟩
  isplitl [HB]; · iexact HB
  isplitl [HC]; · iexact HC
  isplitl [HS HV]
  · isplitl [HS]; · iexact HS
    iexact HV
  isplitl [Hpay]; · iexact Hpay
  iexact Hsp

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ spare c) : sProp 𝕄)
      ⊢ bigSep Finset.univ (G' m) := by
  rw [bigSep_sep', bigSep_sep', bigSep_sep', ← bigSep_univ_prod (fun ck : Dev nD × Fin 32 => iprop(∃ κ : ℕ, cellInv ER (sched m) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok, Hsp⟩
  ihave HK := (BI.bigSep_exists_pi Finset.univ (fun (ck : Dev nD × Fin 32) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => bigSep Finset.univ fun k : Fin 32 => atPos ER (kcell (c, k)) 0 ∅ 0)
        ∗ (bigSep Finset.univ fun c : Dev nD => payToks c) ∗ bigSep Finset.univ fun c : Dev nD => spare c) ⊢ (bigSep Finset.univ fun c : Dev nD => linear c : sProp 𝕄) from by
      rw [← bigSep_sep', ← bigSep_sep']; exact bigSep_mono fun c _ => lin_intro c)
    isplitl [Hat]; · iexact Hat
    isplitl [Htk]; · iexact Htk
    iexact Hsp

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Proto.hu₀' depends on axioms: [propext, Classical.choice, Quot.sound] -/
#guard_msgs in #print axioms hu₀

/-- info: 'Cert.Kernel.Proto.ownSemFacts' depends on axioms: [propext, Classical.choice, Quot.sound] -/
#guard_msgs in #print axioms ownSemFacts

/-- info: 'Cert.Kernel.Proto.glob' depends on axioms: [propext, Classical.choice, Quot.sound] -/
#guard_msgs in #print axioms glob

end Cert.Kernel.Proto

end
-- ==== Proof.lean ====
/-
  The sixteen-device all-reduce against the sum over all rows.

  Every device column-sums its block of 1024 rows into row 0 of its gather buffer, shakes hands with the fifteen
  other devices on the barrier semaphore, copies its row to row `e` of the device `e` places after it (for
  `e = 1 … 15`), waits until the fifteen rows addressed to it have landed and its own fifteen copies have been read,
  and column-sums the sixteen rows it then holds. The handshake is what makes the copies safe: a device's signal to a
  peer hands that peer the row the peer will write, so no copy lands before its target is inside the kernel.
  Each device's result is therefore the sum of the sixteen devices' contributions, taken in ring order from that
  device; over the extended reals this is the sum of the whole array's rows, which is what the reference computes
  on one device: addition there is commutative and associative, and no finiteness is needed.

  The run of @main with every device's result array at that value and its argument array unchanged is proved once,
  generically in the float instance, and read at the word-level instance for the kernel's frame and at the ideal
  instance for the idealized kernel's frame and for the equivalence; the idealization rewrote no operation.
-/
import proofs.«901069_g7700000000001070_dist_sum_ax0_shard0_i_m1024_n512_v7x_i16_f32_1_alg».proof.Defs
import proofs.«901069_g7700000000001070_dist_sum_ax0_shard0_i_m1024_n512_v7x_i16_f32_1_alg».proof.Proof.Gen.Kernel
import proofs.«901069_g7700000000001070_dist_sum_ax0_shard0_i_m1024_n512_v7x_i16_f32_1_alg».proof.Proof.Gen.Kernel.Skeleton
import proofs.«901069_g7700000000001070_dist_sum_ax0_shard0_i_m1024_n512_v7x_i16_f32_1_alg».proof.Proof.Gen.Kernel.Launch
import proofs.«901069_g7700000000001070_dist_sum_ax0_shard0_i_m1024_n512_v7x_i16_f32_1_alg».proof.Proof.Gen.Kernel.Points
import proofs.«901069_g7700000000001070_dist_sum_ax0_shard0_i_m1024_n512_v7x_i16_f32_1_alg».proof.Proof.Gen.Kernel.Frame
import proofs.«901069_g7700000000001070_dist_sum_ax0_shard0_i_m1024_n512_v7x_i16_f32_1_alg».proof.Proof.Gen.KernelIdeal
import proofs.«901069_g7700000000001070_dist_sum_ax0_shard0_i_m1024_n512_v7x_i16_f32_1_alg».proof.Proof.Gen.KernelIdeal.Skeleton
import proofs.«901069_g7700000000001070_dist_sum_ax0_shard0_i_m1024_n512_v7x_i16_f32_1_alg».proof.Proof.Gen.KernelIdeal.Launch
import proofs.«901069_g7700000000001070_dist_sum_ax0_shard0_i_m1024_n512_v7x_i16_f32_1_alg».proof.Proof.Gen.KernelIdeal.Points
import proofs.«901069_g7700000000001070_dist_sum_ax0_shard0_i_m1024_n512_v7x_i16_f32_1_alg».proof.Proof.Gen.KernelIdeal.Frame
import proofs.«901069_g7700000000001070_dist_sum_ax0_shard0_i_m1024_n512_v7x_i16_f32_1_alg».proof.Proof.Gen.ReferenceIdeal
import proofs.«901069_g7700000000001070_dist_sum_ax0_shard0_i_m1024_n512_v7x_i16_f32_1_alg».proof.Proof.Gen.Pre_finite_inputs_Kernel
import proofs.«901069_g7700000000001070_dist_sum_ax0_shard0_i_m1024_n512_v7x_i16_f32_1_alg».proof.Proof.Gen.Pre_finite_inputs_ReferenceIdeal
import proofs.«901069_g7700000000001070_dist_sum_ax0_shard0_i_m1024_n512_v7x_i16_f32_1_alg».proof.Proof.RefValue
import proofs.«901069_g7700000000001070_dist_sum_ax0_shard0_i_m1024_n512_v7x_i16_f32_1_alg».proof.Proof.BodyKernelIdeal
import proofs.«901069_g7700000000001070_dist_sum_ax0_shard0_i_m1024_n512_v7x_i16_f32_1_alg».proof.Proof.LaunchKernelIdeal
import proofs.«901069_g7700000000001070_dist_sum_ax0_shard0_i_m1024_n512_v7x_i16_f32_1_alg».proof.Proof.GlobKernelIdeal
import proofs.«901069_g7700000000001070_dist_sum_ax0_shard0_i_m1024_n512_v7x_i16_f32_1_alg».proof.Proof.BodyKernel
import proofs.«901069_g7700000000001070_dist_sum_ax0_shard0_i_m1024_n512_v7x_i16_f32_1_alg».proof.Proof.LaunchKernel
import proofs.«901069_g7700000000001070_dist_sum_ax0_shard0_i_m1024_n512_v7x_i16_f32_1_alg».proof.Proof.GlobKernel
import Idealize.ShloMosaic.Adequacy
import Idealize.ShloMosaic.Init

noncomputable section

namespace Cert.Proof

open Idealize.ShloMosaic Idealize.SL.Sem

/-- The idealized kernel's run, at any float instance: every device's result is the all-reduce of the sixteen blocks as
    launched, and its block is unchanged. -/
theorem run_ki {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => ∀ c : Dev Cert.KernelIdeal.nD,
        r.2.mem ((c.tc : Thread Cert.KernelIdeal.nD Cert.KernelIdeal.τ).loc Cert.KernelIdeal.main_v1)
          = Cert.KernelIdeal.Spec.out (F := F) (fun p => m ((p.tc : Thread Cert.KernelIdeal.nD Cert.KernelIdeal.τ).loc Cert.KernelIdeal.main_arg0)) c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  Cert.KernelIdeal.Proto.run_main m g (Cert.KernelIdeal.Proto.sound_body m g) (Cert.KernelIdeal.Proto.G m) Cert.KernelIdeal.Proto.u₀
    (Cert.KernelIdeal.Proto.hu₀ m) (Cert.KernelIdeal.Proto.glob m) Cert.KernelIdeal.Proto.ownSemFacts

/-- The kernel's run as printed, likewise. -/
theorem run_k {F : FTy → Type} [FloatOps F] (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F))) ⟨m, fun _ => 0, g⟩
      (fun r => ∀ c : Dev Cert.Kernel.nD,
        r.2.mem ((c.tc : Thread Cert.Kernel.nD Cert.Kernel.τ).loc Cert.Kernel.main_v1)
          = Cert.Kernel.Spec.out (F := F) (fun p => m ((p.tc : Thread Cert.Kernel.nD Cert.Kernel.τ).loc Cert.Kernel.main_arg0)) c
        ∧ r.2.mem ((c.tc : Thread Cert.Kernel.nD Cert.Kernel.τ).loc Cert.Kernel.main_arg0)
          = m ((c.tc : Thread Cert.Kernel.nD Cert.Kernel.τ).loc Cert.Kernel.main_arg0)) :=
  Cert.Kernel.Proto.run_main m g (Cert.Kernel.Proto.sound_body m g) (Cert.Kernel.Proto.G m) Cert.Kernel.Proto.u₀
    (Cert.Kernel.Proto.hu₀ m) (Cert.Kernel.Proto.glob m) Cert.Kernel.Proto.ownSemFacts

theorem frame_k : Cert.frame_Kernel := fun m g _ =>
  (θ_run (Cert.Kernel.defs (F := Bits)) _ _).mono (fun _ h c => (h c).2) (run_k (F := Bits) m g)

theorem frame_ki : Cert.frame_KernelIdeal := fun m g _ =>
  (θ_run (Cert.KernelIdeal.defs (F := Ideal)) _ _).mono (fun _ h c => (h c).2) (run_ki (F := Ideal) m g)

/-- The idealization's ledger is empty. -/
theorem preserves : Cert.preserves_Kernel_KernelIdeal := trivial

theorem algebraic : Cert.algebraic_KernelIdeal_ReferenceIdeal :=
  Cert.Proof.RefValue.algebraic_of_run fun m g => run_ki (F := Ideal) m g

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.Proof.RefValue.frame_ri, preserves, algebraic⟩

end Cert.Proof

end
